-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x2 : Shape := ⟨2, ![4096, 2]⟩
abbrev S8x1408x2048 : Shape := ⟨3, ![8, 1408, 2048]⟩
abbrev S8x2048x1408 : Shape := ⟨3, ![8, 2048, 1408]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S8x1408x2048 : S_.BroadcastsInDim S8x1408x2048 (![] : Fin 0 → Fin S8x1408x2048.rank)
  reducesTo_S8x1408x2048_S_d0_1_2 : S8x1408x2048.ReducesTo [0, 1, 2] S_
  bcast_S_S8x2048x1408 : S_.BroadcastsInDim S8x2048x1408 (![] : Fin 0 → Fin S8x2048x1408.rank)
  reducesTo_S8x2048x1408_S_d0_1_2 : S8x2048x1408.ReducesTo [0, 1, 2] S_

variable [Facts]

def fn_part1 {F : FTy → Type} [FloatOps F] (main_arg1 : IVec S4096x2 32) (main_arg5 : FVec F S8x2048x1408 .f32) (main_v13 : IVec S_ 1) (main_v16 : IVec S8x1408x2048 1) : IVec S_ 1 :=
  let main_c_5 : IVec S_ 1 := constantI S_ 1 1#1
  let main_v17 : IVec S_ 1 := (fun x v => Host.reduce IntOp.andi x v reducesTo_S8x1408x2048_S_d0_1_2 h_S_) main_v16 main_c_5
  let main_v18 : IVec S_ 1 := andi main_v13 main_v17
  let main_v19 : FVec F S8x2048x1408 .f32 := Host.absf main_arg5
  let main_cst_6 : FVec F S_ .f32 := constant S_ .f32 0x7F800000#32
  let main_v20 : FVec F S8x2048x1408 .f32 := broadcastInDim S8x2048x1408 ![] bcast_S_S8x2048x1408 main_cst_6
  let main_v21 : IVec S8x2048x1408 1 := cmpf .olt main_v19 main_v20
  let main_c_7 : IVec S_ 1 := constantI S_ 1 1#1
  let main_v22 : IVec S_ 1 := (fun x v => Host.reduce IntOp.andi x v reducesTo_S8x2048x1408_S_d0_1_2 h_S_) main_v21 main_c_7
  let main_v23 : IVec S_ 1 := andi main_v18 main_v22
  let main_c_8 : IVec S_ 32 := constantI S_ 32 0#32
  let main_v24 : IVec S4096x2 32 := broadcastInDim S4096x2 ![] bcast_S_S4096x2 main_c_8
  let main_v25 : IVec S4096x2 1 := cmpi .sge main_arg1 main_v24
  let main_c_9 : IVec S_ 32 := constantI S_ 32 8#32
  let main_v26 : IVec S4096x2 32 := broadcastInDim S4096x2 ![] bcast_S_S4096x2 main_c_9
  let main_v27 : IVec S4096x2 1 := cmpi .slt main_arg1 main_v26
  let main_v28 : IVec S4096x2 1 := andi main_v25 main_v27
  let main_c_10 : IVec S_ 1 := constantI S_ 1 1#1
  let main_v29 : IVec S_ 1 := (fun x v => Host.reduce IntOp.andi x v reducesTo_S4096x2_S_d0_1 h_S_) main_v28 main_c_10
  let main_v30 : IVec S_ 1 := andi main_v23 main_v29
  main_v30

def fn {F : FTy → Type} [FloatOps F] (main_arg0 : FVec F S4096x2048 .f32) (main_arg1 : IVec S4096x2 32) (main_arg2 : FVec F S4096x2 .f32) (main_arg3 : FVec F S8x1408x2048 .f32) (main_arg4 : FVec F S8x1408x2048 .f32) (main_arg5 : FVec F S8x2048x1408 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2 .f32 := Host.absf main_arg2
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S8x1408x2048 .f32 := Host.absf main_arg3
  let main_cst_2 : FVec F S_ .f32 := constant S_ .f32 0x7F800000#32
  let main_v10 : FVec F S8x1408x2048 .f32 := broadcastInDim S8x1408x2048 ![] bcast_S_S8x1408x2048 main_cst_2
  let main_v11 : IVec S8x1408x2048 1 := cmpf .olt main_v9 main_v10
  let main_c_3 : IVec S_ 1 := constantI S_ 1 1#1
  let main_v12 : IVec S_ 1 := (fun x v => Host.reduce IntOp.andi x v reducesTo_S8x1408x2048_S_d0_1_2 h_S_) main_v11 main_c_3
  let main_v13 : IVec S_ 1 := andi main_v8 main_v12
  let main_v14 : FVec F S8x1408x2048 .f32 := Host.absf main_arg4
  let main_cst_4 : FVec F S_ .f32 := constant S_ .f32 0x7F800000#32
  let main_v15 : FVec F S8x1408x2048 .f32 := broadcastInDim S8x1408x2048 ![] bcast_S_S8x1408x2048 main_cst_4
  let main_v16 : IVec S8x1408x2048 1 := cmpf .olt main_v14 main_v15
  fn_part1 (F := F) main_arg1 main_arg5 main_v13 main_v16
-- ==== Kernel.lean ====
abbrev S4096x2048 : Shape := ⟨2, ![4096, 2048]⟩
abbrev S4096x2 : Shape := ⟨2, ![4096, 2]⟩
abbrev S8x1408x2048 : Shape := ⟨3, ![8, 1408, 2048]⟩
abbrev S8x2048x1408 : Shape := ⟨3, ![8, 2048, 1408]⟩
abbrev S8192 : Shape := ⟨1, ![8192]⟩
abbrev S4096 : Shape := ⟨1, ![4096]⟩
abbrev S4096x1 : Shape := ⟨2, ![4096, 1]⟩
abbrev S_ : Shape := ⟨0, ![]⟩
abbrev S8192x1 : Shape := ⟨2, ![8192, 1]⟩
abbrev S8 : Shape := ⟨1, ![8]⟩
abbrev S9216 : Shape := ⟨1, ![9216]⟩
abbrev S72 : Shape := ⟨1, ![72]⟩
abbrev S72x1 : Shape := ⟨2, ![72, 1]⟩
abbrev S1x8 : Shape := ⟨2, ![1, 8]⟩
abbrev S72x8 : Shape := ⟨2, ![72, 8]⟩
abbrev S9216x1 : Shape := ⟨2, ![9216, 1]⟩
abbrev S9216x2048 : Shape := ⟨2, ![9216, 2048]⟩
abbrev S128x2048 : Shape := ⟨2, ![128, 2048]⟩
abbrev S128x1 : Shape := ⟨2, ![128, 1]⟩
abbrev S1x1408x2048 : Shape := ⟨3, ![1, 1408, 2048]⟩
abbrev S1 : Shape := ⟨1, ![1]⟩
abbrev S1x2048x1408 : Shape := ⟨3, ![1, 2048, 1408]⟩
abbrev S1408x2048 : Shape := ⟨2, ![1408, 2048]⟩
abbrev S2048x1408 : Shape := ⟨2, ![2048, 1408]⟩
abbrev S128x1408 : Shape := ⟨2, ![128, 1408]⟩
abbrev S8192x2048 : Shape := ⟨2, ![8192, 2048]⟩
abbrev S4096x2x2048 : Shape := ⟨3, ![4096, 2, 2048]⟩

abbrev nBuf : Space → Nat
  | .hbm => 198
  | .vmem => 12
  | .smem => 1
  | _ => 0

abbrev hbmTy0_0 (i : Nat) : BufTy := match i % 128 with
  | 0 => ⟨S4096x2048, .f32⟩
  | 1 => ⟨S4096x2, .i32⟩
  | 2 => ⟨S4096x2, .f32⟩
  | 3 => ⟨S8x1408x2048, .f32⟩
  | 4 => ⟨S8x1408x2048, .f32⟩
  | 5 => ⟨S8x2048x1408, .f32⟩
  | 6 => ⟨S8192, .i32⟩
  | 7 => ⟨S8192, .f32⟩
  | 8 => ⟨S4096, .i32⟩
  | 9 => ⟨S4096x1, .i32⟩
  | 10 => ⟨S4096x2, .i32⟩
  | 11 => ⟨S8192, .i32⟩
  | 12 => ⟨S8192, .i32⟩
  | 13 => ⟨S8192, .i32⟩
  | 14 => ⟨S8192, .i32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S8192x1, .i32⟩
  | 23 => ⟨S8192, .i32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192, .i32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S8192x1, .i32⟩
  | 41 => ⟨S8192, .f32⟩
  | 42 => ⟨S_, .i32⟩
  | 43 => ⟨S8, .i32⟩
  | 44 => ⟨S_, .i32⟩
  | 45 => ⟨S_, .i32⟩
  | 46 => ⟨S8192, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S_, .i32⟩
  | 57 => ⟨S8192, .i32⟩
  | 58 => ⟨S8, .i32⟩
  | 59 => ⟨S_, .i32⟩
  | 60 => ⟨S_, .i32⟩
  | 61 => ⟨S8, .i32⟩
  | 62 => ⟨S8, .i32⟩
  | 63 => ⟨S_, .i32⟩
  | 64 => ⟨S8, .i32⟩
  | 65 => ⟨S8, .i32⟩
  | 66 => ⟨S_, .i32⟩
  | 67 => ⟨S8, .i32⟩
  | 68 => ⟨S8, .i32⟩
  | 69 => ⟨S_, .i32⟩
  | 70 => ⟨S_, .i32⟩
  | 71 => ⟨S8, .i32⟩
  | 72 => ⟨S8, .i32⟩
  | 73 => ⟨S8, .i32⟩
  | 74 => ⟨S_, .i32⟩
  | 75 => ⟨S8, .i32⟩
  | 76 => ⟨S8, .i1⟩
  | 77 => ⟨S8, .i32⟩
  | 78 => ⟨S8, .i32⟩
  | 79 => ⟨S_, .i32⟩
  | 80 => ⟨S8, .i32⟩
  | 81 => ⟨S8, .i1⟩
  | 82 => ⟨S8, .i1⟩
  | 83 => ⟨S_, .i32⟩
  | 84 => ⟨S8, .i32⟩
  | 85 => ⟨S8, .i32⟩
  | 86 => ⟨S8, .i32⟩
  | 87 => ⟨S_, .i32⟩
  | 88 => ⟨S8, .i32⟩
  | 89 => ⟨S8, .i32⟩
  | 90 => ⟨S_, .i32⟩
  | 91 => ⟨S_, .i32⟩
  | 92 => ⟨S8, .i32⟩
  | 93 => ⟨S8, .i32⟩
  | 94 => ⟨S8192, .i32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192, .i32⟩
  | 104 => ⟨S8192, .i32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S8192, .i32⟩
  | 114 => ⟨S8192, .i32⟩
  | 115 => ⟨S_, .i32⟩
  | 116 => ⟨S9216, .i32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S8192x1, .i32⟩
  | 125 => ⟨S9216, .i32⟩
  | 126 => ⟨S_, .f32⟩
  | 127 => ⟨S9216, .f32⟩
  | _ => ⟨S4096x2048, .f32⟩

abbrev hbmTy0_1 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S9216, .f32⟩
  | 9 => ⟨S_, .i32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192, .i32⟩
  | 20 => ⟨S72, .i32⟩
  | 21 => ⟨S_, .i32⟩
  | 22 => ⟨S72, .i32⟩
  | 23 => ⟨S72, .i32⟩
  | 24 => ⟨S72x1, .i32⟩
  | 25 => ⟨S1x8, .i32⟩
  | 26 => ⟨S72x8, .i32⟩
  | 27 => ⟨S72x8, .i32⟩
  | 28 => ⟨S72x8, .i1⟩
  | 29 => ⟨S72x8, .i32⟩
  | 30 => ⟨S_, .i32⟩
  | 31 => ⟨S72, .i32⟩
  | 32 => ⟨S_, .i32⟩
  | 33 => ⟨S72, .i32⟩
  | 34 => ⟨S72, .i32⟩
  | 35 => ⟨S_, .i32⟩
  | 36 => ⟨S_, .i32⟩
  | 37 => ⟨S_, .i32⟩
  | 38 => ⟨S72, .i32⟩
  | 39 => ⟨S72, .i32⟩
  | 40 => ⟨S_, .i32⟩
  | 41 => ⟨S72, .i32⟩
  | 42 => ⟨S4096x2048, .bf16⟩
  | 43 => ⟨S_, .i32⟩
  | 44 => ⟨S9216, .i32⟩
  | 45 => ⟨S9216, .i1⟩
  | 46 => ⟨S_, .i32⟩
  | 47 => ⟨S9216, .i32⟩
  | 48 => ⟨S9216, .i32⟩
  | 49 => ⟨S9216, .i32⟩
  | 50 => ⟨S9216x1, .i32⟩
  | 51 => ⟨S9216x2048, .bf16⟩
  | 52 => ⟨S9216x1, .f32⟩
  | 53 => ⟨S8x1408x2048, .bf16⟩
  | 54 => ⟨S8x1408x2048, .bf16⟩
  | 55 => ⟨S8x2048x1408, .bf16⟩
  | 56 => ⟨S9216x2048, .bf16⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S8192x2048, .bf16⟩
  | 66 => ⟨S8192x2048, .f32⟩
  | 67 => ⟨S4096x2x2048, .f32⟩
  | 68 => ⟨S_, .f32⟩
  | 69 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S128x2048, .bf16⟩
  | .local _ .vmem, ⟨1, _⟩ => ⟨S128x2048, .bf16⟩
  | .local _ .vmem, ⟨2, _⟩ => ⟨S128x1, .f32⟩
  | .local _ .vmem, ⟨3, _⟩ => ⟨S128x1, .f32⟩
  | .local _ .vmem, ⟨4, _⟩ => ⟨S1x1408x2048, .bf16⟩
  | .local _ .vmem, ⟨5, _⟩ => ⟨S1x1408x2048, .bf16⟩
  | .local _ .vmem, ⟨6, _⟩ => ⟨S1x1408x2048, .bf16⟩
  | .local _ .vmem, ⟨7, _⟩ => ⟨S1x1408x2048, .bf16⟩
  | .local _ .vmem, ⟨8, _⟩ => ⟨S1x2048x1408, .bf16⟩
  | .local _ .vmem, ⟨9, _⟩ => ⟨S1x2048x1408, .bf16⟩
  | .local _ .vmem, ⟨10, _⟩ => ⟨S128x2048, .bf16⟩
  | .local _ .vmem, ⟨11, _⟩ => ⟨S128x2048, .bf16⟩
  | .local _ .smem, ⟨0, _⟩ => ⟨S72, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1_0 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_c_6 : Ref sig .tc := ⟨.hbm, 44, rfl⟩
abbrev main_call1_v0 : Ref sig .tc := ⟨.hbm, 45, rfl⟩
abbrev main_call1_v1 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_call2_call0_c : Ref sig .tc := ⟨.hbm, 59, rfl⟩
abbrev main_call2_call0_v0 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v44 : Ref sig .tc := ⟨.hbm, 86, rfl⟩
abbrev main_c_13 : Ref sig .tc := ⟨.hbm, 87, rfl⟩
abbrev main_v45 : Ref sig .tc := ⟨.hbm, 88, rfl⟩
abbrev main_v46 : Ref sig .tc := ⟨.hbm, 89, rfl⟩
abbrev main_call4_call0_c : Ref sig .tc := ⟨.hbm, 90, rfl⟩
abbrev main_call4_call0_v0 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_c_14 : Ref sig .tc := ⟨.hbm, 95, rfl⟩
abbrev main_v50 : Ref sig .tc := ⟨.hbm, 96, rfl⟩
abbrev main_v51 : Ref sig .tc := ⟨.hbm, 97, rfl⟩
abbrev main_c_15 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_c_16 : Ref sig .tc := ⟨.hbm, 105, rfl⟩
abbrev main_v58 : Ref sig .tc := ⟨.hbm, 106, rfl⟩
abbrev main_v59 : Ref sig .tc := ⟨.hbm, 107, rfl⟩
abbrev main_c_17 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_c_18 : Ref sig .tc := ⟨.hbm, 115, rfl⟩
abbrev main_v66 : Ref sig .tc := ⟨.hbm, 116, rfl⟩
abbrev main_c_19 : Ref sig .tc := ⟨.hbm, 117, rfl⟩
abbrev main_v67 : Ref sig .tc := ⟨.hbm, 118, rfl⟩
abbrev main_v68 : Ref sig .tc := ⟨.hbm, 119, rfl⟩
abbrev main_c_20 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst : Ref sig .tc := ⟨.hbm, 126, rfl⟩
abbrev main_v74 : Ref sig .tc := ⟨.hbm, 127, rfl⟩
abbrev main_c_21 : Ref sig .tc := ⟨.hbm, 128, rfl⟩
abbrev main_v75 : Ref sig .tc := ⟨.hbm, 129, rfl⟩
abbrev main_v76 : Ref sig .tc := ⟨.hbm, 130, rfl⟩
abbrev main_c_22 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_c_23 : Ref sig .tc := ⟨.hbm, 137, rfl⟩
abbrev main_v82 : Ref sig .tc := ⟨.hbm, 138, rfl⟩
abbrev main_c_24 : Ref sig .tc := ⟨.hbm, 139, rfl⟩
abbrev main_v83 : Ref sig .tc := ⟨.hbm, 140, rfl⟩
abbrev main_v84 : Ref sig .tc := ⟨.hbm, 141, rfl⟩
abbrev main_c_25 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_c_26 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_c_27 : Ref sig .tc := ⟨.hbm, 158, rfl⟩
abbrev main_v99 : Ref sig .tc := ⟨.hbm, 159, rfl⟩
abbrev main_c_28 : Ref sig .tc := ⟨.hbm, 160, rfl⟩
abbrev main_v100 : Ref sig .tc := ⟨.hbm, 161, rfl⟩
abbrev main_v101 : Ref sig .tc := ⟨.hbm, 162, rfl⟩
abbrev main_c_29 : Ref sig .tc := ⟨.hbm, 163, rfl⟩
abbrev main_c_30 : Ref sig .tc := ⟨.hbm, 164, rfl⟩
abbrev main_call5_v0 : Ref sig .tc := ⟨.hbm, 165, rfl⟩
abbrev main_call5_v1 : Ref sig .tc := ⟨.hbm, 166, rfl⟩
abbrev main_call5_v2 : Ref sig .tc := ⟨.hbm, 167, rfl⟩
abbrev main_call5_v3 : Ref sig .tc := ⟨.hbm, 168, rfl⟩
abbrev main_call5_v4 : Ref sig .tc := ⟨.hbm, 169, rfl⟩
abbrev main_v103 : Ref sig .tc := ⟨.hbm, 170, rfl⟩
abbrev main_c_31 : Ref sig .tc := ⟨.hbm, 171, rfl⟩
abbrev main_v104 : Ref sig .tc := ⟨.hbm, 172, rfl⟩
abbrev main_v105 : Ref sig .tc := ⟨.hbm, 173, rfl⟩
abbrev main_c_32 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_c_33 : Ref sig .tc := ⟨.hbm, 185, rfl⟩
abbrev main_v116 : Ref sig .tc := ⟨.hbm, 186, rfl⟩
abbrev main_v117 : Ref sig .tc := ⟨.hbm, 187, rfl⟩
abbrev main_c_34 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_35 : Ref sig .tc := ⟨.hbm, 196, rfl⟩
abbrev main_v125 : Ref sig .tc := ⟨.hbm, 197, rfl⟩
abbrev main_v102 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![72], ![false]⟩

abbrev pre0 : Pipeline.Prefetch sig := ⟨1, ![main_v102.idx], fun | 0 => main_v102.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096x2_S8192 : S4096x2.ShapeCasts S8192
  bcast_S4096_S4096x1_0 : S4096.BroadcastsInDim S4096x1 (![0] : Fin 1 → Fin S4096x1.rank)
  bcast_S4096x1_S4096x2_0_1 : S4096x1.BroadcastsInDim S4096x2 (![0, 1] : Fin 2 → Fin S4096x2.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S9216 : S_.BroadcastsInDim S9216 (![] : Fin 0 → Fin S9216.rank)
  bcast_S_S72 : S_.BroadcastsInDim S72 (![] : Fin 0 → Fin S72.rank)
  bcast_S72_S72x1_0 : S72.BroadcastsInDim S72x1 (![0] : Fin 1 → Fin S72x1.rank)
  bcast_S8_S1x8_1 : S8.BroadcastsInDim S1x8 (![1] : Fin 1 → Fin S1x8.rank)
  bcast_S72x1_S72x8_0_1 : S72x1.BroadcastsInDim S72x8 (![0, 1] : Fin 2 → Fin S72x8.rank)
  bcast_S1x8_S72x8_0_1 : S1x8.BroadcastsInDim S72x8 (![0, 1] : Fin 2 → Fin S72x8.rank)
  natLt_1_32 : 1 < 32
  reducesTo_S72x8_S72_d1 : S72x8.ReducesTo [1] S72
  bitsLt_bf16_f32 : FTy.bits .bf16 < FTy.bits .f32
  bcast_S9216_S9216x1_0 : S9216.BroadcastsInDim S9216x1 (![0] : Fin 1 → Fin S9216x1.rank)
  shapeCasts_S9216_S9216x1 : S9216.ShapeCasts S9216x1
  numel1_S1 : S1.numel = 1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x1408x2048_S1x1408x2048_0_0_0 : ∀ a, (![0, 0, 0] : Fin 3 → Nat) a + S1x1408x2048.size a ≤ S1x1408x2048.size a
  h_S1x1408x2048 : 0 < S1x1408x2048.numel
  shapeCasts_S1x1408x2048_S1408x2048 : S1x1408x2048.ShapeCasts S1408x2048
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1408 : S128x1.Broadcasts S128x1408
  packedbf16_S128x2048_S128x2048_0_0 : (Rect.unit (s := S128x2048) ![0, 0] S128x2048.size inb_S128x2048_S128x2048_0_0).PackedRows (EltTy.packing .bf16)
  shapeCasts_S8192x2048_S4096x2x2048 : S8192x2048.ShapeCasts S4096x2x2048
  reducesTo_S4096x2x2048_S4096x2048_d1 : S4096x2x2048.ReducesTo [1] S4096x2048
  gather_S8192_S8192x1_S8192_n_0_n_n_0_1_1_wf : GatherDims.WF S8192 S8192x1 S8192 [] [0] [] [0] [] 1 ![1]
  scatter_S8_S8192x1_S8192_n_0_0_1_wf : ScatterDims.WF S8 S8192x1 S8192 [] [0] [0] 1
  gather_S8_S8192x1_S8192_n_0_n_n_0_1_1_wf : GatherDims.WF S8 S8192x1 S8192 [] [0] [] [0] [] 1 ![1]
  scatter_S9216_S8192x1_S8192_n_0_0_1_wf : ScatterDims.WF S9216 S8192x1 S8192 [] [0] [0] 1
  scatter_S8192_S8192x1_S8192_n_0_0_1_wf : ScatterDims.WF S8192 S8192x1 S8192 [] [0] [0] 1
  gather_S4096x2048_S9216x1_S9216x2048_1_0_n_n_0_1_12048_wf : GatherDims.WF S4096x2048 S9216x1 S9216x2048 [1] [0] [] [0] [] 1 ![1, 2048]
  dot_S128x2048_S1408x2048_S128x1408_1_1_0_0_n_n_wf : DotDims.WF S128x2048 S1408x2048 S128x1408 [1] [1] [0] [0] [] []
  dot_S128x1408_S2048x1408_S128x2048_1_1_0_0_n_n_wf : DotDims.WF S128x1408 S2048x1408 S128x2048 [1] [1] [0] [0] [] []
  gather_S9216x2048_S8192x1_S8192x2048_1_0_n_n_0_1_12048_wf : GatherDims.WF S9216x2048 S8192x1 S8192x2048 [1] [0] [] [0] [] 1 ![1, 2048]
  hrank0 : 0 < grid0.rank
  k0_off1_inb : ∀ i : grid0.Coords, ∀ a, (k0_off1 i) a + S1.size a ≤ S72.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S9216x2048.size a
  hwx0_0 : ∀ i : grid0.Coords, EltTy.bits .bf16 = 32 ∨ (Rect.block (s := S9216x2048) S128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S9216x1.size a
  hwx0_1 : ∀ i : grid0.Coords, EltTy.bits .f32 = 32 ∨ (Rect.block (s := S9216x1) S128x1.size (cc0_transform_1 i) (hinb0_1 i)).WholeWords (EltTy.packing .f32)
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S9216x2048.size a
  hwx0_5 : ∀ i : grid0.Coords, EltTy.bits .bf16 = 32 ∨ (Rect.block (s := S9216x2048) S128x2048.size (cc0_transform_5 i) (hinb0_5 i)).WholeWords (EltTy.packing .bf16)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S8_S8192x1_S8192_n_0_0_1 : ScatterDims S8 S8192x1 S8192 where
  updateWindowDims := []
  insertedWindowDims := [0]
  scatterDimsToOperandDims := [0]
  indexVectorDim := 1
  wf := scatter_S8_S8192x1_S8192_n_0_0_1_wf
def gather_S8_S8192x1_S8192_n_0_n_n_0_1_1 : GatherDims S8 S8192x1 S8192 where
  offsetDims := []
  collapsedSliceDims := [0]
  operandBatchingDims := []
  startIndicesBatchingDims := []
  startIndexMap := [0]
  indexVectorDim := 1
  sliceSizes := ![1]
  wf := gather_S8_S8192x1_S8192_n_0_n_n_0_1_1_wf
def scatter_S9216_S8192x1_S8192_n_0_0_1 : ScatterDims S9216 S8192x1 S8192 where
  updateWindowDims := []
  insertedWindowDims := [0]
  scatterDimsToOperandDims := [0]
  indexVectorDim := 1
  wf := scatter_S9216_S8192x1_S8192_n_0_0_1_wf
def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def gather_S4096x2048_S9216x1_S9216x2048_1_0_n_n_0_1_12048 : GatherDims S4096x2048 S9216x1 S9216x2048 where
  offsetDims := [1]
  collapsedSliceDims := [0]
  operandBatchingDims := []
  startIndicesBatchingDims := []
  startIndexMap := [0]
  indexVectorDim := 1
  sliceSizes := ![1, 2048]
  wf := gather_S4096x2048_S9216x1_S9216x2048_1_0_n_n_0_1_12048_wf
def dot_S128x2048_S1408x2048_S128x1408_1_1_0_0_n_n : DotDims S128x2048 S1408x2048 S128x1408 where
  lhsContracting := [1]
  rhsContracting := [1]
  lhsNonContracting := [0]
  rhsNonContracting := [0]
  lhsBatch := []
  rhsBatch := []
  wf := dot_S128x2048_S1408x2048_S128x1408_1_1_0_0_n_n_wf
def dot_S128x1408_S2048x1408_S128x2048_1_1_0_0_n_n : DotDims S128x1408 S2048x1408 S128x2048 where
  lhsContracting := [1]
  rhsContracting := [1]
  lhsNonContracting := [0]
  rhsNonContracting := [0]
  lhsBatch := []
  rhsBatch := []
  wf := dot_S128x1408_S2048x1408_S128x2048_1_1_0_0_n_n_wf
def gather_S9216x2048_S8192x1_S8192x2048_1_0_n_n_0_1_12048 : GatherDims S9216x2048 S8192x1 S8192x2048 where
  offsetDims := [1]
  collapsedSliceDims := [0]
  operandBatchingDims := []
  startIndicesBatchingDims := []
  startIndexMap := [0]
  indexVectorDim := 1
  sliceSizes := ![1, 2048]
  wf := gather_S9216x2048_S8192x1_S8192x2048_1_0_n_n_0_1_12048_wf

abbrev spec0_0 : Pipeline.WinSpec sig grid0.rank :=
  Pipeline.WinSpec.ofSpec (Memref.whole main_v110) S128x2048.size reads0_0 false false 2 stage0_0 sem0_0 nbuf0_0 hstage0_0

abbrev spec0_1 : Pipeline.WinSpec sig grid0.rank :=
  Pipeline.WinSpec.ofSpec (Memref.whole main_v111) S128x1.size reads0_1 false false 2 stage0_1 sem0_1 nbuf0_1 hstage0_1

abbrev spec0_2 : Pipeline.WinSpec sig grid0.rank :=
  Pipeline.WinSpec.ofSpec (Memref.whole main_v112) S1x1408x2048.size reads0_2 false false 2 stage0_2 sem0_2 nbuf0_2 hstage0_2

abbrev spec0_3 : Pipeline.WinSpec sig grid0.rank :=
  Pipeline.WinSpec.ofSpec (Memref.whole main_v113) S1x1408x2048.size reads0_3 false false 2 stage0_3 sem0_3 nbuf0_3 hstage0_3

abbrev spec0_4 : Pipeline.WinSpec sig grid0.rank :=
  Pipeline.WinSpec.ofSpec (Memref.whole main_v114) S1x2048x1408.size reads0_4 false false 2 stage0_4 sem0_4 nbuf0_4 hstage0_4

abbrev spec0_5 : Pipeline.WinSpec sig grid0.rank :=
  Pipeline.WinSpec.ofSpec (Memref.whole main_v115) S128x2048.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 k0_off1_inb numel1_S1 pf | 3 => cc0_transform_3 k0_off1_inb numel1_S1 pf | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 pf | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_2 k0_off1_inb numel1_S1 pf i a + 1) * S1x1408x2048.size a ≤ S8x1408x2048.size a), EltTy.bits .bf16 = 32 ∨ (Rect.block (s := S8x1408x2048) S1x1408x2048.size (cc0_transform_2 k0_off1_inb numel1_S1 pf i) h).WholeWords (EltTy.packing .bf16)) ∧
  (∀ i : grid0.Coords, ∃ h : (∀ a, (cc0_transform_3 k0_off1_inb numel1_S1 pf i a + 1) * S1x1408x2048.size a ≤ S8x1408x2048.size a), EltTy.bits .bf16 = 32 ∨ (Rect.block (s := S8x1408x2048) S1x1408x2048.size (cc0_transform_3 k0_off1_inb numel1_S1 pf i) h).WholeWords (EltTy.packing .bf16)) ∧
  (∀ i : grid0.Coords, ∃ h : (∀ a, (cc0_transform_4 k0_off1_inb numel1_S1 pf i a + 1) * S1x2048x1408.size a ≤ S8x2048x1408.size a), EltTy.bits .bf16 = 32 ∨ (Rect.block (s := S8x2048x1408) S1x2048x1408.size (cc0_transform_4 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => fun i a => (hok.1 i).elim fun h _ => h a | 3 => fun i a => (hok.2.1 i).elim fun h _ => h a | 4 => fun i a => (hok.2.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => fun i => (hok.1 i).elim fun _ h => h | 3 => fun i => (hok.2.1 i).elim fun _ h => h | 4 => fun i => (hok.2.2 i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S4096x2048 : Shape := ⟨2, ![4096, 2048]⟩
abbrev S4096x2 : Shape := ⟨2, ![4096, 2]⟩
abbrev S8x1408x2048 : Shape := ⟨3, ![8, 1408, 2048]⟩
abbrev S8x2048x1408 : Shape := ⟨3, ![8, 2048, 1408]⟩
abbrev S8x1408x4096 : Shape := ⟨3, ![8, 1408, 4096]⟩
abbrev S8x4096x1408 : Shape := ⟨3, ![8, 4096, 1408]⟩
abbrev S_ : Shape := ⟨0, ![]⟩
abbrev S8x2048x4096 : Shape := ⟨3, ![8, 2048, 4096]⟩
abbrev S4096x8x2048 : Shape := ⟨3, ![4096, 8, 2048]⟩
abbrev S4096x2x1 : Shape := ⟨3, ![4096, 2, 1]⟩
abbrev S1 : Shape := ⟨1, ![1]⟩
abbrev S1x1x1 : Shape := ⟨3, ![1, 1, 1]⟩
abbrev S4096x2x2048 : Shape := ⟨3, ![4096, 2, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2, .i32⟩
  | .hbm, ⟨2, _⟩ => ⟨S4096x2, .f32⟩
  | .hbm, ⟨3, _⟩ => ⟨S8x1408x2048, .f32⟩
  | .hbm, ⟨4, _⟩ => ⟨S8x1408x2048, .f32⟩
  | .hbm, ⟨5, _⟩ => ⟨S8x2048x1408, .f32⟩
  | .hbm, ⟨6, _⟩ => ⟨S8x1408x4096, .f32⟩
  | .hbm, ⟨7, _⟩ => ⟨S8x4096x1408, .f32⟩
  | .hbm, ⟨8, _⟩ => ⟨S8x1408x4096, .f32⟩
  | .hbm, ⟨9, _⟩ => ⟨S8x4096x1408, .f32⟩
  | .hbm, ⟨10, _⟩ => ⟨S8x4096x1408, .f32⟩
  | .hbm, ⟨11, _⟩ => ⟨S8x4096x1408, .f32⟩
  | .hbm, ⟨12, _⟩ => ⟨S_, .f32⟩
  | .hbm, ⟨13, _⟩ => ⟨S8x4096x1408, .f32⟩
  | .hbm, ⟨14, _⟩ => ⟨S8x4096x1408, .f32⟩
  | .hbm, ⟨15, _⟩ => ⟨S_, .f32⟩
  | .hbm, ⟨16, _⟩ => ⟨S8x4096x1408, .f32⟩
  | .hbm, ⟨17, _⟩ => ⟨S8x4096x1408, .f32⟩
  | .hbm, ⟨18, _⟩ => ⟨S8x4096x1408, .f32⟩
  | .hbm, ⟨19, _⟩ => ⟨S8x4096x1408, .f32⟩
  | .hbm, ⟨20, _⟩ => ⟨S8x2048x4096, .f32⟩
  | .hbm, ⟨21, _⟩ => ⟨S4096x8x2048, .f32⟩
  | .hbm, ⟨22, _⟩ => ⟨S4096x2x1, .i32⟩
  | .hbm, ⟨23, _⟩ => ⟨S_, .i32⟩
  | .hbm, ⟨24, _⟩ => ⟨S4096x2x1, .i32⟩
  | .hbm, ⟨25, _⟩ => ⟨S4096x2x1, .i1⟩
  | .hbm, ⟨26, _⟩ => ⟨S_, .i32⟩
  | .hbm, ⟨27, _⟩ => ⟨S4096x2x1, .i32⟩
  | .hbm, ⟨28, _⟩ => ⟨S4096x2x1, .i32⟩
  | .hbm, ⟨29, _⟩ => ⟨S4096x2x1, .i32⟩
  | .hbm, ⟨30, _⟩ => ⟨S1, .i32⟩
  | .hbm, ⟨31, _⟩ => ⟨S_, .i32⟩
  | .hbm, ⟨32, _⟩ => ⟨S4096x2x1, .i32⟩
  | .hbm, ⟨33, _⟩ => ⟨S4096x2x1, .i1⟩
  | .hbm, ⟨34, _⟩ => ⟨S1x1x1, .i32⟩
  | .hbm, ⟨35, _⟩ => ⟨S4096x2x1, .i32⟩
  | .hbm, ⟨36, _⟩ => ⟨S4096x2x1, .i1⟩
  | .hbm, ⟨37, _⟩ => ⟨S4096x2x1, .i1⟩
  | .hbm, ⟨38, _⟩ => ⟨S_, .i1⟩
  | .hbm, ⟨39, _⟩ => ⟨S4096x2, .i1⟩
  | .hbm, ⟨40, _⟩ => ⟨S4096x2x2048, .f32⟩
  | .hbm, ⟨41, _⟩ => ⟨S4096x2x2048, .i1⟩
  | .hbm, ⟨42, _⟩ => ⟨S_, .f32⟩
  | .hbm, ⟨43, _⟩ => ⟨S4096x2x2048, .f32⟩
  | .hbm, ⟨44, _⟩ => ⟨S4096x2x2048, .f32⟩
  | .hbm, ⟨45, _⟩ => ⟨S4096x2x1, .f32⟩
  | .hbm, ⟨46, _⟩ => ⟨S4096x2x2048, .f32⟩
  | .hbm, ⟨47, _⟩ => ⟨S4096x2x2048, .f32⟩
  | .hbm, ⟨48, _⟩ => ⟨S_, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_c_2 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_c_3 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst : Ref sig .tc := ⟨.hbm, 48, rfl⟩
abbrev main_v13 : Ref sig .tc := ⟨.hbm, 49, rfl⟩

abbrev nD : Nat := 1
abbrev τ : Topo := Topo.v7x

variable {F : FTy → Type} [FloatOps F]

class Facts₀ : Prop where
  transposes_S8x1408x4096_S8x4096x1408_0_2_1 : S8x1408x4096.Transposes [0, 2, 1] S8x4096x1408
  bcast_S_S8x4096x1408 : S_.BroadcastsInDim S8x4096x1408 (![] : Fin 0 → Fin S8x4096x1408.rank)
  transposes_S8x2048x4096_S4096x8x2048_2_0_1 : S8x2048x4096.Transposes [2, 0, 1] S4096x8x2048
  bcast_S4096x2_S4096x2x1_0_1 : S4096x2.BroadcastsInDim S4096x2x1 (![0, 1] : Fin 2 → Fin S4096x2x1.rank)
  bcast_S_S4096x2x1 : S_.BroadcastsInDim S4096x2x1 (![] : Fin 0 → Fin S4096x2x1.rank)
  bcast_S1_S1x1x1_2 : S1.BroadcastsInDim S1x1x1 (![2] : Fin 1 → Fin S1x1x1.rank)
  bcast_S1x1x1_S4096x2x1_0_1_2 : S1x1x1.BroadcastsInDim S4096x2x1 (![0, 1, 2] : Fin 3 → Fin S4096x2x1.rank)
  reducesTo_S4096x2x1_S4096x2_d2 : S4096x2x1.ReducesTo [2] S4096x2
  h_S_ : 0 < S_.numel
  bcast_S4096x2_S4096x2x2048_0_1 : S4096x2.BroadcastsInDim S4096x2x2048 (![0, 1] : Fin 2 → Fin S4096x2x2048.rank)
  bcast_S_S4096x2x2048 : S_.BroadcastsInDim S4096x2x2048 (![] : Fin 0 → Fin S4096x2x2048.rank)
  bcast_S4096x2x1_S4096x2x2048_0_1_2 : S4096x2x1.BroadcastsInDim S4096x2x2048 (![0, 1, 2] : Fin 3 → Fin S4096x2x2048.rank)
  reducesTo_S4096x2x2048_S4096x2048_d1 : S4096x2x2048.ReducesTo [1] S4096x2048
  dot_S8x1408x2048_S4096x2048_S8x1408x4096_2_1_01_0_n_n_wf : DotDims.WF S8x1408x2048 S4096x2048 S8x1408x4096 [2] [1] [0, 1] [0] [] []
  dot_S8x2048x1408_S8x4096x1408_S8x2048x4096_2_2_1_1_0_0_wf : DotDims.WF S8x2048x1408 S8x4096x1408 S8x2048x4096 [2] [2] [1] [1] [0] [0]
  gather_S4096x8x2048_S4096x2x1_S4096x2x2048_2_1_0_0_1_2_112048_wf : GatherDims.WF S4096x8x2048 S4096x2x1 S4096x2x2048 [2] [1] [0] [1] [0] 2 ![1, 1, 2048]

variable [Facts₀]

def dot_S8x1408x2048_S4096x2048_S8x1408x4096_2_1_01_0_n_n : DotDims S8x1408x2048 S4096x2048 S8x1408x4096 where
  lhsContracting := [2]
  rhsContracting := [1]
  lhsNonContracting := [0, 1]
  rhsNonContracting := [0]
  lhsBatch := []
  rhsBatch := []
  wf := dot_S8x1408x2048_S4096x2048_S8x1408x4096_2_1_01_0_n_n_wf
def dot_S8x2048x1408_S8x4096x1408_S8x2048x4096_2_2_1_1_0_0 : DotDims S8x2048x1408 S8x4096x1408 S8x2048x4096 where
  lhsContracting := [2]
  rhsContracting := [2]
  lhsNonContracting := [1]
  rhsNonContracting := [1]
  lhsBatch := [0]
  rhsBatch := [0]
  wf := dot_S8x2048x1408_S8x4096x1408_S8x2048x4096_2_2_1_1_0_0_wf
def gather_S4096x8x2048_S4096x2x1_S4096x2x2048_2_1_0_0_1_2_112048 : GatherDims S4096x8x2048 S4096x2x1 S4096x2x2048 where
  offsetDims := [2]
  collapsedSliceDims := [1]
  operandBatchingDims := [0]
  startIndicesBatchingDims := [0]
  startIndexMap := [1]
  indexVectorDim := 2
  sliceSizes := ![1, 1, 2048]
  wf := gather_S4096x8x2048_S4096x2x1_S4096x2x2048_2_1_0_0_1_2_112048_wf

class Facts : Prop extends Facts₀ where

variable [Facts]
-- ==== Proof.TableOk.lean ====
/-
  The per-tile expert table is a clamp to {0,…,7} of a computed word, so whatever the inputs every entry is one of
  0,…,7; and a table with entries in that range meets the pipeline's side condition: each weight window's block,
  one expert's whole matrix, lies inside the eight-expert array, and its ends are whole words.
-/
import proofs.«423491_j11716670783494_3_alg».proof.Proof.Gen.KernelIdeal.Frame.Runs
import Idealize.ShloMosaic.Lib.StableHlo.Run
import Idealize.ShloMosaic.Lib.ValueIdx

set_option maxRecDepth 16384

noncomputable section

namespace Cert.KernelIdeal.TableOk

open Cert.KernelIdeal Cert.KernelIdeal.Gen Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

set_option maxHeartbeats 4000000 in
/-- The table's buffer holds the clamp of the buffer before it. -/
theorem table_step (c : Dev nD) :
    V m c main_v102 = minsi (broadcastInDim S72 ![] bcast_S_S72 (id (constantI S_ 32 7#32))) (maxsi (broadcastInDim S72 ![] bcast_S_S72 (id (constantI S_ 32 0#32))) (V m c main_v101)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try rfl

/-- A word clamped below by 0 and above by 7 (signed) is one of 0,…,7. -/
theorem clamp_range (x : BitVec 32) : (IntOp.minsi 7#32 (IntOp.maxsi 0#32 x)).toNat < 8 := by
  have h7 : (7#32 : BitVec 32).toInt = 7 := by decide
  have h0 : (0#32 : BitVec 32).toInt = 0 := by decide
  unfold IntOp.minsi IntOp.maxsi
  by_cases hx : x.slt 0#32 = true
  · rw [if_pos hx]; decide
  · rw [if_neg hx]
    by_cases h : (7#32 : BitVec 32).slt x = true
    · rw [if_pos h]; decide
    · rw [if_neg h]
      rw [BitVec.slt_iff_toInt_lt] at hx h
      rw [h7] at h
      rw [h0] at hx
      have h1 := BitVec.toInt_eq_toNat_cond x
      have hlt := x.isLt
      split at h1 <;> omega

/-- Every entry of the table is one of 0,…,7. -/
theorem tbl_range (t : Fin 72) : (tbl m 0 (ix1 t)).toNat < 8 := by
  show (V m 0 main_v102 (ix1 t)).toNat < 8
  rw [table_step m 0]
  generalize V m 0 main_v101 = v
  show (IntOp.minsi 7#32 (IntOp.maxsi 0#32 (v (ix1 t)))).toNat < 8
  exact clamp_range _

/-- The word an index map loads from the table at a grid point is the table's entry at that point's coordinate. -/
theorem at_point (pf : pre0.Contents (Elt F)) (i : grid0.Coords) :
    pf.at 0 (Rect.unit (s := S72) ![(Scalar.indexCast (BitVec.ofNat 32 (i 0).val)).toNat] S1.size (k0_off1_inb i)) numel1_S1 = pf 0 (ix1 (i 0)) := by
  show pf 0 _ = pf 0 _
  congr 1
  funext a
  match a with
  | ⟨0, _⟩ =>
    apply Fin.ext
    show (BitVec.ofNat 32 (i 0).val).toNat + 1 * 0 = (i 0).val
    have : (i 0).val < 72 := (i 0).isLt
    rw [BitVec.toNat_ofNat]
    omega

/-- Tables with entries in {0,…,7} meet the pipeline's side condition (the contents a variable). -/
theorem ok0_of_range (pf : pre0.Contents (Elt F)) (hpf : ∀ t : Fin 72, (pf 0 (ix1 t)).toNat < 8) : ok0 (F := F) pf := by
  have hw : ∀ i : grid0.Coords, (pf.at 0 (Rect.unit (s := S72) ![(Scalar.indexCast (BitVec.ofNat 32 (i 0).val)).toNat] S1.size (k0_off1_inb i)) numel1_S1).toNat < 8 :=
    fun i => by rw [at_point pf i]; exact hpf _
  refine ⟨fun i => ⟨fun a => ?_, .inr (Affine.block_words_dvd (of_decide_eq_true rfl) (by decide))⟩,
          fun i => ⟨fun a => ?_, .inr (Affine.block_words_dvd (of_decide_eq_true rfl) (by decide))⟩,
          fun i => ⟨fun a => ?_, .inr (Affine.block_words_dvd (of_decide_eq_true rfl) (by decide))⟩⟩
  · have h := hw i
    match a with
    | ⟨0, _⟩ =>
      show ((pf.at 0 (Rect.unit (s := S72) ![(Scalar.indexCast (BitVec.ofNat 32 (i 0).val)).toNat] S1.size (k0_off1_inb i)) numel1_S1).toNat + 1) * 1 ≤ 8
      omega
    | ⟨1, _⟩ => show ((0#32 : BitVec 32).toNat + 1) * 1408 ≤ 1408; decide
    | ⟨2, _⟩ => show ((0#32 : BitVec 32).toNat + 1) * 2048 ≤ 2048; decide
  · have h := hw i
    match a with
    | ⟨0, _⟩ =>
      show ((pf.at 0 (Rect.unit (s := S72) ![(Scalar.indexCast (BitVec.ofNat 32 (i 0).val)).toNat] S1.size (k0_off1_inb i)) numel1_S1).toNat + 1) * 1 ≤ 8
      omega
    | ⟨1, _⟩ => show ((0#32 : BitVec 32).toNat + 1) * 1408 ≤ 1408; decide
    | ⟨2, _⟩ => show ((0#32 : BitVec 32).toNat + 1) * 2048 ≤ 2048; decide
  · have h := hw i
    match a with
    | ⟨0, _⟩ =>
      show ((pf.at 0 (Rect.unit (s := S72) ![(Scalar.indexCast (BitVec.ofNat 32 (i 0).val)).toNat] S1.size (k0_off1_inb i)) numel1_S1).toNat + 1) * 1 ≤ 8
      omega
    | ⟨1, _⟩ => show ((0#32 : BitVec 32).toNat + 1) * 2048 ≤ 2048; decide
    | ⟨2, _⟩ => show ((0#32 : BitVec 32).toNat + 1) * 1408 ≤ 1408; decide

/-- The side condition holds of the table the host program computes. -/
theorem ok : Ok m := ok0_of_range (tbl m) (tbl_range m)

end Cert.KernelIdeal.TableOk

end
-- ==== Proof.TableOkKernel.lean ====
/-
  The per-tile expert table is a clamp to {0,…,7} of a computed word, so whatever the inputs every entry is one of
  0,…,7; and a table with entries in that range meets the pipeline's side condition: each weight window's block,
  one expert's whole matrix, lies inside the eight-expert array, and its ends are whole words.
-/
import proofs.«423491_j11716670783494_3_alg».proof.Proof.Gen.Kernel.Frame.Runs
import Idealize.ShloMosaic.Lib.StableHlo.Run
import Idealize.ShloMosaic.Lib.ValueIdx

set_option maxRecDepth 16384

noncomputable section

namespace Cert.Kernel.TableOk

open Cert.Kernel Cert.Kernel.Gen Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

set_option maxHeartbeats 4000000 in
/-- The table's buffer holds the clamp of the buffer before it. -/
theorem table_step (c : Dev nD) :
    V m c main_v102 = minsi (broadcastInDim S72 ![] bcast_S_S72 (id (constantI S_ 32 7#32))) (maxsi (broadcastInDim S72 ![] bcast_S_S72 (id (constantI S_ 32 0#32))) (V m c main_v101)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  try rfl

/-- A word clamped below by 0 and above by 7 (signed) is one of 0,…,7. -/
theorem clamp_range (x : BitVec 32) : (IntOp.minsi 7#32 (IntOp.maxsi 0#32 x)).toNat < 8 := by
  have h7 : (7#32 : BitVec 32).toInt = 7 := by decide
  have h0 : (0#32 : BitVec 32).toInt = 0 := by decide
  unfold IntOp.minsi IntOp.maxsi
  by_cases hx : x.slt 0#32 = true
  · rw [if_pos hx]; decide
  · rw [if_neg hx]
    by_cases h : (7#32 : BitVec 32).slt x = true
    · rw [if_pos h]; decide
    · rw [if_neg h]
      rw [BitVec.slt_iff_toInt_lt] at hx h
      rw [h7] at h
      rw [h0] at hx
      have h1 := BitVec.toInt_eq_toNat_cond x
      have hlt := x.isLt
      split at h1 <;> omega

/-- Every entry of the table is one of 0,…,7. -/
theorem tbl_range (t : Fin 72) : (tbl m 0 (ix1 t)).toNat < 8 := by
  show (V m 0 main_v102 (ix1 t)).toNat < 8
  rw [table_step m 0]
  generalize V m 0 main_v101 = v
  show (IntOp.minsi 7#32 (IntOp.maxsi 0#32 (v (ix1 t)))).toNat < 8
  exact clamp_range _

/-- The word an index map loads from the table at a grid point is the table's entry at that point's coordinate. -/
theorem at_point (pf : pre0.Contents (Elt F)) (i : grid0.Coords) :
    pf.at 0 (Rect.unit (s := S72) ![(Scalar.indexCast (BitVec.ofNat 32 (i 0).val)).toNat] S1.size (k0_off1_inb i)) numel1_S1 = pf 0 (ix1 (i 0)) := by
  show pf 0 _ = pf 0 _
  congr 1
  funext a
  match a with
  | ⟨0, _⟩ =>
    apply Fin.ext
    show (BitVec.ofNat 32 (i 0).val).toNat + 1 * 0 = (i 0).val
    have : (i 0).val < 72 := (i 0).isLt
    rw [BitVec.toNat_ofNat]
    omega

/-- Tables with entries in {0,…,7} meet the pipeline's side condition (the contents a variable). -/
theorem ok0_of_range (pf : pre0.Contents (Elt F)) (hpf : ∀ t : Fin 72, (pf 0 (ix1 t)).toNat < 8) : ok0 (F := F) pf := by
  have hw : ∀ i : grid0.Coords, (pf.at 0 (Rect.unit (s := S72) ![(Scalar.indexCast (BitVec.ofNat 32 (i 0).val)).toNat] S1.size (k0_off1_inb i)) numel1_S1).toNat < 8 :=
    fun i => by rw [at_point pf i]; exact hpf _
  refine ⟨fun i => ⟨fun a => ?_, .inr (Affine.block_words_dvd (of_decide_eq_true rfl) (by decide))⟩,
          fun i => ⟨fun a => ?_, .inr (Affine.block_words_dvd (of_decide_eq_true rfl) (by decide))⟩,
          fun i => ⟨fun a => ?_, .inr (Affine.block_words_dvd (of_decide_eq_true rfl) (by decide))⟩⟩
  · have h := hw i
    match a with
    | ⟨0, _⟩ =>
      show ((pf.at 0 (Rect.unit (s := S72) ![(Scalar.indexCast (BitVec.ofNat 32 (i 0).val)).toNat] S1.size (k0_off1_inb i)) numel1_S1).toNat + 1) * 1 ≤ 8
      omega
    | ⟨1, _⟩ => show ((0#32 : BitVec 32).toNat + 1) * 1408 ≤ 1408; decide
    | ⟨2, _⟩ => show ((0#32 : BitVec 32).toNat + 1) * 2048 ≤ 2048; decide
  · have h := hw i
    match a with
    | ⟨0, _⟩ =>
      show ((pf.at 0 (Rect.unit (s := S72) ![(Scalar.indexCast (BitVec.ofNat 32 (i 0).val)).toNat] S1.size (k0_off1_inb i)) numel1_S1).toNat + 1) * 1 ≤ 8
      omega
    | ⟨1, _⟩ => show ((0#32 : BitVec 32).toNat + 1) * 1408 ≤ 1408; decide
    | ⟨2, _⟩ => show ((0#32 : BitVec 32).toNat + 1) * 2048 ≤ 2048; decide
  · have h := hw i
    match a with
    | ⟨0, _⟩ =>
      show ((pf.at 0 (Rect.unit (s := S72) ![(Scalar.indexCast (BitVec.ofNat 32 (i 0).val)).toNat] S1.size (k0_off1_inb i)) numel1_S1).toNat + 1) * 1 ≤ 8
      omega
    | ⟨1, _⟩ => show ((0#32 : BitVec 32).toNat + 1) * 2048 ≤ 2048; decide
    | ⟨2, _⟩ => show ((0#32 : BitVec 32).toNat + 1) * 1408 ≤ 1408; decide

/-- The side condition holds of the table the host program computes. -/
theorem ok : Ok m := ok0_of_range (tbl m) (tbl_range m)

end Cert.Kernel.TableOk

end
-- ==== Proof.PreFacts.lean ====
/-
  What the precondition says, read entry by entry at the ideal instance: every entry of the five float inputs is a
  real number (its absolute value is below +inf), and every expert id is one of 0,…,7.
-/
import proofs.«423491_j11716670783494_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.PreFacts

open Cert.Pre_finite_inputs

variable [Cert.Pre_finite_inputs.Facts]

/-- The scalar shape has one index. -/
instance instSubsingletonScalarIdx : Subsingleton S_.Idx := ⟨fun a b => funext fun d => d.elim0⟩

/-- The pattern 0x7F800000 denotes +inf. -/
theorem top_bits : Ideal.ofBits .f32 0x7F800000#32 = ⊤ := by simp [Ideal.ofBits, Ideal.ieee]

/-- An extended real whose absolute value is below +inf is a real number. -/
theorem real_of_abs_lt_top (x : EReal)
    (h : Ideal.cmp .olt (max x (-x)) (Ideal.ofBits .f32 0x7F800000#32) = 1#1) : ∃ r : ℝ, x = (r : EReal) := by
  rw [top_bits] at h
  unfold Ideal.cmp at h
  induction x using EReal.rec with
  | bot => simp at h
  | coe r => exact ⟨r, rfl⟩
  | top => simp at h

/-- A conjunction of two one-bit arrays that is 1 at an index has both conjuncts 1 there. -/
theorem vandi_eq_one {s : Shape} (a b : IVec s 1) (i : s.Idx) (h : andi a b i = 1#1) : a i = 1#1 ∧ b i = 1#1 :=
  IntOp.andi_eq_one.1 h

/-- The finiteness mask of a float array, 1 at an index: the entry there is a real number. -/
theorem real_of_mask {s : Shape} (x : FVec Ideal s .f32) (hb : S_.BroadcastsInDim s (![] : Fin 0 → Fin s.rank))
    (i : s.Idx)
    (h : cmpf .olt (Host.absf x) (broadcastInDim s ![] hb (constant S_ .f32 0x7F800000#32)) i = 1#1) :
    ∃ r : ℝ, x i = (r : EReal) :=
  real_of_abs_lt_top (x i) h

/-- The finiteness mask of a float array reduced by "and" over all axes, 1: every entry is a real number. -/
theorem reals_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) (i : s.Idx) : ∃ r : ℝ, x i = (r : EReal) :=
  real_of_mask x hb i (Host.reduce_andi_all _ _ hr hu ix0 h i)

/-- The range mask of the id table, 1 at an index: the id there is in [0, 8). -/
theorem id_range_of_mask (x1 : IVec S4096x2 32) (hb : S_.BroadcastsInDim S4096x2 (![] : Fin 0 → Fin S4096x2.rank))
    (i : S4096x2.Idx)
    (h : andi (cmpi .sge x1 (broadcastInDim S4096x2 ![] hb (constantI S_ 32 0#32)))
      (cmpi .slt x1 (broadcastInDim S4096x2 ![] hb (constantI S_ 32 8#32))) i = 1#1) :
    0 ≤ (x1 i).toInt ∧ (x1 i).toInt < 8 := by
  obtain ⟨hge, hlt⟩ := vandi_eq_one _ _ _ h
  have hge' : IntOp.cmpi .sge (x1 i) 0#32 = 1#1 := hge
  have hlt' : IntOp.cmpi .slt (x1 i) 8#32 = 1#1 := hlt
  rw [IntOp.cmpi_sge] at hge'
  rw [IntOp.cmpi_slt] at hlt'
  have e0 : (0#32 : BitVec 32).toInt = 0 := by decide
  have e8 : (8#32 : BitVec 32).toInt = 8 := by decide
  rw [e0] at hge'
  rw [e8] at hlt'
  exact ⟨hge', hlt'⟩

/-- The range mask of the id table reduced by "and" over all axes, 1: every id is in [0, 8). -/
theorem ids_of_all {axes : List (Fin S4096x2.rank)} (x1 : IVec S4096x2 32)
    (hb : S_.BroadcastsInDim S4096x2 (![] : Fin 0 → Fin S4096x2.rank)) (hr : S4096x2.ReducesTo axes S_)
    (hu : 0 < S_.numel)
    (h : Host.reduce IntOp.andi (andi (cmpi .sge x1 (broadcastInDim S4096x2 ![] hb (constantI S_ 32 0#32)))
      (cmpi .slt x1 (broadcastInDim S4096x2 ![] hb (constantI S_ 32 8#32)))) (constantI S_ 1 1#1) hr hu ix0 = 1#1)
    (i : S4096x2.Idx) : 0 ≤ (x1 i).toInt ∧ (x1 i).toInt < 8 :=
  id_range_of_mask x1 hb i (Host.reduce_andi_all _ _ hr hu ix0 h i)

/-- The precondition, all ones, gives real witnesses for the float inputs and the range of the expert ids. -/
theorem decode (x0 : FVec Ideal S4096x2048 .f32) (x1 : IVec S4096x2 32) (x2 : FVec Ideal S4096x2 .f32)
    (x3 x4 : FVec Ideal S8x1408x2048 .f32) (x5 : FVec Ideal S8x2048x1408 .f32)
    (h : Cert.Pre_finite_inputs.fn (F := Ideal) x0 x1 x2 x3 x4 x5 = fun _ => 1#1) :
    (∃ xr : Fin 4096 → Fin 2048 → ℝ, ∀ n c, x0 (ix2 n c) = ((xr n c : ℝ) : EReal))
    ∧ (∀ (n : Fin 4096) (k : Fin 2), 0 ≤ (x1 (ix2 n k)).toInt ∧ (x1 (ix2 n k)).toInt < 8)
    ∧ (∃ wr : Fin 4096 → Fin 2 → ℝ, ∀ n k, x2 (ix2 n k) = ((wr n k : ℝ) : EReal))
    ∧ (∃ gr : Fin 8 → Fin 1408 → Fin 2048 → ℝ, ∀ e i c, x3 (ix3 e i c) = ((gr e i c : ℝ) : EReal))
    ∧ (∃ ur : Fin 8 → Fin 1408 → Fin 2048 → ℝ, ∀ e i c, x4 (ix3 e i c) = ((ur e i c : ℝ) : EReal))
    ∧ (∃ dr : Fin 8 → Fin 2048 → Fin 1408 → ℝ, ∀ e h i, x5 (ix3 e h i) = ((dr e h i : ℝ) : EReal)) := by
  have h0 := congrFun h ValueIdx.ix0
  dsimp only [fn, fn_part1] at h0
  obtain ⟨h0, m1⟩ := vandi_eq_one _ _ _ h0
  obtain ⟨h0, m5⟩ := vandi_eq_one _ _ _ h0
  obtain ⟨h0, m4⟩ := vandi_eq_one _ _ _ h0
  obtain ⟨h0, m3⟩ := vandi_eq_one _ _ _ h0
  obtain ⟨m0, m2⟩ := vandi_eq_one _ _ _ h0
  have r0 := reals_of_all x0 _ _ _ m0
  have r2 := reals_of_all x2 _ _ _ m2
  have r3 := reals_of_all x3 _ _ _ m3
  have r4 := reals_of_all x4 _ _ _ m4
  have r5 := reals_of_all x5 _ _ _ m5
  have r1 := ids_of_all x1 _ _ _ m1
  refine ⟨?_, ?_, ?_, ?_, ?_, ?_⟩
  · exact ⟨fun n c => Classical.choose (r0 (ix2 n c)), fun n c => Classical.choose_spec (r0 (ix2 n c))⟩
  · exact fun n k => r1 (ix2 n k)
  · exact ⟨fun n k => Classical.choose (r2 (ix2 n k)), fun n k => Classical.choose_spec (r2 (ix2 n k))⟩
  · exact ⟨fun e i c => Classical.choose (r3 (ix3 e i c)), fun e i c => Classical.choose_spec (r3 (ix3 e i c))⟩
  · exact ⟨fun e i c => Classical.choose (r4 (ix3 e i c)), fun e i c => Classical.choose_spec (r4 (ix3 e i c))⟩
  · exact ⟨fun e h i => Classical.choose (r5 (ix3 e h i)), fun e h i => Classical.choose_spec (r5 (ix3 e h i))⟩

end Cert.PreFacts

end
-- ==== Proof.Spec.lean ====
/-
  The routed mixture of experts, over the real numbers.
  A token row x (2048 reals) meets expert weights wg, wu (1408 × 2048 each) and wd (2048 × 1408): the gate and up
  projections proj x wg, proj x wu; the hidden vector hid i = (g i · (1 + exp(-g i))⁻¹) · u i (the SiLU of the gate
  times the up projection); and the down projection. The routing weight can be applied to the hidden vector before
  the down projection (rowOut) or to the down projection's result (refOut): the two agree, because a sum is linear.
-/
import Idealize.ShloMosaic.PureOps.Ideal

noncomputable section

open scoped BigOperators

namespace Cert.Spec

/-- A projection of the row onto the 1408 intermediate channels. -/
def proj (x : Fin 2048 → ℝ) (w : Fin 1408 → Fin 2048 → ℝ) (i : Fin 1408) : ℝ := ∑ c : Fin 2048, x c * w i c

/-- The hidden vector: SiLU of the gate projection times the up projection. -/
def hid (x : Fin 2048 → ℝ) (wg wu : Fin 1408 → Fin 2048 → ℝ) (i : Fin 1408) : ℝ :=
  (proj x wg i * (1 + Real.exp (-(proj x wg i)))⁻¹) * proj x wu i

/-- The row's output with the routing weight applied to the hidden vector, before the down projection. -/
def rowOut (x : Fin 2048 → ℝ) (wg wu : Fin 1408 → Fin 2048 → ℝ) (wd : Fin 2048 → Fin 1408 → ℝ) (wt : ℝ) (h : Fin 2048) : ℝ :=
  ∑ i : Fin 1408, (hid x wg wu i * wt) * wd h i

/-- The row's output with the routing weight applied after the down projection. -/
def refOut (x : Fin 2048 → ℝ) (wg wu : Fin 1408 → Fin 2048 → ℝ) (wd : Fin 2048 → Fin 1408 → ℝ) (wt : ℝ) (h : Fin 2048) : ℝ :=
  (∑ i : Fin 1408, wd h i * hid x wg wu i) * wt

/-- Linearity of the down projection in the routing weight. -/
theorem rowOut_eq_refOut (x : Fin 2048 → ℝ) (wg wu : Fin 1408 → Fin 2048 → ℝ) (wd : Fin 2048 → Fin 1408 → ℝ) (wt : ℝ) (h : Fin 2048) :
    rowOut x wg wu wd wt h = refOut x wg wu wd wt h := by
  unfold rowOut refOut
  rw [Finset.sum_mul]
  exact Finset.sum_congr rfl fun i _ => by ring

end Cert.Spec

end
-- ==== Proof.LibERealSums.lean ====
/-
  Extended reals that are real numbers, under the ideal instance's operations: a finite sum of coerced reals is the
  coerced sum; the reciprocal square root, the quotient and the maximum of coerced reals are the coerced real ones
  (away from the reciprocal square root's and the quotient's poles); a signed word converted to a float is the integer it
  denotes; and a sum over 4096 indices is the sum of its four consecutive runs of 1024, added in order onto zero.
-/
import Idealize.ShloMosaic.PureOps.Ideal
import Idealize.ShloMosaic.Lib.ValueIdx

noncomputable section

open scoped BigOperators
open Idealize.ShloMosaic

namespace Cert.CosAttn

/-- A finite sum of real numbers, coerced, is the sum of the coerced numbers. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro a t ha ih
    rw [Finset.sum_insert ha, Finset.sum_insert ha, EReal.coe_add, ih]

/-- The reciprocal square root of a positive real. -/
theorem rsqrt_coe_pos {x : ℝ} (hx : 0 < x) : Ideal.rsqrt (x : EReal) = (((Real.sqrt x)⁻¹ : ℝ) : EReal) := by
  rw [Ideal.rsqrt_coe, if_neg (not_lt.mpr hx.le), if_neg hx.ne']

/-- The quotient of two reals by a nonzero one. -/
theorem div_coe_coe (x : ℝ) {y : ℝ} (hy : y ≠ 0) : Ideal.div (x : EReal) (y : EReal) = ((x / y : ℝ) : EReal) := by
  rw [Ideal.div_coe hy, ← EReal.coe_mul, mul_one_div]

/-- A signed 32-bit word converted to a float is the integer it denotes. -/
theorem sitofp_coe (w : BitVec 32) : FloatOps.sitofp (F := Ideal) .f32 w = (((w.toInt : ℝ)) : EReal) := by
  rfl

/-- A sum over 4096 indices is its four runs of 1024 consecutive indices, added in order onto zero. -/
theorem sum_four_runs (g : Fin 4096 → ℝ) :
    ∑ s : Fin 4096, g s
      = (((0 + ∑ r : Fin 1024, g ⟨1024 * 0 + r.val, by omega⟩) + ∑ r : Fin 1024, g ⟨1024 * 1 + r.val, by omega⟩)
          + ∑ r : Fin 1024, g ⟨1024 * 2 + r.val, by omega⟩) + ∑ r : Fin 1024, g ⟨1024 * 3 + r.val, by omega⟩ := by
  -- index `s` is `r + 1024 · j` for exactly one run `j : Fin 4` and one place `r : Fin 1024` in it
  have run : ∀ (j : Fin 4) (c : ℕ) (_ : j.val = c) (hj : ∀ r : Fin 1024, 1024 * c + r.val < 4096),
      ∑ r : Fin 1024, g ((finProdFinEquiv : Fin 4 × Fin 1024 ≃ Fin 4096) (j, r))
        = ∑ r : Fin 1024, g ⟨1024 * c + r.val, hj r⟩ := by
    intro j c hc hj
    refine Finset.sum_congr rfl fun r _ => congrArg g (Fin.ext ?_)
    show r.val + 1024 * j.val = 1024 * c + r.val
    rw [hc]; omega
  rw [← Equiv.sum_comp (finProdFinEquiv : Fin 4 × Fin 1024 ≃ Fin 4096) g, Fintype.sum_prod_type, Fin.sum_univ_four,
    zero_add, run 0 0 rfl (fun r => by omega), run 1 1 rfl (fun r => by omega), run 2 2 rfl (fun r => by omega),
    run 3 3 rfl (fun r => by omega)]

end Cert.CosAttn

end
-- ==== Proof.RefValue.lean ====
/-
  The reference's result at an index, at the ideal instance, when the float inputs hold real numbers and every
  expert id is in {0,…,7}: entry (n, h) is the sum over the token's two chosen experts of the expert's SwiGLU
  output for the token's row, at channel h, times the routing weight — refOut of the specification. The einsums
  are plain sums over the contracted axis, the SiLU's logistic is (1 + exp(-g))⁻¹, the take along the expert axis
  reads the chosen expert (the index is in range, so neither the wrap of a negative index nor the out-of-range fill
  is met), and the final sum over the two choices starts from zero.
-/
import proofs.«423491_j11716670783494_3_alg».proof.Proof.RefRead
import proofs.«423491_j11716670783494_3_alg».proof.Proof.Spec
import proofs.«423491_j11716670783494_3_alg».proof.Proof.LibERealSums
import Idealize.ShloMosaic.Lib.ValueIdx
import Idealize.ShloMosaic.Lib.ValueLayout
import Idealize.ShloMosaic.Lib.Pipeline.Value
import Idealize.ShloMosaic.Lib.IdealHost
import Idealize.ShloMosaic.Lib.Affine
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen

variable [Cert.ReferenceIdeal.Facts]

/-! ## The expert ids: the wrap of a negative id, the range mask -/

/-- A signed word that is not negative is not below zero: the wrap select keeps it. -/
theorem wrap_keep (w a : BitVec 32) (hw : 0 ≤ w.toInt) :
    Scalar.select (IntOp.cmpi .slt w 0#32) a w = w := by
  have hc : IntOp.cmpi .slt w 0#32 = 0#1 := by
    refine eq_zero_of_ne_one fun hh => ?_
    rw [IntOp.cmpi_slt, show (0#32 : BitVec 32).toInt = 0 from by decide] at hh
    omega
  rw [hc, select_zero]

/-- A signed word in [0, 7] passes the range test. -/
theorem range_pass (w : BitVec 32) (h0 : 0 ≤ w.toInt) (h7 : w.toInt ≤ 7) :
    IntOp.andi (IntOp.cmpi .sge w 0#32) (IntOp.cmpi .sle w 7#32) = 1#1 := by
  rw [IntOp.andi_eq_one, IntOp.cmpi_sge, IntOp.cmpi_sle, show (0#32 : BitVec 32).toInt = 0 from by decide,
    show (7#32 : BitVec 32).toInt = 7 from by decide]
  exact ⟨h0, h7⟩

/-- The ids as a column: entry (n, k, 0) is the id of (n, k). -/
theorem ids_col (x1 : IVec S4096x2 32) (n : Fin 4096) (k : Fin 2) (z : Fin 1) :
    Read.val_main_v8 (F := Ideal) x1 (ix3 n k z) = x1 (ix2 n k) := by
  rw [Read.val_main_v8_apply]
  exact congrArg x1 (funext fun a => by match a with | ⟨0, _⟩ => rfl | ⟨1, _⟩ => rfl)

/-- The wrapped ids are the ids, when no id is negative. -/
theorem wrapped_ids (x1 : IVec S4096x2 32) (n : Fin 4096) (k : Fin 2) (z : Fin 1) (hw : 0 ≤ (x1 (ix2 n k)).toInt) :
    Read.val_main_call1_v4 (F := Ideal) x1 (ix3 n k z) = x1 (ix2 n k) := by
  rw [Read.val_main_call1_v4_apply, Read.val_main_call1_v1_apply, ids_col, Read.val_main_call1_v0_apply,
    Read.val_main_call1_c_apply]
  exact wrap_keep _ _ hw

/-- The range test passes at an id in [0, 7]. -/
theorem in_range (x1 : IVec S4096x2 32) (n : Fin 4096) (k : Fin 2) (z : Fin 1) (h0 : 0 ≤ (x1 (ix2 n k)).toInt)
    (h7 : (x1 (ix2 n k)).toInt ≤ 7) :
    Read.val_main_call1_v10 (F := Ideal) x1 (ix3 n k z) = 1#1 := by
  rw [Read.val_main_call1_v10_apply, Read.val_main_call1_v6_apply, Read.val_main_call1_v9_apply, wrapped_ids x1 n k z h0,
    Read.val_main_call1_v5_apply, Read.val_main_call1_c_2_apply, Read.val_main_call1_v8_apply, Read.val_main_call1_v7_apply,
    Read.val_main_call1_c_1_apply]
  exact range_pass _ h0 h7

/-- A conjunction of ones, taken from one, is one. -/
theorem foldl_andi_ones {ι : Type} (l : List ι) (y : ι → BitVec 1) (hy : ∀ n, y n = 1#1) (init : BitVec 1)
    (hinit : init = 1#1) : l.foldl (fun r n => IntOp.andi r (y n)) init = 1#1 := by
  induction l generalizing init with
  | nil => exact hinit
  | cons a l ih =>
    rw [List.foldl_cons]
    exact ih _ (by rw [hinit, hy a]; decide)

/-- The mask is one everywhere, when every id is in [0, 7]. -/
theorem mask_one (x1 : IVec S4096x2 32) (hr : ∀ n k, 0 ≤ (x1 (ix2 n k)).toInt ∧ (x1 (ix2 n k)).toInt ≤ 7)
    (j : S4096x2.Idx) : Read.val_main_call1_v11 (F := Ideal) x1 j = 1#1 := by
  have hall : ∀ i : S4096x2x1.Idx, Read.val_main_call1_v10 (F := Ideal) x1 i = 1#1 := fun i => by
    rw [eq_ix3 i]
    exact in_range x1 _ _ _ (hr _ _).1 (hr _ _).2
  unfold Read.val_main_call1_v11 Host.reduce
  exact foldl_andi_ones _ (fun n => Read.val_main_call1_v10 (F := Ideal) x1 (S4096x2x1.rowMajor.symm n)) (fun n => hall _) _ rfl

/-! ## The take along the expert axis -/

/-- The gather reads, at (n, k, h), the operand at (n, e, h), e the start index of (n, k) when that is in [0, 7]. -/
theorem take_read {α : Type} (x : S4096x8x2048.Idx → α) (idx : IVec S4096x2x1 32) (n : Fin 4096) (k : Fin 2)
    (h : Fin 2048) (e : Fin 8) (he : (idx (ix3 n k (0 : Fin 1))).toInt = (e.val : Int)) :
    Host.gather gather_S4096x8x2048_S4096x2x1_S4096x2x2048_2_1_0_0_1_2_112048 x idx (ix3 n k h) = x (ix3 n e h) := by
  unfold Host.gather
  refine congrArg x (funext fun a => Fin.ext ?_)
  match a with
  | ⟨0, _⟩ =>
    show gather_S4096x8x2048_S4096x2x1_S4096x2x2048_2_1_0_0_1_2_112048.start (ix3 n k h) idx 0
      + gather_S4096x8x2048_S4096x2x1_S4096x2x2048_2_1_0_0_1_2_112048.batchCoord (ix3 n k h) 0
      + gather_S4096x8x2048_S4096x2x1_S4096x2x2048_2_1_0_0_1_2_112048.offCoord (ix3 n k h) 0 = n.val
    rw [GatherDims.start_batching _ _ _ _ (show (0 : Fin S4096x8x2048.rank) ∈ gather_S4096x8x2048_S4096x2x1_S4096x2x2048_2_1_0_0_1_2_112048.operandBatchingDims by decide),
      GatherDims.offCoord_eq_zero _ _ _ (show ¬(0 : Fin S4096x8x2048.rank) ∈ gather_S4096x8x2048_S4096x2x1_S4096x2x2048_2_1_0_0_1_2_112048.sKept by decide)]
    simp only [Nat.zero_add, Nat.add_zero]
    unfold GatherDims.batchCoord
    rw [dif_pos (show (0 : Fin S4096x8x2048.rank) ∈ gather_S4096x8x2048_S4096x2x1_S4096x2x2048_2_1_0_0_1_2_112048.operandBatchingDims by decide)]
    rfl
  | ⟨1, _⟩ =>
    show gather_S4096x8x2048_S4096x2x1_S4096x2x2048_2_1_0_0_1_2_112048.start (ix3 n k h) idx 1
      + gather_S4096x8x2048_S4096x2x1_S4096x2x2048_2_1_0_0_1_2_112048.batchCoord (ix3 n k h) 1
      + gather_S4096x8x2048_S4096x2x1_S4096x2x2048_2_1_0_0_1_2_112048.offCoord (ix3 n k h) 1 = e.val
    rw [GatherDims.batchCoord_eq_zero _ _ _ (show ¬(1 : Fin S4096x8x2048.rank) ∈ gather_S4096x8x2048_S4096x2x1_S4096x2x2048_2_1_0_0_1_2_112048.operandBatchingDims by decide),
      GatherDims.offCoord_eq_zero _ _ _ (show ¬(1 : Fin S4096x8x2048.rank) ∈ gather_S4096x8x2048_S4096x2x1_S4096x2x2048_2_1_0_0_1_2_112048.sKept by decide)]
    simp only [Nat.add_zero]
    unfold GatherDims.start
    rw [dif_pos (show (1 : Fin S4096x8x2048.rank) ∈ gather_S4096x8x2048_S4096x2x1_S4096x2x2048_2_1_0_0_1_2_112048.startIndexMap by decide)]
    have hsi : gather_S4096x8x2048_S4096x2x1_S4096x2x2048_2_1_0_0_1_2_112048.siIdx (ix3 n k h)
        ⟨List.idxOf (1 : Fin S4096x8x2048.rank) gather_S4096x8x2048_S4096x2x1_S4096x2x2048_2_1_0_0_1_2_112048.startIndexMap,
          List.idxOf_lt_length_iff.2 (show (1 : Fin S4096x8x2048.rank) ∈ gather_S4096x8x2048_S4096x2x1_S4096x2x2048_2_1_0_0_1_2_112048.startIndexMap by decide)⟩
        = ix3 n k (0 : Fin 1) := by
      funext b; refine Fin.ext ?_
      match b with
      | ⟨0, _⟩ => rfl
      | ⟨1, _⟩ => rfl
      | ⟨2, _⟩ => rfl
    rw [hsi, he]
    show min ((e.val : Int)).toNat (8 - 1) = e.val
    have := e.isLt
    omega
  | ⟨2, _⟩ =>
    show gather_S4096x8x2048_S4096x2x1_S4096x2x2048_2_1_0_0_1_2_112048.start (ix3 n k h) idx 2
      + gather_S4096x8x2048_S4096x2x1_S4096x2x2048_2_1_0_0_1_2_112048.batchCoord (ix3 n k h) 2
      + gather_S4096x8x2048_S4096x2x1_S4096x2x2048_2_1_0_0_1_2_112048.offCoord (ix3 n k h) 2 = h.val
    rw [GatherDims.batchCoord_eq_zero _ _ _ (show ¬(2 : Fin S4096x8x2048.rank) ∈ gather_S4096x8x2048_S4096x2x1_S4096x2x2048_2_1_0_0_1_2_112048.operandBatchingDims by decide)]
    simp only [Nat.add_zero]
    unfold GatherDims.start
    rw [dif_neg (show ¬(2 : Fin S4096x8x2048.rank) ∈ gather_S4096x8x2048_S4096x2x1_S4096x2x2048_2_1_0_0_1_2_112048.startIndexMap by decide)]
    simp only [Nat.zero_add]
    unfold GatherDims.offCoord
    rw [dif_pos (show (2 : Fin S4096x8x2048.rank) ∈ gather_S4096x8x2048_S4096x2x1_S4096x2x2048_2_1_0_0_1_2_112048.sKept by decide)]
    rfl

/-! ## The float side: projections, the hidden vector, the down projection -/

/-- A sum of products of coerced reals, weight on the left, is the coerced sum with the weight on the right. -/
theorem coe_dot {ι : Type} [Fintype ι] (a b : ι → EReal) (w x : ι → ℝ) (ha : ∀ q, a q = ((w q : ℝ) : EReal))
    (hb : ∀ q, b q = ((x q : ℝ) : EReal)) : ∑ q, a q * b q = ((∑ q, x q * w q : ℝ) : EReal) := by
  rw [Cert.CosAttn.coe_sum]
  refine Finset.sum_congr rfl fun q _ => ?_
  rw [ha, hb, ← EReal.coe_mul, mul_comm]

/-- Where the gate projection at (expert, token, channel) reads the weight … -/
theorem lidx_gate (e : Fin 8) (n : Fin 4096) (i : Fin 1408) (q : Fin 2048) :
    Read.lidx_main_v0 (Read.idx_main_v1 (ix3 e n i)) q = ix3 e i q :=
  funext fun a => by match a with | ⟨0, _⟩ => rfl | ⟨1, _⟩ => rfl | ⟨2, _⟩ => rfl
/-- … and the token's row. -/
theorem ridx_gate (e : Fin 8) (n : Fin 4096) (i : Fin 1408) (q : Fin 2048) :
    Read.ridx_main_v0 (Read.idx_main_v1 (ix3 e n i)) q = ix2 n q :=
  funext fun a => by match a with | ⟨0, _⟩ => rfl | ⟨1, _⟩ => rfl
/-- The same two for the up projection. -/
theorem lidx_up (e : Fin 8) (n : Fin 4096) (i : Fin 1408) (q : Fin 2048) :
    Read.lidx_main_v2 (Read.idx_main_v3 (ix3 e n i)) q = ix3 e i q :=
  funext fun a => by match a with | ⟨0, _⟩ => rfl | ⟨1, _⟩ => rfl | ⟨2, _⟩ => rfl
theorem ridx_up (e : Fin 8) (n : Fin 4096) (i : Fin 1408) (q : Fin 2048) :
    Read.ridx_main_v2 (Read.idx_main_v3 (ix3 e n i)) q = ix2 n q :=
  funext fun a => by match a with | ⟨0, _⟩ => rfl | ⟨1, _⟩ => rfl
/-- Where the down projection, transposed to [token, expert, channel], reads the weight … -/
theorem lidx_down (n : Fin 4096) (e : Fin 8) (h : Fin 2048) (i : Fin 1408) :
    Read.lidx_main_v6 (Read.idx_main_v7 (ix3 n e h)) i = ix3 e h i :=
  funext fun a => by match a with | ⟨0, _⟩ => rfl | ⟨1, _⟩ => rfl | ⟨2, _⟩ => rfl
/-- … and the hidden vector. -/
theorem ridx_down (n : Fin 4096) (e : Fin 8) (h : Fin 2048) (i : Fin 1408) :
    Read.ridx_main_v6 (Read.idx_main_v7 (ix3 n e h)) i = ix3 e n i :=
  funext fun a => by match a with | ⟨0, _⟩ => rfl | ⟨1, _⟩ => rfl | ⟨2, _⟩ => rfl

/-- The gate projection, transposed to [expert, token, channel]. -/
theorem gate_read (xr : Fin 4096 → Fin 2048 → ℝ) (gr : Fin 8 → Fin 1408 → Fin 2048 → ℝ)
    (x0 : FVec Ideal S4096x2048 .f32) (h0 : ∀ n c, x0 (ix2 n c) = ((xr n c : ℝ) : EReal))
    (x3 : FVec Ideal S8x1408x2048 .f32) (h3 : ∀ e i c, x3 (ix3 e i c) = ((gr e i c : ℝ) : EReal))
    (e : Fin 8) (n : Fin 4096) (i : Fin 1408) :
    Read.val_main_v1 (F := Ideal) x0 x3 (ix3 e n i) = ((Cert.Spec.proj (xr n) (gr e) i : ℝ) : EReal) := by
  rw [Read.val_main_v1_apply, Read.val_main_v0_apply]
  unfold Cert.Spec.proj
  exact coe_dot _ _ (gr e i) (xr n) (fun q => by rw [lidx_gate]; exact h3 e i q) (fun q => by rw [ridx_gate]; exact h0 n q)

/-- The up projection, transposed to [expert, token, channel]. -/
theorem up_read (xr : Fin 4096 → Fin 2048 → ℝ) (ur : Fin 8 → Fin 1408 → Fin 2048 → ℝ)
    (x0 : FVec Ideal S4096x2048 .f32) (h0 : ∀ n c, x0 (ix2 n c) = ((xr n c : ℝ) : EReal))
    (x4 : FVec Ideal S8x1408x2048 .f32) (h4 : ∀ e i c, x4 (ix3 e i c) = ((ur e i c : ℝ) : EReal))
    (e : Fin 8) (n : Fin 4096) (i : Fin 1408) :
    Read.val_main_v3 (F := Ideal) x0 x4 (ix3 e n i) = ((Cert.Spec.proj (xr n) (ur e) i : ℝ) : EReal) := by
  rw [Read.val_main_v3_apply, Read.val_main_v2_apply]
  unfold Cert.Spec.proj
  exact coe_dot _ _ (ur e i) (xr n) (fun q => by rw [lidx_up]; exact h4 e i q) (fun q => by rw [ridx_up]; exact h0 n q)

/-- The logistic factor of a real gate value: one over one plus the exponential of its negation. -/
theorem logistic_coe (g : ℝ) :
    Ideal.div (Ideal.ofBits .f32 0x3F800000#32) (Ideal.ofBits .f32 0x3F800000#32 + Ideal.exp (-((g : ℝ) : EReal)))
      = (((1 + Real.exp (-g))⁻¹ : ℝ) : EReal) := by
  have hpos : (1 + Real.exp (-g)) ≠ 0 := ne_of_gt (add_pos_of_pos_of_nonneg one_pos (Real.exp_pos _).le)
  rw [Ideal.ofBits_one_f32, ← EReal.coe_neg, Ideal.exp_coe, ← EReal.coe_one, ← EReal.coe_add,
    Cert.CosAttn.div_coe_coe 1 hpos, one_div]

/-- The hidden vector at (expert, token, channel). -/
theorem hid_read (xr : Fin 4096 → Fin 2048 → ℝ) (gr ur : Fin 8 → Fin 1408 → Fin 2048 → ℝ)
    (x0 : FVec Ideal S4096x2048 .f32) (h0 : ∀ n c, x0 (ix2 n c) = ((xr n c : ℝ) : EReal))
    (x3 : FVec Ideal S8x1408x2048 .f32) (h3 : ∀ e i c, x3 (ix3 e i c) = ((gr e i c : ℝ) : EReal))
    (x4 : FVec Ideal S8x1408x2048 .f32) (h4 : ∀ e i c, x4 (ix3 e i c) = ((ur e i c : ℝ) : EReal))
    (e : Fin 8) (n : Fin 4096) (i : Fin 1408) :
    Read.val_main_v5 (F := Ideal) x0 x3 x4 (ix3 e n i)
      = ((Cert.Spec.hid (xr n) (gr e) (ur e) i : ℝ) : EReal) := by
  rw [Read.val_main_v5_apply, Read.val_main_v4_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply,
    gate_read xr gr x0 h0 x3 h3, up_read xr ur x0 h0 x4 h4]
  simp only [Ideal.mulf_def, Ideal.hostDivf_def, Ideal.ofBits_def, Ideal.addf_def, Ideal.hostUnary_exp_def,
    Ideal.hostNegf_def, Ideal.negf_def]
  rw [logistic_coe, ← EReal.coe_mul, ← EReal.coe_mul]
  rfl

/-- The down projection at (expert, channel, token). -/
theorem down_read (xr : Fin 4096 → Fin 2048 → ℝ) (gr ur : Fin 8 → Fin 1408 → Fin 2048 → ℝ)
    (dr : Fin 8 → Fin 2048 → Fin 1408 → ℝ)
    (x0 : FVec Ideal S4096x2048 .f32) (h0 : ∀ n c, x0 (ix2 n c) = ((xr n c : ℝ) : EReal))
    (x3 : FVec Ideal S8x1408x2048 .f32) (h3 : ∀ e i c, x3 (ix3 e i c) = ((gr e i c : ℝ) : EReal))
    (x4 : FVec Ideal S8x1408x2048 .f32) (h4 : ∀ e i c, x4 (ix3 e i c) = ((ur e i c : ℝ) : EReal))
    (x5 : FVec Ideal S8x2048x1408 .f32) (h5 : ∀ e h i, x5 (ix3 e h i) = ((dr e h i : ℝ) : EReal))
    (n : Fin 4096) (e : Fin 8) (h : Fin 2048) :
    Read.val_main_v7 (F := Ideal) x0 x3 x4 x5 (ix3 n e h)
      = ((∑ i : Fin 1408, dr e h i * Cert.Spec.hid (xr n) (gr e) (ur e) i : ℝ) : EReal) := by
  rw [Read.val_main_v7_apply, Read.val_main_v6_apply, Cert.CosAttn.coe_sum]
  refine Finset.sum_congr rfl fun i _ => ?_
  rw [lidx_down, ridx_down, h5 e h i, hid_read xr gr ur x0 h0 x3 h3 x4 h4 e n i, ← EReal.coe_mul]

/-! ## The result -/

/-- The taken down projection at (n, k, h) is the chosen expert's: the mask is one, and the gather reads expert ex n k. -/
theorem taken_read (xr : Fin 4096 → Fin 2048 → ℝ) (gr ur : Fin 8 → Fin 1408 → Fin 2048 → ℝ)
    (dr : Fin 8 → Fin 2048 → Fin 1408 → ℝ) (ex : Fin 4096 → Fin 2 → Fin 8)
    (x0 : FVec Ideal S4096x2048 .f32) (h0 : ∀ n c, x0 (ix2 n c) = ((xr n c : ℝ) : EReal))
    (x1 : IVec S4096x2 32) (h1 : ∀ n k, (x1 (ix2 n k)).toInt = ((ex n k).val : Int))
    (x3 : FVec Ideal S8x1408x2048 .f32) (h3 : ∀ e i c, x3 (ix3 e i c) = ((gr e i c : ℝ) : EReal))
    (x4 : FVec Ideal S8x1408x2048 .f32) (h4 : ∀ e i c, x4 (ix3 e i c) = ((ur e i c : ℝ) : EReal))
    (x5 : FVec Ideal S8x2048x1408 .f32) (h5 : ∀ e h i, x5 (ix3 e h i) = ((dr e h i : ℝ) : EReal))
    (n : Fin 4096) (k : Fin 2) (h : Fin 2048) :
    Read.val_main_v9 (F := Ideal) x0 x1 x3 x4 x5 (ix3 n k h)
      = ((∑ i : Fin 1408, dr (ex n k) h i * Cert.Spec.hid (xr n) (gr (ex n k)) (ur (ex n k)) i : ℝ) : EReal) := by
  have hr : ∀ n k, 0 ≤ (x1 (ix2 n k)).toInt ∧ (x1 (ix2 n k)).toInt ≤ 7 := fun n k => by
    rw [h1 n k]
    have := (ex n k).isLt
    omega
  rw [Read.val_main_v9_apply, Read.val_main_call1_v13_apply, mask_one x1 hr, select_one]
  unfold Read.val_main_call1_v12
  refine (take_read _ _ n k h (ex n k) ?_).trans (down_read xr gr ur dr x0 h0 x3 h3 x4 h4 x5 h5 n (ex n k) h)
  rw [wrapped_ids x1 n k 0 (hr n k).1]
  exact h1 n k

/-- The routing weight, broadcast along the channels. -/
theorem weight_read (x2 : FVec Ideal S4096x2 .f32) (n : Fin 4096) (k : Fin 2) (h : Fin 2048) :
    Read.val_main_v11 (F := Ideal) x2 (ix3 n k h) = x2 (ix2 n k) := by
  rw [Read.val_main_v11_apply, Read.val_main_v10_apply]
  exact congrArg x2 (funext fun a => by match a with | ⟨0, _⟩ => rfl | ⟨1, _⟩ => rfl)

/-- The reference's result at (n, h), over inputs that hold real numbers and in-range expert ids. -/
theorem ref_apply (xr : Fin 4096 → Fin 2048 → ℝ) (wr : Fin 4096 → Fin 2 → ℝ)
    (gr ur : Fin 8 → Fin 1408 → Fin 2048 → ℝ) (dr : Fin 8 → Fin 2048 → Fin 1408 → ℝ) (ex : Fin 4096 → Fin 2 → Fin 8)
    (x0 : FVec Ideal S4096x2048 .f32) (h0 : ∀ n c, x0 (ix2 n c) = ((xr n c : ℝ) : EReal))
    (x1 : IVec S4096x2 32) (h1 : ∀ n k, (x1 (ix2 n k)).toInt = ((ex n k).val : Int))
    (x2 : FVec Ideal S4096x2 .f32) (h2 : ∀ n k, x2 (ix2 n k) = ((wr n k : ℝ) : EReal))
    (x3 : FVec Ideal S8x1408x2048 .f32) (h3 : ∀ e i c, x3 (ix3 e i c) = ((gr e i c : ℝ) : EReal))
    (x4 : FVec Ideal S8x1408x2048 .f32) (h4 : ∀ e i c, x4 (ix3 e i c) = ((ur e i c : ℝ) : EReal))
    (x5 : FVec Ideal S8x2048x1408 .f32) (h5 : ∀ e h i, x5 (ix3 e h i) = ((dr e h i : ℝ) : EReal))
    (n : Fin 4096) (h : Fin 2048) :
    Cert.ReferenceIdeal.Read.val_main_v13 (F := Ideal) x0 x1 x2 x3 x4 x5 (ix2 n h)
      = ((∑ k : Fin 2, Cert.Spec.refOut (xr n) (gr (ex n k)) (ur (ex n k)) (dr (ex n k)) (wr n k) h : ℝ) : EReal) := by
  rw [Read.val_main_v13_apply, Read.val_main_cst_apply, Ideal.ofBits_def, Ideal.ofBits_zero_f32, zero_add,
    Cert.CosAttn.coe_sum]
  refine Finset.sum_congr rfl fun k _ => ?_
  have hi : Read.idx_main_v13 (ix2 n h) k = ix3 n k h :=
    funext fun a => by match a with | ⟨0, _⟩ => rfl | ⟨1, _⟩ => rfl | ⟨2, _⟩ => rfl
  rw [hi, Read.val_main_v12_apply, taken_read xr gr ur dr ex x0 h0 x1 h1 x3 h3 x4 h4 x5 h5 n k h, weight_read, h2 n k,
    Ideal.mulf_def, ← EReal.coe_mul]
  rfl

end Cert.ReferenceIdeal.RefValue

end
-- ==== Proof.HostSteps.lean ====
/-
  The host program before the kernel launch, one stage at a time: what each buffer of the routing computation holds
  when the region is entered, as its operation applied to what its operand buffers hold. Nothing here interprets
  the operations; each equation is the program's own line (with the constants and broadcasts feeding it written out),
  read off the fold of the host operations.
-/
import proofs.«423491_j11716670783494_3_alg».proof.Proof.Gen.KernelIdeal.Frame.Runs
import Idealize.ShloMosaic.Lib.StableHlo.Run

set_option maxRecDepth 16384

noncomputable section

namespace Cert.KernelIdeal.HostSteps

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- jnp's reading of a possibly negative index: x + n where x is negative, x otherwise. -/
abbrev wrapIdx (S : Shape) (hb : S_.BroadcastsInDim S (![] : Fin 0 → Fin S.rank)) (n : BitVec 32) (x : IVec S 32) : IVec S 32 :=
  select (cmpi .slt x (broadcastInDim S ![] hb (constantI S_ 32 0#32))) (addi x (broadcastInDim S ![] hb (constantI S_ 32 n))) x

/-- A vector of positions as the [n × 1] column of start indices a gather or scatter reads. -/
abbrev col8192 (x : IVec S8192 32) : IVec S8192x1 32 := broadcastInDim S8192x1 ![0] bcast_S8192_S8192x1_0 x

macro "open_V" : tactic => `(tactic| (
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]))

macro "step" : tactic => `(tactic| (open_V; after_results_simp; try rfl))

/-- The same for a stage inside an outlined function, whose typed references wrap the operands in identity casts. -/
macro "step_in_call" : tactic => `(tactic| (open_V; after_results_simp; (try simp only [TRef.ofBuf, TRef.toBuf, cast_eq]); try rfl))

set_option maxHeartbeats 4000000 in
theorem step_v0 (c : Dev nD) :
    V m c main_v0 = shapeCast S8192 (V m c main_arg1) shapeCasts_S4096x2_S8192 := by
  step

set_option maxHeartbeats 4000000 in
theorem step_v1 (c : Dev nD) :
    V m c main_v1 = shapeCast S8192 (V m c main_arg2) shapeCasts_S4096x2_S8192 := by
  step

set_option maxHeartbeats 4000000 in
theorem step_v5 (c : Dev nD) :
    V m c main_v5 = shapeCast S8192 (broadcastInDim S4096x2 ![0, 1] bcast_S4096x1_S4096x2_0_1 (broadcastInDim S4096x1 ![0] bcast_S4096_S4096x1_0 (iotaInDim S4096 32 0))) shapeCasts_S4096x2_S8192 := by
  step

set_option maxHeartbeats 4000000 in
theorem step_v6 (c : Dev nD) :
    V m c main_v6 = (Host.sort2 S8192 0 comparator_i32_i32_d0 (V m c main_v0) (iotaInDim S8192 32 0)).2 := by
  step

set_option maxHeartbeats 4000000 in
theorem step_v13 (c : Dev nD) :
    V m c main_v13 = Host.gather gather_S8192_S8192x1_S8192_n_0_n_n_0_1_1 (V m c main_v0) (col8192 (wrapIdx S8192 bcast_S_S8192 8192#32 (V m c main_v6))) := by
  step

set_option maxHeartbeats 4000000 in
theorem step_v20 (c : Dev nD) :
    V m c main_v20 = Host.gather gather_S8192_S8192x1_S8192_n_0_n_n_0_1_1 (V m c main_v5) (col8192 (wrapIdx S8192 bcast_S_S8192 8192#32 (V m c main_v6))) := by
  step

set_option maxHeartbeats 4000000 in
theorem step_v27 (c : Dev nD) :
    V m c main_v27 = Host.gather gather_S8192_S8192x1_S8192_n_0_n_n_0_1_1 (V m c main_v1) (col8192 (wrapIdx S8192 bcast_S_S8192 8192#32 (V m c main_v6))) := by
  step

set_option maxHeartbeats 4000000 in
theorem step_v37 (c : Dev nD) :
    V m c main_v37 = Host.scatter scatter_S8_S8192x1_S8192_n_0_0_1 IntOp.addi (broadcastInDim S8 ![] bcast_S_S8 (constantI S_ 32 0#32)) (col8192 (wrapIdx S8192 bcast_S_S8192 8#32 (maxsi (broadcastInDim S8192 ![] bcast_S_S8192 (id (constantI S_ 32 0#32))) (V m c main_v0)))) (broadcastInDim S8192 ![] bcast_S_S8192 (constantI S_ 32 1#32)) := by
  step

set_option maxHeartbeats 4000000 in
theorem step_v38 (c : Dev nD) :
    V m c main_v38 = Host.reduceWindow IntOp.addi ![8] ![1] ![7] ![0] (V m c main_v37) (broadcastInDim S_ ![] bcast_S_S_ (constantI S_ 32 0#32)) reduceWindows_S8_S8_w8s1p7_0 h_S_ := by
  step_in_call

set_option maxHeartbeats 4000000 in
theorem step_v39 (c : Dev nD) :
    V m c main_v39 = subi (V m c main_v38) (V m c main_v37) := by
  step

set_option maxHeartbeats 4000000 in
theorem step_v43 (c : Dev nD) :
    V m c main_v43 = subi (addi (V m c main_v37) (broadcastInDim S8 ![] bcast_S_S8 (constantI S_ 32 128#32))) (broadcastInDim S8 ![] bcast_S_S8 (constantI S_ 32 1#32)) := by
  step

set_option maxHeartbeats 4000000 in
theorem step_v44 (c : Dev nD) :
    V m c main_v44 = select (andi (cmpi .ne (signi (V m c main_v43)) (broadcastInDim S8 ![] bcast_S_S8 (signi (id (constantI S_ 32 128#32))))) (cmpi .ne (Host.remsi (V m c main_v43) (broadcastInDim S8 ![] bcast_S_S8 (id (constantI S_ 32 128#32)))) (broadcastInDim S8 ![] bcast_S_S8 (constantI S_ 32 0#32)))) (subi (Host.divsi (V m c main_v43) (broadcastInDim S8 ![] bcast_S_S8 (id (constantI S_ 32 128#32)))) (broadcastInDim S8 ![] bcast_S_S8 (constantI S_ 32 1#32))) (Host.divsi (V m c main_v43) (broadcastInDim S8 ![] bcast_S_S8 (id (constantI S_ 32 128#32)))) := by
  step_in_call

set_option maxHeartbeats 4000000 in
theorem step_v46 (c : Dev nD) :
    V m c main_v46 = muli (V m c main_v44) (broadcastInDim S8 ![] bcast_S_S8 (constantI S_ 32 128#32)) := by
  step

set_option maxHeartbeats 4000000 in
theorem step_v47 (c : Dev nD) :
    V m c main_v47 = Host.reduceWindow IntOp.addi ![8] ![1] ![7] ![0] (V m c main_v46) (broadcastInDim S_ ![] bcast_S_S_ (constantI S_ 32 0#32)) reduceWindows_S8_S8_w8s1p7_0 h_S_ := by
  step_in_call

set_option maxHeartbeats 4000000 in
theorem step_v48 (c : Dev nD) :
    V m c main_v48 = subi (V m c main_v47) (V m c main_v46) := by
  step

set_option maxHeartbeats 4000000 in
theorem step_v56 (c : Dev nD) :
    V m c main_v56 = Host.gather gather_S8_S8192x1_S8192_n_0_n_n_0_1_1 (V m c main_v39) (col8192 (wrapIdx S8192 bcast_S_S8192 8#32 (V m c main_v13))) := by
  step

set_option maxHeartbeats 4000000 in
theorem step_v57 (c : Dev nD) :
    V m c main_v57 = subi (iotaInDim S8192 32 0) (V m c main_v56) := by
  step

set_option maxHeartbeats 4000000 in
theorem step_v64 (c : Dev nD) :
    V m c main_v64 = Host.gather gather_S8_S8192x1_S8192_n_0_n_n_0_1_1 (V m c main_v48) (col8192 (wrapIdx S8192 bcast_S_S8192 8#32 (V m c main_v13))) := by
  step

set_option maxHeartbeats 4000000 in
theorem step_v65 (c : Dev nD) :
    V m c main_v65 = addi (V m c main_v64) (V m c main_v57) := by
  step

set_option maxHeartbeats 4000000 in
theorem step_v73 (c : Dev nD) :
    V m c main_v73 = Host.scatter scatter_S9216_S8192x1_S8192_n_0_0_1 (fun _ b => b) (broadcastInDim S9216 ![] bcast_S_S9216 (constantI S_ 32 0#32)) (col8192 (wrapIdx S8192 bcast_S_S8192 9216#32 (V m c main_v65))) (V m c main_v20) := by
  step

set_option maxHeartbeats 4000000 in
theorem step_v81 (c : Dev nD) :
    V m c main_v81 = Host.scatter scatter_S9216_S8192x1_S8192_n_0_0_1 (fun _ b => b) (broadcastInDim S9216 ![] bcast_S_S9216 (constant S_ .f32 0x00000000#32)) (col8192 (wrapIdx S8192 bcast_S_S8192 9216#32 (V m c main_v65))) (V m c main_v27) := by
  step

set_option maxHeartbeats 4000000 in
theorem step_v89 (c : Dev nD) :
    V m c main_v89 = Host.scatter scatter_S8192_S8192x1_S8192_n_0_0_1 (fun _ b => b) (broadcastInDim S8192 ![] bcast_S_S8192 (constantI S_ 32 0#32)) (col8192 (wrapIdx S8192 bcast_S_S8192 8192#32 (V m c main_v6))) (V m c main_v65) := by
  step

set_option maxHeartbeats 4000000 in
theorem step_v99 (c : Dev nD) :
    V m c main_v99 = Host.reduce IntOp.addi (extui 32 (cmpi .sge (broadcastInDim S72x8 ![0, 1] bcast_S72x1_S72x8_0_1 (broadcastInDim S72x1 ![0] bcast_S72_S72x1_0 (muli (iotaInDim S72 32 0) (broadcastInDim S72 ![] bcast_S_S72 (constantI S_ 32 128#32))))) (broadcastInDim S72x8 ![0, 1] bcast_S1x8_S72x8_0_1 (broadcastInDim S1x8 ![1] bcast_S8_S1x8_1 (V m c main_v48)))) natLt_1_32) (constantI S_ 32 0#32) reducesTo_S72x8_S72_d1 h_S_ := by
  step

set_option maxHeartbeats 4000000 in
theorem step_v101 (c : Dev nD) :
    V m c main_v101 = subi (V m c main_v99) (broadcastInDim S72 ![] bcast_S_S72 (constantI S_ 32 1#32)) := by
  step

set_option maxHeartbeats 4000000 in
theorem step_v102 (c : Dev nD) :
    V m c main_v102 = minsi (broadcastInDim S72 ![] bcast_S_S72 (id (constantI S_ 32 7#32))) (maxsi (broadcastInDim S72 ![] bcast_S_S72 (id (constantI S_ 32 0#32))) (V m c main_v101)) := by
  step

set_option maxHeartbeats 4000000 in
theorem step_v110 (c : Dev nD) :
    V m c main_v110 = Host.gather gather_S4096x2048_S9216x1_S9216x2048_1_0_n_n_0_1_12048 (truncf .bf16 (V m c main_arg0) bitsLt_bf16_f32) (broadcastInDim S9216x1 ![0] bcast_S9216_S9216x1_0 (wrapIdx S9216 bcast_S_S9216 4096#32 (V m c main_v73))) := by
  step

set_option maxHeartbeats 4000000 in
theorem step_v111 (c : Dev nD) :
    V m c main_v111 = shapeCast S9216x1 (V m c main_v81) shapeCasts_S9216_S9216x1 := by
  step

set_option maxHeartbeats 4000000 in
theorem step_v112 (c : Dev nD) :
    V m c main_v112 = truncf .bf16 (V m c main_arg3) bitsLt_bf16_f32 := by
  step

set_option maxHeartbeats 4000000 in
theorem step_v113 (c : Dev nD) :
    V m c main_v113 = truncf .bf16 (V m c main_arg4) bitsLt_bf16_f32 := by
  step

set_option maxHeartbeats 4000000 in
theorem step_v114 (c : Dev nD) :
    V m c main_v114 = truncf .bf16 (V m c main_arg5) bitsLt_bf16_f32 := by
  step

end Cert.KernelIdeal.HostSteps

end
-- ==== Proof.Tail.lean ====
/-
  The host operations after the kernel: the result is, row by row, the sum over a token's two choices of the kernel
  output rows that the inverse routing table names. Read off the frame run: after the region the output array holds
  what the run's proof data say, every other host buffer what it held at the region's entry, and the result buffer is
  the tail's operations applied to those: gather the output rows at the (wrapped) inverse table, widen, regroup the
  8192 rows as 4096 × 2, and add the two from zero.
-/
import proofs.«423491_j11716670783494_3_alg».proof.Proof.Gen.KernelIdeal.Frame
import proofs.«423491_j11716670783494_3_alg».proof.Proof.HostSteps
import Idealize.ShloMosaic.Lib.StableHlo.Run

set_option maxRecDepth 16384

noncomputable section

namespace Cert.KernelIdeal.Tail

open Cert.KernelIdeal Cert.KernelIdeal.Gen Cert.KernelIdeal.HostSteps Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The result as the tail's operations of the output array and the inverse table. -/
def resultOf (Y : Vec F S9216x2048 .bf16) (inv : IVec S8192 32) : FVec F S4096x2048 .f32 :=
  Host.reduceAdd (shapeCast S4096x2x2048 (extf .f32 (Host.gather gather_S9216x2048_S8192x1_S8192x2048_1_0_n_n_0_1_12048 Y (col8192 (wrapIdx S8192 bcast_S_S8192 9216#32 inv))) bitsLt_bf16_f32) shapeCasts_S8192x2048_S4096x2x2048) (constant S_ .f32 0x00000000#32) reducesTo_S4096x2x2048_S4096x2048_d1 h_S_

/-- After the region the output array's buffer holds what the proof data say. -/
theorem out_array (hO : Ok m) (c : Dev nD) :
    Pipeline.withArrays (Pipeline.pin pcfgs (fun _ => adm m hO) 0).spec c (V0 m c)
        (fun w => (dats m hO 0 c).arrAt w (Pipeline.pin pcfgs (fun _ => adm m hO) 0).N) (Proc.devRef .tc main_v115)
      = (dats m hO 0 c).arrAt 5 (cfgM m hO).N :=
  Pipeline.withArrays_arr _ (by decide : Function.Injective (Pipeline.arrRef spec0)) c (V0 m c) _ 5

set_option maxHeartbeats 4000000 in
/-- What the result buffer holds after the tail. -/
theorem tail_result (hO : Ok m) (c : Dev nD) :
    Pipeline.afterTail pcfgs (fun _ => adm m hO) (dats m hO) 0 (V0 m) [hostOps1] c main_v125
      = resultOf ((dats m hO 0 c).arrAt 5 (cfgM m hO).N) (V m c main_v89) := by
  unfold Pipeline.afterTail resultOf
  simp only [hostOps1, List.flatten_cons, List.flatten_nil, List.append_nil, List.cons_append, List.nil_append]
  after_results_simp
  rw [Pipeline.withArrays_of_ne _ c (V0 m c) _ main_v89 (by exact (by decide : ∀ w, Pipeline.arrRef spec0 w ≠ main_v89))]
  rw [out_array m hO c]
  rfl

/-- The run, with the result buffer named and the arguments unchanged. -/
theorem run (hO : Ok m) : θ_run defs (onTc (τ := τ) (main (F := F))) ⟨m, fun _ => 0, ρ⟩ (fun r => ∀ c : Dev nD,
      r.2.mem ((c.tc : Thread nD τ).loc main_v125) = resultOf ((dats m hO 0 c).arrAt 5 (cfgM m hO).N) (V m c main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_v125 (by decide : main_v125 ∈ Pipeline.restRefs sig spec0)).trans (tail_result m hO c)),
      (((h c).2 main_arg0 (by decide : main_arg0 ∈ Pipeline.restRefs sig spec0)).trans (W_main_arg0 m hO (dats m hO) c)),
      (((h c).2 main_arg1 (by decide : main_arg1 ∈ Pipeline.restRefs sig spec0)).trans (W_main_arg1 m hO (dats m hO) c)),
      (((h c).2 main_arg2 (by decide : main_arg2 ∈ Pipeline.restRefs sig spec0)).trans (W_main_arg2 m hO (dats m hO) c)),
      (((h c).2 main_arg3 (by decide : main_arg3 ∈ Pipeline.restRefs sig spec0)).trans (W_main_arg3 m hO (dats m hO) c)),
      (((h c).2 main_arg4 (by decide : main_arg4 ∈ Pipeline.restRefs sig spec0)).trans (W_main_arg4 m hO (dats m hO) c)),
      (((h c).2 main_arg5 (by decide : main_arg5 ∈ Pipeline.restRefs sig spec0)).trans (W_main_arg5 m hO (dats m hO) c))⟩) (run_main m ρ hO)

end Cert.KernelIdeal.Tail

end
-- ==== Proof.TailRead.lean ====
/-
  Three reads at an index of pure terms built from the host operations after and before the kernel.

  (1) The result of the tail: gather the rows of an array Y [9216 × 2048] that a table inv [8192] names (each word
  first wrapped: x + 9216 where x is negative, x otherwise), widen, regroup the 8192 rows as 4096 × 2, and add over the
  middle axis from zero. When every word inv q is a row number row q in range (a nonnegative signed word below 9216),
  the wrap keeps it and the gather's clamp is the identity, so entry (n, h) is Y (row (2 n), h) + Y (row (2 n + 1), h),
  written as the sum over k : Fin 2 of Y (row (2 n + k), h).

  (2) The gather of the rows of a [4096 × 2048] array (narrowed to bf16, the identity on extended reals) at a table
  tok [9216] whose word at p is the row number n: entry (p, c) is the array at (n, c).

  (3) A vector [9216] reshaped to a column [9216 × 1] reads, at (p, 0), the vector at p.

  Underneath: a gather of whole rows of a rank-2 array at an [R × 1] column of start indices reads, at (q, c), the array
  at (the start index at q read signed and clamped into [0, N − 1], c); and a nonnegative word is kept by the wrap.
-/
import proofs.«423491_j11716670783494_3_alg».proof.Proof.Tail
import proofs.«423491_j11716670783494_3_alg».proof.Proof.LibERealSums
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

open scoped BigOperators

namespace Cert.KernelIdeal.TailRead

open Cert.KernelIdeal Cert.KernelIdeal.Gen Cert.KernelIdeal.HostSteps Idealize.ShloMosaic Idealize.ShloMosaic.ValueIdx

/-! ## A gather of whole rows -/

section Rows
variable {α : Type}

/-- The dimension numbers of a gather of whole rows: operand [N × M], start indices the column [R × 1], result
    [R × M]; the operand's axis 0 is collapsed and start-indexed, the result's axis 1 is the offset axis, the slice
    one row. -/
abbrev rowDims (N M R : Nat) (wf : GatherDims.WF ⟨2, ![N, M]⟩ ⟨2, ![R, 1]⟩ ⟨2, ![R, M]⟩ [1] [0] [] [0] [] 1 ![1, M]) :
    GatherDims ⟨2, ![N, M]⟩ ⟨2, ![R, 1]⟩ ⟨2, ![R, M]⟩ where
  offsetDims := [1]
  collapsedSliceDims := [0]
  operandBatchingDims := []
  startIndicesBatchingDims := []
  startIndexMap := [0]
  indexVectorDim := 1
  sliceSizes := ![1, M]
  wf := wf

/-- The gather read at (q, c): the operand at row (the start index at q, read signed and clamped into [0, N − 1])
    and column c. -/
theorem gather_rows_apply {N M R w : Nat} (hN : 0 < N)
    (wf : GatherDims.WF ⟨2, ![N, M]⟩ ⟨2, ![R, 1]⟩ ⟨2, ![R, M]⟩ [1] [0] [] [0] [] 1 ![1, M])
    (x : (⟨2, ![N, M]⟩ : Shape).Idx → α) (idx : IVec ⟨2, ![R, 1]⟩ w) (q : Fin R) (c : Fin M) :
    Host.gather (rowDims N M R wf) x idx (ix2 q c)
      = x (ix2 ⟨min (idx (ix2 q (0 : Fin 1))).toInt.toNat (N - 1), by omega⟩ c) := by
  unfold Host.gather
  congr 1
  funext a
  refine Fin.ext ?_
  match a with
  | ⟨0, _⟩ =>
    show (rowDims N M R wf).start (ix2 q c) idx 0 + (rowDims N M R wf).batchCoord (ix2 q c) 0
        + (rowDims N M R wf).offCoord (ix2 q c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M R wf).startIndexMap from List.mem_singleton.mpr rfl)]
    have hsi : (rowDims N M R wf).siIdx (ix2 q c) ⟨List.idxOf (0 : Fin 2) (rowDims N M R wf).startIndexMap,
        List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl
  | ⟨1, _⟩ =>
    show (rowDims N M R wf).start (ix2 q c) idx 1 + (rowDims N M R wf).batchCoord (ix2 q c) 1
        + (rowDims N M R wf).offCoord (ix2 q c) 1 = c.val
    rw [GatherDims.batchCoord_eq_zero _ _ _ List.not_mem_nil]
    unfold GatherDims.start
    rw [dif_neg (show (1 : Fin 2) ∉ (rowDims N M R wf).startIndexMap from
      fun h => absurd (List.mem_singleton.mp h) (show (1 : Fin 2) ≠ 0 from by decide))]
    simp only [Nat.add_zero, Nat.zero_add]
    rfl

/-- The same with the start index given: where the word at q denotes the row number r, entry (q, c) is the operand at
    (r, c). -/
theorem gather_rows_at {N M R w : Nat} (hN : 0 < N)
    (wf : GatherDims.WF ⟨2, ![N, M]⟩ ⟨2, ![R, 1]⟩ ⟨2, ![R, M]⟩ [1] [0] [] [0] [] 1 ![1, M])
    (x : (⟨2, ![N, M]⟩ : Shape).Idx → α) (idx : IVec ⟨2, ![R, 1]⟩ w) (q : Fin R) (c : Fin M) (r : Fin N)
    (hr : (idx (ix2 q (0 : Fin 1))).toInt = (r.val : Int)) :
    Host.gather (rowDims N M R wf) x idx (ix2 q c) = x (ix2 r c) := by
  rw [gather_rows_apply hN wf x idx q c]
  have e : (⟨min (idx (ix2 q (0 : Fin 1))).toInt.toNat (N - 1), by omega⟩ : Fin N) = r := by
    refine Fin.ext ?_
    show min (idx (ix2 q (0 : Fin 1))).toInt.toNat (N - 1) = r.val
    have := r.isLt
    rw [hr, Int.toNat_natCast]
    omega
  rw [e]

/-- A vector as the [N × 1] column reads, at (q, 0), the vector at q. -/
theorem col_apply {N : Nat} (hb : (⟨1, ![N]⟩ : Shape).BroadcastsInDim ⟨2, ![N, 1]⟩ ![0])
    (x : (⟨1, ![N]⟩ : Shape).Idx → α) (q : Fin N) (u : Fin 1) :
    broadcastInDim ⟨2, ![N, 1]⟩ ![0] hb x (ix2 q u) = x (ix1 q) :=
  broadcastInDim_apply _ hb x _ (ix1 q) (fun a => by
    match a with
    | ⟨0, _⟩ =>
      show q.val = if N = 1 then 0 else q.val
      have := q.isLt
      split
      · omega
      · rfl)

end Rows

/-! ## The wrap of a nonnegative word -/

/-- A word that is nonnegative as a signed integer is kept by "x + n where x is negative, x otherwise". -/
theorem wrap_word (x n : BitVec 32) (hx : 0 ≤ x.toInt) :
    Scalar.select (IntOp.cmpi .slt x 0#32) (IntOp.addi x n) x = x := by
  have h0 : IntOp.cmpi .slt x 0#32 = 0#1 := eq_zero_of_ne_one (fun h => by
    have := IntOp.cmpi_slt.mp h
    rw [show (0#32 : BitVec 32).toInt = 0 from by decide] at this
    omega)
  rw [h0, select_zero]

/-- So the wrapped vector reads, at an index whose word is nonnegative, the word itself. -/
theorem wrapIdx_apply (S : Shape) (hb : S_.BroadcastsInDim S (![] : Fin 0 → Fin S.rank)) (n : BitVec 32) (x : IVec S 32)
    (i : S.Idx) (hx : 0 ≤ (x i).toInt) : wrapIdx S hb n x i = x i :=
  wrap_word (x i) n hx

/-! ## The three reads -/

/-- The gathered rows of the output array: row q is row `row q` of Y. -/
theorem rows_read {α : Type} (Y : S9216x2048.Idx → α) (inv : IVec S8192 32) (row : Fin 8192 → Fin 9216)
    (hrow : ∀ q, (inv (ix1 q)).toInt = ((row q).val : Int)) (q : Fin 8192) (h : Fin 2048) :
    Host.gather gather_S9216x2048_S8192x1_S8192x2048_1_0_n_n_0_1_12048 Y
        (col8192 (wrapIdx S8192 bcast_S_S8192 9216#32 inv)) (ix2 q h) = Y (ix2 (row q) h) := by
  refine gather_rows_at (N := 9216) (M := 2048) (R := 8192) (by decide)
    gather_S9216x2048_S8192x1_S8192x2048_1_0_n_n_0_1_12048_wf Y _ q h (row q) ?_
  rw [show col8192 (wrapIdx S8192 bcast_S_S8192 9216#32 inv) (ix2 q (0 : Fin 1))
      = wrapIdx S8192 bcast_S_S8192 9216#32 inv (ix1 q) from col_apply _ _ q 0,
    wrapIdx_apply S8192 bcast_S_S8192 9216#32 inv (ix1 q) (by rw [hrow q]; exact Int.natCast_nonneg _)]
  exact hrow q

/-- (1) The tail's result at (n, h): the two rows of Y that the table names for token n, added. -/
theorem result_read (Y : Vec Ideal S9216x2048 .bf16) (inv : IVec S8192 32) (row : Fin 8192 → Fin 9216)
    (hrow : ∀ q, (inv (ix1 q)).toInt = ((row q).val : Int)) (n : Fin 4096) (h : Fin 2048) :
    Cert.KernelIdeal.Tail.resultOf (F := Ideal) Y inv (ix2 n h)
      = ∑ k : Fin 2, Y (ix2 (row ⟨2 * n.val + k.val, by omega⟩) h) := by
  unfold Cert.KernelIdeal.Tail.resultOf
  simp only [Host.reduceAdd, Ideal.hostReduceAdd_def]
  rw [Ideal.hostReduceAdd_single reducesTo_S4096x2x2048_S4096x2048_d1 (by decide)]
  rw [constant_apply, Ideal.ofBits_zero_f32, zero_add]
  refine Finset.sum_congr rfl fun k _ => ?_
  have hk2 : k.val < 2 := k.isLt
  refine (shapeCast_apply _ _ _ (ix2 (⟨2 * n.val + k.val, by omega⟩ : Fin 8192) h) ?_).trans ?_
  · rw [Shape.rowMajor_val_two, Shape.rowMajor_val_three]
    show (2 * n.val + k.val) * 2048 + h.val = (n.val * 2 + k.val) * 2048 + h.val
    omega
  · exact (extf_apply (φ := .bf16) (ψ := .f32) _ bitsLt_bf16_f32 _).trans (rows_read Y inv row hrow _ h)

/-- (2) The gather of the token rows: where the table's word at p is the row number n, entry (p, c) of the gathered
    array is the (narrowed) array at (n, c). -/
theorem gather_token_gen {F : FTy → Type} [FloatOps F] (X : FVec F S4096x2048 .f32) (tok : IVec S9216 32) (p : Fin 9216)
    (cc : Fin 2048) (n : Fin 4096) (htok : (tok (ix1 p)).toInt = (n.val : Int)) :
    Host.gather gather_S4096x2048_S9216x1_S9216x2048_1_0_n_n_0_1_12048 (truncf .bf16 X bitsLt_bf16_f32)
        (broadcastInDim S9216x1 ![0] bcast_S9216_S9216x1_0 (wrapIdx S9216 bcast_S_S9216 4096#32 tok)) (ix2 p cc)
      = truncf .bf16 X bitsLt_bf16_f32 (ix2 n cc) := by
  refine gather_rows_at (N := 4096) (M := 2048) (R := 9216) (by decide)
    gather_S4096x2048_S9216x1_S9216x2048_1_0_n_n_0_1_12048_wf _ _ p cc n ?_
  rw [show broadcastInDim S9216x1 ![0] bcast_S9216_S9216x1_0 (wrapIdx S9216 bcast_S_S9216 4096#32 tok) (ix2 p (0 : Fin 1))
      = wrapIdx S9216 bcast_S_S9216 4096#32 tok (ix1 p) from col_apply _ _ p 0,
    wrapIdx_apply S9216 bcast_S_S9216 4096#32 tok (ix1 p) (by rw [htok]; exact Int.natCast_nonneg _)]
  exact htok

/-- The same on extended reals, where the narrowing is the identity. -/
theorem gather_token (X : FVec Ideal S4096x2048 .f32) (tok : IVec S9216 32) (p : Fin 9216)
    (cc : Fin 2048) (n : Fin 4096) (htok : (tok (ix1 p)).toInt = (n.val : Int)) :
    Host.gather gather_S4096x2048_S9216x1_S9216x2048_1_0_n_n_0_1_12048 (truncf .bf16 X bitsLt_bf16_f32)
        (broadcastInDim S9216x1 ![0] bcast_S9216_S9216x1_0 (wrapIdx S9216 bcast_S_S9216 4096#32 tok)) (ix2 p cc)
      = X (ix2 n cc) :=
  (gather_token_gen X tok p cc n htok).trans (truncf_apply X bitsLt_bf16_f32 (ix2 n cc))

/-- (3) A vector reshaped to a column reads, at (p, 0), the vector at p. -/
theorem column_read {F : FTy → Type} [FloatOps F] (w : FVec F S9216 .f32) (p : Fin 9216) :
    shapeCast S9216x1 w shapeCasts_S9216_S9216x1 (ix2 p (0 : Fin 1)) = w (ix1 p) :=
  shapeCast_apply w shapeCasts_S9216_S9216x1 _ (ix1 p) (by
    rw [Shape.rowMajor_val_one, Shape.rowMajor_val_two]
    show p.val = p.val * 1 + 0
    omega)

end Cert.KernelIdeal.TailRead

end
-- ==== Proof.OutArr.lean ====
/-
  The output array of the grouped-expert feed-forward kernel, after the run.

  The kernel is one gridded call on 72 points. Its output window is a [9216, 2048] bf16 array written in 72 blocks of
  [128, 2048]: block `t` covers rows `128 t … 128 t + 127` and every column (the window's index map sends point `t`
  to block `(t, 0)` and reads no prefetched table), and every point writes its block back.

  (1) THE PIECE (`out_piece`). At any point and on any whole staging memrefs, the body ends with ONE store into the
      output's staging buffer, through the whole-block rectangle at zero offsets; its payload `k0_pay1` is computed from
      five loads, each through the whole-shape rectangle at zero offsets of its buffer. A covering store leaves its payload
      and such a load reads the buffer's contents, so the staging buffer ends holding
      `k0_pay1 (tokens) (gate weights) (up weights) (down weights) (routing-weight column)` of the five input blocks.

  (2) THE ARRAY AFTER THE RUN (`arr_final`, written out in `arr_final_apply`). Every structural fact is proved at ARBITRARY
      admissible contents `a` of the prefetched table (they do not depend on it): the grid has 72 points (`N_eq`); the
      output's block index at `t` is `(t, 0)` (`index5`); an element `(r, l)` of block `t` sits at `(128 t + r, l)` of the
      array (`blk5_emb`); hence block `t` of the array assembled from one tile per point, row `p` taken from row `p % 128`
      of tile `p / 128` (`ofTiles`), read back, is tile `t` (`read_blk_ofTiles`: `(128 t + r) / 128 = t` and
      `(128 t + r) % 128 = r` for `r < 128`); an index is in block `t` iff its row is in `128 t … 128 t + 127`
      (`mem_blk5`), so every index is in the block of the point `(its row) / 128`, which is written back (`cover5`).
      At the table's launch contents, what point `t` writes back is the body's value there (`tileVal`, by (1)), that is,
      block `t` of `ofTiles` of those values (`flushed5_eq`); the blocks cover the array, so the array ends holding it.
-/
import proofs.«423491_j11716670783494_3_alg».proof.Proof.Gen.KernelIdeal.Frame
import Idealize.ShloMosaic.Lib.Pipeline.Value
import Idealize.ShloMosaic.Lib.ValueIdx

set_option maxRecDepth 16384

noncomputable section

namespace Cert.KernelIdeal.OutArr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]
variable (m : (ℓ : Loc nD τ sig) → Buf (Elt F) ℓ)

/-- The zero offsets of a rank-2 block, however spelt. -/
theorem hz2 : (![0, 0] : Fin 2 → Nat) = fun _ => 0 := funext fun a => by fin_cases a <;> rfl
/-- The zero offsets of a rank-3 block, however spelt. -/
theorem hz3 : (![0, 0, 0] : Fin 3 → Nat) = fun _ => 0 := funext fun a => by fin_cases a <;> rfl

/-- THE PIECE. Whatever the staging memrefs, the body leaves in the output's staging buffer the payload of its one
    covering store: the gated feed-forward value of the token block `x0`, the three weight blocks `x2`, `x3`, `x4` and
    the routing-weight column `x1`, each read whole (every load is through the whole-shape rectangle at zero offsets). -/
theorem out_piece (c : Dev nD) (i : grid0.Coords) (arg2 : Memref sig .tc .vmem S128x2048 .bf16) (harg2 : arg2.IsWhole) (arg3 : Memref sig .tc .vmem S128x1 .f32) (harg3 : arg3.IsWhole) (arg4 : Memref sig .tc .vmem S1x1408x2048 .bf16) (harg4 : arg4.IsWhole) (arg5 : Memref sig .tc .vmem S1x1408x2048 .bf16) (harg5 : arg5.IsWhole) (arg6 : Memref sig .tc .vmem S1x2048x1408 .bf16) (harg6 : arg6.IsWhole) (arg7 : Memref sig .tc .vmem S128x2048 .bf16) (harg7 : arg7.IsWhole)
    (x0 : Vec F S128x2048 .bf16) (x1 : Vec F S128x1 .f32) (x2 : Vec F S1x1408x2048 .bf16) (x3 : Vec F S1x1408x2048 .bf16) (x4 : Vec F S1x2048x1408 .bf16) (xt0 : TbBuf0 (F := F) c tbM0_0) :
    out0_A_5 c i arg2 harg2 arg3 harg3 arg4 harg4 arg5 harg5 arg6 harg6 arg7 harg7 x0 x1 x2 x3 x4 xt0 = k0_pay1 x0 x2 x3 x4 x1 := by
  unfold out0_A_5
  rw [View.read_writes_eq_canon _ _ _ (cover0_A_5 c i arg2 harg2 arg3 harg3 arg4 harg4 arg5 harg5 arg6 harg6 arg7 harg7 x0 x1 x2 x3 x4 xt0)]
  unfold kernelRun0_A
  dsimp only
  sl_unfold_words
  rw [View.canon_unit_zero hz2]
  simp only [View.readAt_eq_ld, harg2.read_unread, harg3.read_unread, harg4.read_unread, harg5.read_unread, harg6.read_unread,
    View.ld_unit_zero (S := S128x2048) hz2, View.ld_unit_zero (S := S128x1) hz2, View.ld_unit_zero (S := S1x1408x2048) hz3,
    View.ld_unit_zero (S := S1x2048x1408) hz3]

/-! ## The output window's blocks, at any admissible contents of the prefetched table -/

/-- The grid has 72 points, whatever the table holds. -/
theorem N_eq (a : (pcfg0 (F := F)).Adm) : (cfg0 a).N = 72 := rfl

/-- The output window's block index at point `t` is `(t, 0)`: its index map returns the grid coordinate and a zero,
    and reads no table (decided over the 72 points). -/
theorem index5 (a : (pcfg0 (F := F)).Adm) : ∀ t : Fin (cfg0 a).N,
    ((cfg0 a).win 5).index t (0 : Fin 2) = t.val ∧ ((cfg0 a).win 5).index t (1 : Fin 2) = 0 :=
  (by decide +kernel : ∀ t : Fin grid0.N,
    cc0_transform_5 (grid0.coords t) (0 : Fin 2) = t.val ∧ cc0_transform_5 (grid0.coords t) (1 : Fin 2) = 0)

/-- The tile (grid point) whose block holds row `p` of the output array: `p / 128`. -/
def tileOf (a : (pcfg0 (F := F)).Adm) (p : Fin 9216) : Fin (cfg0 a).N :=
  ⟨p.val / 128, by rw [N_eq a]; have := p.isLt; omega⟩

theorem tileOf_val (a : (pcfg0 (F := F)).Adm) (p : Fin 9216) : (tileOf a p).val = p.val / 128 := rfl

/-- The [9216, 2048] array assembled from one [128, 2048] tile per grid point: row `p` is row `p % 128` of tile
    `p / 128`. -/
def ofTiles (a : (pcfg0 (F := F)).Adm) (f : Fin (cfg0 a).N → Vec F S128x2048 .bf16) : Vec F S9216x2048 .bf16 :=
  fun i => f (tileOf a (i 0))
    (ix2 (⟨(i 0).val % 128, Nat.mod_lt _ (by decide)⟩ : Fin 128) (⟨(i 1).val, (i 1).isLt⟩ : Fin 2048))

/-- Equal tiles at equal indices. -/
theorem tiles_congr {N : Nat} (f : Fin N → Vec F S128x2048 .bf16) {s t : Fin N} {x y : S128x2048.Idx}
    (hs : s = t) (hx : x = y) : f s x = f t y := by subst hs; subst hx; rfl

/-- An element of block `t` sits in the array at row `128 t + (its row)` and at its own column: a block's
    coordinate is the block index times the block size plus the coordinate inside the block. -/
theorem blk5_emb (a : (pcfg0 (F := F)).Adm) (t : Fin (cfg0 a).N)
    (j : (((cfg0 a).win 5).xblock ((cfg0 a).grid.coords t)).Idx) :
    (((((cfg0 a).win 5).blk t).view.emb j) (0 : Fin 2) : Nat) = t.val * 128 + (j (0 : Fin 2)).val
    ∧ (((((cfg0 a).win 5).blk t).view.emb j) (1 : Fin 2) : Nat) = (j (1 : Fin 2)).val := by
  obtain ⟨e0, e1⟩ := index5 a t
  constructor
  · show ((cfg0 a).win 5).index t (0 : Fin 2) * 128 + 1 * (j (0 : Fin 2)).val = t.val * 128 + (j (0 : Fin 2)).val
    omega
  · show ((cfg0 a).win 5).index t (1 : Fin 2) * 2048 + 1 * (j (1 : Fin 2)).val = (j (1 : Fin 2)).val
    omega

/-- Block `t` of the array assembled from tiles, read back, is tile `t`. -/
theorem read_blk_ofTiles (a : (pcfg0 (F := F)).Adm) (f : Fin (cfg0 a).N → Vec F S128x2048 .bf16) (t : Fin (cfg0 a).N) :
    (((cfg0 a).win 5).blk t).view.read (Elt F) (ofTiles a f)
      = ((cfg0 a).win 5).cut ((cfg0 a).grid.coords t) (f t) := by
  funext j
  obtain ⟨e0, e1⟩ := blk5_emb a t j
  have hj0 : (j (0 : Fin 2)).val < 128 := (j (0 : Fin 2)).isLt
  show ofTiles a f ((((cfg0 a).win 5).blk t).view.emb j) = f t (((cfg0 a).win 5).xinj ((cfg0 a).grid.coords t) j)
  unfold ofTiles
  refine tiles_congr f (Fin.ext ?_) (funext fun b => Fin.ext ?_)
  · show ((((cfg0 a).win 5).blk t).view.emb j (0 : Fin 2) : Nat) / 128 = t.val
    omega
  · match b with
    | ⟨0, _⟩ =>
      show ((((cfg0 a).win 5).blk t).view.emb j (0 : Fin 2) : Nat) % 128 = (j (0 : Fin 2)).val
      omega
    | ⟨1, _⟩ =>
      show ((((cfg0 a).win 5).blk t).view.emb j (1 : Fin 2) : Nat) = (j (1 : Fin 2)).val
      exact e1

/-- An index of the array is in block `t` iff its row is one of `128 t … 128 t + 127` (a block spans every column). -/
theorem mem_blk5 (a : (pcfg0 (F := F)).Adm) (t : Fin (cfg0 a).N) (i : S9216x2048.Idx) :
    i ∈ (((cfg0 a).win 5).blk t).view.set ↔ t.val * 128 ≤ (i 0).val ∧ (i 0).val < t.val * 128 + 128 := by
  have hs : (((cfg0 a).win 5).blk t).view.set = (((cfg0 a).win 5).rect t).set := View.set_slice_whole _ _
  rw [hs]
  refine Rect.mem_set_unit.trans ?_
  obtain ⟨e0, e1⟩ := index5 a t
  have hi1 : (i 1).val < 2048 := (i 1).isLt
  constructor
  · intro h
    have b0 : ((cfg0 a).win 5).index t (0 : Fin 2) * 128 ≤ (i 0).val
        ∧ (i 0).val < ((cfg0 a).win 5).index t (0 : Fin 2) * 128 + 128 := h (0 : Fin 2)
    omega
  · intro h b
    match b with
    | ⟨0, _⟩ =>
      show ((cfg0 a).win 5).index t (0 : Fin 2) * 128 ≤ (i 0).val
        ∧ (i 0).val < ((cfg0 a).win 5).index t (0 : Fin 2) * 128 + 128
      omega
    | ⟨1, _⟩ =>
      show ((cfg0 a).win 5).index t (1 : Fin 2) * 2048 ≤ (i 1).val
        ∧ (i 1).val < ((cfg0 a).win 5).index t (1 : Fin 2) * 2048 + 2048
      omega

/-- Every index of the array is in the block of its row's tile, which is written back (every point is). -/
theorem cover5 (a : (pcfg0 (F := F)).Adm) (i : S9216x2048.Idx) :
    ∃ t : Fin (cfg0 a).N, ((cfg0 a).win 5).flush t = true ∧ i ∈ (((cfg0 a).win 5).blk t).view.set := by
  refine ⟨tileOf a (i 0), flush0_5 a _, (mem_blk5 a _ i).mpr ?_⟩
  have : (i 0).val < 9216 := (i 0).isLt
  show (i 0).val / 128 * 128 ≤ (i 0).val ∧ (i 0).val < (i 0).val / 128 * 128 + 128
  omega

/-! ## The array after the run -/

/-- The body's value at point `t`: the payload of the point's five input blocks. -/
def tileVal (hO : Ok m) (c : Dev nD) (t : Fin (cfgM m hO).N) : Vec F S128x2048 .bf16 :=
  k0_pay1 (iblk m hO c 0 t) (iblk m hO c 2 t) (iblk m hO c 3 t) (iblk m hO c 4 t) (iblk m hO c 1 t)

/-- What the output's staging buffer holds after the body at point `t` is that value. -/
theorem outsAt_eq (hO : Ok m) (c : Dev nD) (t : Fin (cfgM m hO).N) : outsAt0 m hO c t = tileVal m hO c t := by
  unfold outsAt0 tileVal
  exact out_piece c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t)
    (iblk m hO c 0 t) (iblk m hO c 1 t) (iblk m hO c 2 t) (iblk m hO c 3 t) (iblk m hO c 4 t) (tbl m 0)

/-- What point `t` writes back is block `t` of the array assembled from the points' values. -/
theorem flushed5_eq (hO : Ok m) (c : Dev nD) (t : Fin (cfgM m hO).N) :
    (dats m hO 0 c).flushed 5 t
      = (((cfgM m hO).win 5).blk t).view.read (Elt F) (ofTiles (adm m hO) (tileVal m hO c)) := by
  show ((cfgM m hO).win 5).cut ((cfgM m hO).grid.coords t) ((dats m hO 0 c).after 5 t) = _
  rw [after0_5, outsAt_eq]
  exact (read_blk_ofTiles (adm m hO) (tileVal m hO c) t).symm

/-- THE ARRAY AFTER THE RUN: the output array ends holding, at row `p`, row `p % 128` of the body's value at
    tile `p / 128` — the blocks tile the array and every point writes its block back. -/
theorem arr_final (hO : Ok m) (c : Dev nD) :
    (dats m hO 0 c).arrAt 5 (cfgM m hO).N = ofTiles (adm m hO) (tileVal m hO c) :=
  (dats m hO 0 c).arrAt_eq_of_cover 5 (ofTiles (adm m hO) (tileVal m hO c)) (fun t _ => flushed5_eq m hO c t)
    (cover5 (adm m hO))

/-- The same, written out: the payload of the five input blocks at the tile of row `i 0`, read at row `(i 0) % 128`
    and column `i 1`. -/
theorem arr_final_apply (hO : Ok m) (c : Dev nD) :
    (dats m hO 0 c).arrAt 5 (cfgM m hO).N = fun i : S9216x2048.Idx =>
      k0_pay1 (iblk m hO c 0 (tileOf (adm m hO) (i 0))) (iblk m hO c 2 (tileOf (adm m hO) (i 0)))
        (iblk m hO c 3 (tileOf (adm m hO) (i 0))) (iblk m hO c 4 (tileOf (adm m hO) (i 0)))
        (iblk m hO c 1 (tileOf (adm m hO) (i 0)))
        (ix2 (⟨(i 0).val % 128, Nat.mod_lt _ (by decide)⟩ : Fin 128) (⟨(i 1).val, (i 1).isLt⟩ : Fin 2048)) :=
  arr_final m hO c

/-- The same at explicit coordinates: row `p`, column `h`. -/
theorem arr_final_at (hO : Ok m) (c : Dev nD) (p : Fin 9216) (h : Fin 2048) :
    (dats m hO 0 c).arrAt 5 (cfgM m hO).N (ix2 p h)
      = tileVal m hO c (tileOf (adm m hO) p) (ix2 (⟨p.val % 128, Nat.mod_lt _ (by decide)⟩ : Fin 128) h) :=
  congrFun (arr_final m hO c) (ix2 p h)

end Cert.KernelIdeal.OutArr

end
-- ==== Proof.BlockReads.lean ====
/-
  WHERE THE WINDOWS' BLOCKS SIT IN THEIR ARRAYS. The kernel runs on a grid of 72 points t = 0 … 71 and reads five
  arrays through blocks:

  * the token rows X [9216, 2048] in blocks of 128 rows: the block at point t is rows 128 t … 128 t + 127, so its
    element (r, c) is X (128 t + r, c);
  * the routing-weight column w [9216, 1] in blocks of 128 rows: the block's element (r, 0) is w (128 t + r, 0);
  * the three expert weight stacks W1, W3 [8, 1408, 2048] and W2 [8, 2048, 1408], one expert's whole matrix per
    block, the expert chosen by a table of 72 words: with e = the table's word at t (read as a natural number,
    assumed below 8), the block's element (0, i, c) is W (e, i, c).

  Each fact is first proved of the block's coordinate map for ARBITRARY admissible table contents (the block index on
  an axis times the block size plus the coordinate inside the block), where the index maps are evaluated in closed
  form: the first coordinate of a grid point of the one-axis grid is the point's number; a 32-bit word made from a
  number below 72 has that number as its value; the table read at offset t is the table's word at index t. Then
  the contents are instantiated with the table as the region finds it, and the array with the array as the region finds it.
-/
import proofs.«423491_j11716670783494_3_alg».proof.Proof.Gen.KernelIdeal.Frame.Runs
import Idealize.ShloMosaic.Lib.Pipeline.Value
import Idealize.ShloMosaic.Lib.ValueIdx

set_option maxRecDepth 16384

noncomputable section

namespace Cert.KernelIdeal.BlockReads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Facts₀ Facts

variable {F : FTy → Type} [FloatOps F]
variable (m : (ℓ : Loc nD τ sig) → Buf (Elt F) ℓ)

/-- Row r of the block of 128 rows at point t is a row of the 9216. -/
theorem row_lt {t r : Nat} (ht : t < 72) (hr : r < 128) : 128 * t + r < 9216 := by omega

/-- The one coordinate of a point of the rank-1 grid of 72 points is the point's number. -/
theorem coords0 (t : Fin grid0.N) : (grid0.coords t 0).val = t.val := by
  show t.val / grid0.stride 0 % 72 = t.val
  have h : grid0.stride 0 = 1 := by decide
  have ht : t.val < 72 := t.isLt
  rw [h]; omega

theorem ofNat_toNat (i : grid0.Coords) : (BitVec.ofNat 32 (i 0).val).toNat = (i 0).val := by
  have h : (i 0).val < 72 := (i 0).isLt
  rw [BitVec.toNat_ofNat]; omega

theorem tr0 (i : grid0.Coords) : cc0_transform_0 i = ![(i 0).val, 0] := by
  unfold cc0_transform_0
  simp only [ofNat_toNat]
  rfl

theorem tr1 (i : grid0.Coords) : cc0_transform_1 i = ![(i 0).val, 0] := by
  unfold cc0_transform_1
  simp only [ofNat_toNat]
  rfl

/-- Window 0's block at point t sits in the token rows at rows 128 t … 128 t + 127, all columns. -/
theorem emb0 (a : (pcfg0 (F := F)).Adm) (t : Fin (cfg0 a).N) (r : Fin 128) (cc : Fin 2048) :
    (((cfg0 a).win 0).blk t).view.emb (ix2 r cc : S128x2048.Idx) = (ix2 ⟨128 * t.val + r.val, row_lt t.isLt r.isLt⟩ cc : S9216x2048.Idx) := by
  have hi : ((cfg0 a).win 0).index t = ![t.val, 0] := by
    show cc0_transform_0 (grid0.coords t) = _
    rw [tr0, coords0]
  funext x
  apply Fin.ext
  match x with
  | ⟨0, _⟩ =>
    show ((cfg0 a).win 0).index t (0 : Fin 2) * 128 + 1 * r.val = 128 * t.val + r.val
    rw [hi]; show t.val * 128 + 1 * r.val = _; omega
  | ⟨1, _⟩ =>
    show ((cfg0 a).win 0).index t (1 : Fin 2) * 2048 + 1 * cc.val = cc.val
    rw [hi]; show 0 * 2048 + 1 * cc.val = _; omega

/-- Any array read through window 0's block at point t. -/
theorem readA0 (a : (pcfg0 (F := F)).Adm) (t : Fin (cfg0 a).N) (A : S9216x2048.Idx → Elt F .bf16) (r : Fin 128) (cc : Fin 2048) :
    (((cfg0 a).win 0).blk t).view.read (Elt F) A (ix2 r cc : S128x2048.Idx) = A (ix2 ⟨128 * t.val + r.val, row_lt t.isLt r.isLt⟩ cc) := by
  show A ((((cfg0 a).win 0).blk t).view.emb (ix2 r cc : S128x2048.Idx)) = _
  rw [emb0]

/-- Window 0's block at point t, at row r and column cc, is the token rows' element at row 128 t + r, column cc. -/
theorem read0 (hO : Ok m) (c : Dev nD) (t : Fin (cfgM m hO).N) (r : Fin 128) (cc : Fin 2048) :
    (iblk m hO c 0 t : Vec F S128x2048 .bf16) (ix2 r cc) = V m c main_v110 (ix2 ⟨128 * t.val + r.val, row_lt t.isLt r.isLt⟩ cc) :=
  readA0 (adm m hO) t (V m c main_v110) r cc

/-- Window 1's block at point t sits in the routing-weight column at rows 128 t … 128 t + 127. -/
theorem emb1 (a : (pcfg0 (F := F)).Adm) (t : Fin (cfg0 a).N) (r : Fin 128) :
    (((cfg0 a).win 1).blk t).view.emb (ix2 r (0 : Fin 1) : S128x1.Idx) = (ix2 ⟨128 * t.val + r.val, row_lt t.isLt r.isLt⟩ (0 : Fin 1) : S9216x1.Idx) := by
  have hi : ((cfg0 a).win 1).index t = ![t.val, 0] := by
    show cc0_transform_1 (grid0.coords t) = _
    rw [tr1, coords0]
  funext x
  apply Fin.ext
  match x with
  | ⟨0, _⟩ =>
    show ((cfg0 a).win 1).index t (0 : Fin 2) * 128 + 1 * r.val = 128 * t.val + r.val
    rw [hi]; show t.val * 128 + 1 * r.val = _; omega
  | ⟨1, _⟩ =>
    show ((cfg0 a).win 1).index t (1 : Fin 2) * 1 + 1 * 0 = 0
    rw [hi]; show 0 * 1 + 1 * 0 = _; omega

/-- Any array read through window 1's block at point t. -/
theorem readA1 (a : (pcfg0 (F := F)).Adm) (t : Fin (cfg0 a).N) (A : S9216x1.Idx → Elt F .f32) (r : Fin 128) :
    (((cfg0 a).win 1).blk t).view.read (Elt F) A (ix2 r (0 : Fin 1) : S128x1.Idx) = A (ix2 ⟨128 * t.val + r.val, row_lt t.isLt r.isLt⟩ (0 : Fin 1)) := by
  show A ((((cfg0 a).win 1).blk t).view.emb (ix2 r (0 : Fin 1) : S128x1.Idx)) = _
  rw [emb1]

/-- Window 1's block at point t, at row r, is the routing-weight column's element at row 128 t + r. -/
theorem read1 (hO : Ok m) (c : Dev nD) (t : Fin (cfgM m hO).N) (r : Fin 128) :
    (iblk m hO c 1 t : Vec F S128x1 .f32) (ix2 r (0 : Fin 1)) = V m c main_v111 (ix2 ⟨128 * t.val + r.val, row_lt t.isLt r.isLt⟩ (0 : Fin 1)) :=
  readA1 (adm m hO) t (V m c main_v111) r

/-- The table word the index maps of windows 2, 3, 4 read at coordinates i is the word at index i. -/
theorem tblIdx (i : grid0.Coords) (k : Fin 72) (hk : (i 0).val = k.val) :
    (Rect.unit (s := S72) ![(Scalar.indexCast (BitVec.ofNat 32 (i 0).val)).toNat] S1.size (Facts₀.k0_off1_inb i)).emb (Shape.Idx.first (Facts₀.numel1_S1.symm ▸ Nat.one_pos)) = (ix1 k : S72.Idx) := by
  funext x
  apply Fin.ext
  match x with
  | ⟨0, _⟩ =>
    show (BitVec.ofNat 32 (i 0).val).toNat + 1 * 0 = k.val
    rw [ofNat_toNat, hk]; omega

/-- The index map of window 2 in closed form: the table's word at the point, then zeros. -/
theorem tr2 (pf : pre0.Contents (Elt F)) (i : grid0.Coords) (k : Fin 72) (hk : (i 0).val = k.val) :
    cc0_transform_2 Facts₀.k0_off1_inb Facts₀.numel1_S1 pf i = ![(pf 0 (ix1 k)).toNat, 0, 0] := by
  unfold cc0_transform_2
  show ![(pf 0 ((Rect.unit (s := S72) ![(Scalar.indexCast (BitVec.ofNat 32 (i 0).val)).toNat] S1.size (Facts₀.k0_off1_inb i)).emb (Shape.Idx.first (Facts₀.numel1_S1.symm ▸ Nat.one_pos)))).toNat, 0, 0] = _
  rw [tblIdx i k hk]

/-- Window 2's block at point t is the whole matrix of the expert the table names at t. -/
theorem emb2 (a : (pcfg0 (F := F)).Adm) (pf : pre0.Contents (Elt F)) (hpf : a.1 = pf) (t : Fin (cfg0 a).N)
    (he : (pf 0 (ix1 (⟨t.val, t.isLt⟩ : Fin 72))).toNat < 8) (i : Fin 1408) (cc : Fin 2048) :
    (((cfg0 a).win 2).blk t).view.emb (ix3 (0 : Fin 1) i cc : S1x1408x2048.Idx) = (ix3 ⟨(pf 0 (ix1 (⟨t.val, t.isLt⟩ : Fin 72))).toNat, he⟩ i cc : S8x1408x2048.Idx) := by
  have hi : ((cfg0 a).win 2).index t = ![(pf 0 (ix1 (⟨t.val, t.isLt⟩ : Fin 72))).toNat, 0, 0] := by
    show cc0_transform_2 Facts₀.k0_off1_inb Facts₀.numel1_S1 a.1 (grid0.coords t) = _
    rw [hpf]
    exact tr2 pf (grid0.coords t) ⟨t.val, t.isLt⟩ (coords0 t)
  generalize (pf 0 (ix1 (⟨t.val, t.isLt⟩ : Fin 72))).toNat = e at he hi
  funext x
  apply Fin.ext
  match x with
  | ⟨0, _⟩ =>
    show ((cfg0 a).win 2).index t (0 : Fin 3) * 1 + 1 * 0 = e
    rw [hi]; show e * 1 + 1 * 0 = _; omega
  | ⟨1, _⟩ =>
    show ((cfg0 a).win 2).index t (1 : Fin 3) * 1408 + 1 * i.val = i.val
    rw [hi]; show 0 * 1408 + 1 * i.val = _; omega
  | ⟨2, _⟩ =>
    show ((cfg0 a).win 2).index t (2 : Fin 3) * 2048 + 1 * cc.val = cc.val
    rw [hi]; show 0 * 2048 + 1 * cc.val = _; omega

/-- Any array read through window 2's block at point t. -/
theorem readA2 (a : (pcfg0 (F := F)).Adm) (pf : pre0.Contents (Elt F)) (hpf : a.1 = pf) (t : Fin (cfg0 a).N)
    (he : (pf 0 (ix1 (⟨t.val, t.isLt⟩ : Fin 72))).toNat < 8) (A : S8x1408x2048.Idx → Elt F .bf16) (i : Fin 1408) (cc : Fin 2048) :
    (((cfg0 a).win 2).blk t).view.read (Elt F) A (ix3 (0 : Fin 1) i cc : S1x1408x2048.Idx) = A (ix3 ⟨(pf 0 (ix1 (⟨t.val, t.isLt⟩ : Fin 72))).toNat, he⟩ i cc) := by
  show A ((((cfg0 a).win 2).blk t).view.emb (ix3 (0 : Fin 1) i cc : S1x1408x2048.Idx)) = _
  rw [emb2 a pf hpf t he]

/-- Window 2's block at point t, at (0, i, c), is the first expert weight stack's element (e, i, c), e the table's word at t. -/
theorem read2 (hO : Ok m) (c : Dev nD) (t : Fin (cfgM m hO).N)
    (he : (tbl m 0 (ix1 (⟨t.val, t.isLt⟩ : Fin 72))).toNat < 8) (i : Fin 1408) (cc : Fin 2048) :
    (iblk m hO c 2 t : Vec F S1x1408x2048 .bf16) (ix3 (0 : Fin 1) i cc) = V m c main_v112 (ix3 ⟨(tbl m 0 (ix1 (⟨t.val, t.isLt⟩ : Fin 72))).toNat, he⟩ i cc) :=
  readA2 (adm m hO) (tbl m) rfl t he (V m c main_v112) i cc

/-- The index map of window 3 in closed form: the table's word at the point, then zeros. -/
theorem tr3 (pf : pre0.Contents (Elt F)) (i : grid0.Coords) (k : Fin 72) (hk : (i 0).val = k.val) :
    cc0_transform_3 Facts₀.k0_off1_inb Facts₀.numel1_S1 pf i = ![(pf 0 (ix1 k)).toNat, 0, 0] := by
  unfold cc0_transform_3
  show ![(pf 0 ((Rect.unit (s := S72) ![(Scalar.indexCast (BitVec.ofNat 32 (i 0).val)).toNat] S1.size (Facts₀.k0_off1_inb i)).emb (Shape.Idx.first (Facts₀.numel1_S1.symm ▸ Nat.one_pos)))).toNat, 0, 0] = _
  rw [tblIdx i k hk]

/-- Window 3's block at point t is the whole matrix of the expert the table names at t. -/
theorem emb3 (a : (pcfg0 (F := F)).Adm) (pf : pre0.Contents (Elt F)) (hpf : a.1 = pf) (t : Fin (cfg0 a).N)
    (he : (pf 0 (ix1 (⟨t.val, t.isLt⟩ : Fin 72))).toNat < 8) (i : Fin 1408) (cc : Fin 2048) :
    (((cfg0 a).win 3).blk t).view.emb (ix3 (0 : Fin 1) i cc : S1x1408x2048.Idx) = (ix3 ⟨(pf 0 (ix1 (⟨t.val, t.isLt⟩ : Fin 72))).toNat, he⟩ i cc : S8x1408x2048.Idx) := by
  have hi : ((cfg0 a).win 3).index t = ![(pf 0 (ix1 (⟨t.val, t.isLt⟩ : Fin 72))).toNat, 0, 0] := by
    show cc0_transform_3 Facts₀.k0_off1_inb Facts₀.numel1_S1 a.1 (grid0.coords t) = _
    rw [hpf]
    exact tr3 pf (grid0.coords t) ⟨t.val, t.isLt⟩ (coords0 t)
  generalize (pf 0 (ix1 (⟨t.val, t.isLt⟩ : Fin 72))).toNat = e at he hi
  funext x
  apply Fin.ext
  match x with
  | ⟨0, _⟩ =>
    show ((cfg0 a).win 3).index t (0 : Fin 3) * 1 + 1 * 0 = e
    rw [hi]; show e * 1 + 1 * 0 = _; omega
  | ⟨1, _⟩ =>
    show ((cfg0 a).win 3).index t (1 : Fin 3) * 1408 + 1 * i.val = i.val
    rw [hi]; show 0 * 1408 + 1 * i.val = _; omega
  | ⟨2, _⟩ =>
    show ((cfg0 a).win 3).index t (2 : Fin 3) * 2048 + 1 * cc.val = cc.val
    rw [hi]; show 0 * 2048 + 1 * cc.val = _; omega

/-- Any array read through window 3's block at point t. -/
theorem readA3 (a : (pcfg0 (F := F)).Adm) (pf : pre0.Contents (Elt F)) (hpf : a.1 = pf) (t : Fin (cfg0 a).N)
    (he : (pf 0 (ix1 (⟨t.val, t.isLt⟩ : Fin 72))).toNat < 8) (A : S8x1408x2048.Idx → Elt F .bf16) (i : Fin 1408) (cc : Fin 2048) :
    (((cfg0 a).win 3).blk t).view.read (Elt F) A (ix3 (0 : Fin 1) i cc : S1x1408x2048.Idx) = A (ix3 ⟨(pf 0 (ix1 (⟨t.val, t.isLt⟩ : Fin 72))).toNat, he⟩ i cc) := by
  show A ((((cfg0 a).win 3).blk t).view.emb (ix3 (0 : Fin 1) i cc : S1x1408x2048.Idx)) = _
  rw [emb3 a pf hpf t he]

/-- Window 3's block at point t, at (0, i, c), is the second expert weight stack's element (e, i, c), e the table's word at t. -/
theorem read3 (hO : Ok m) (c : Dev nD) (t : Fin (cfgM m hO).N)
    (he : (tbl m 0 (ix1 (⟨t.val, t.isLt⟩ : Fin 72))).toNat < 8) (i : Fin 1408) (cc : Fin 2048) :
    (iblk m hO c 3 t : Vec F S1x1408x2048 .bf16) (ix3 (0 : Fin 1) i cc) = V m c main_v113 (ix3 ⟨(tbl m 0 (ix1 (⟨t.val, t.isLt⟩ : Fin 72))).toNat, he⟩ i cc) :=
  readA3 (adm m hO) (tbl m) rfl t he (V m c main_v113) i cc

/-- The index map of window 4 in closed form: the table's word at the point, then zeros. -/
theorem tr4 (pf : pre0.Contents (Elt F)) (i : grid0.Coords) (k : Fin 72) (hk : (i 0).val = k.val) :
    cc0_transform_4 Facts₀.k0_off1_inb Facts₀.numel1_S1 pf i = ![(pf 0 (ix1 k)).toNat, 0, 0] := by
  unfold cc0_transform_4
  show ![(pf 0 ((Rect.unit (s := S72) ![(Scalar.indexCast (BitVec.ofNat 32 (i 0).val)).toNat] S1.size (Facts₀.k0_off1_inb i)).emb (Shape.Idx.first (Facts₀.numel1_S1.symm ▸ Nat.one_pos)))).toNat, 0, 0] = _
  rw [tblIdx i k hk]

/-- Window 4's block at point t is the whole matrix of the expert the table names at t. -/
theorem emb4 (a : (pcfg0 (F := F)).Adm) (pf : pre0.Contents (Elt F)) (hpf : a.1 = pf) (t : Fin (cfg0 a).N)
    (he : (pf 0 (ix1 (⟨t.val, t.isLt⟩ : Fin 72))).toNat < 8) (i : Fin 2048) (cc : Fin 1408) :
    (((cfg0 a).win 4).blk t).view.emb (ix3 (0 : Fin 1) i cc : S1x2048x1408.Idx) = (ix3 ⟨(pf 0 (ix1 (⟨t.val, t.isLt⟩ : Fin 72))).toNat, he⟩ i cc : S8x2048x1408.Idx) := by
  have hi : ((cfg0 a).win 4).index t = ![(pf 0 (ix1 (⟨t.val, t.isLt⟩ : Fin 72))).toNat, 0, 0] := by
    show cc0_transform_4 Facts₀.k0_off1_inb Facts₀.numel1_S1 a.1 (grid0.coords t) = _
    rw [hpf]
    exact tr4 pf (grid0.coords t) ⟨t.val, t.isLt⟩ (coords0 t)
  generalize (pf 0 (ix1 (⟨t.val, t.isLt⟩ : Fin 72))).toNat = e at he hi
  funext x
  apply Fin.ext
  match x with
  | ⟨0, _⟩ =>
    show ((cfg0 a).win 4).index t (0 : Fin 3) * 1 + 1 * 0 = e
    rw [hi]; show e * 1 + 1 * 0 = _; omega
  | ⟨1, _⟩ =>
    show ((cfg0 a).win 4).index t (1 : Fin 3) * 2048 + 1 * i.val = i.val
    rw [hi]; show 0 * 2048 + 1 * i.val = _; omega
  | ⟨2, _⟩ =>
    show ((cfg0 a).win 4).index t (2 : Fin 3) * 1408 + 1 * cc.val = cc.val
    rw [hi]; show 0 * 1408 + 1 * cc.val = _; omega

/-- Any array read through window 4's block at point t. -/
theorem readA4 (a : (pcfg0 (F := F)).Adm) (pf : pre0.Contents (Elt F)) (hpf : a.1 = pf) (t : Fin (cfg0 a).N)
    (he : (pf 0 (ix1 (⟨t.val, t.isLt⟩ : Fin 72))).toNat < 8) (A : S8x2048x1408.Idx → Elt F .bf16) (i : Fin 2048) (cc : Fin 1408) :
    (((cfg0 a).win 4).blk t).view.read (Elt F) A (ix3 (0 : Fin 1) i cc : S1x2048x1408.Idx) = A (ix3 ⟨(pf 0 (ix1 (⟨t.val, t.isLt⟩ : Fin 72))).toNat, he⟩ i cc) := by
  show A ((((cfg0 a).win 4).blk t).view.emb (ix3 (0 : Fin 1) i cc : S1x2048x1408.Idx)) = _
  rw [emb4 a pf hpf t he]

/-- Window 4's block at point t, at (0, i, c), is the third expert weight stack's element (e, i, c), e the table's word at t. -/
theorem read4 (hO : Ok m) (c : Dev nD) (t : Fin (cfgM m hO).N)
    (he : (tbl m 0 (ix1 (⟨t.val, t.isLt⟩ : Fin 72))).toNat < 8) (i : Fin 2048) (cc : Fin 1408) :
    (iblk m hO c 4 t : Vec F S1x2048x1408 .bf16) (ix3 (0 : Fin 1) i cc) = V m c main_v114 (ix3 ⟨(tbl m 0 (ix1 (⟨t.val, t.isLt⟩ : Fin 72))).toNat, he⟩ i cc) :=
  readA4 (adm m hO) (tbl m) rfl t he (V m c main_v114) i cc

end Cert.KernelIdeal.BlockReads

end
-- ==== Proof.BodyValue.lean ====
/-
  What one grid point's body stores, at the ideal instance, when its input blocks hold real numbers: entry (r, h) of
  the 128 × 2048 output block is the row r's output of the specification, rowOut, of the token block's row r, the
  point's three expert weight blocks and the row's routing weight. The three matrix products are plain sums over the
  contracted axis, the logistic is (1 + exp(-g))⁻¹, and changes of float format are the identity.
-/
import proofs.«423491_j11716670783494_3_alg».proof.Proof.Gen.KernelIdeal.Skeleton
import proofs.«423491_j11716670783494_3_alg».proof.Proof.Spec
import proofs.«423491_j11716670783494_3_alg».proof.Proof.LibERealSums
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.BodyValue

open Cert.KernelIdeal Cert.KernelIdeal.Gen

variable [Cert.KernelIdeal.Facts]

/-! ## The two contractions' operand indices: each operand is read at its row of the result index and at the contraction position -/

theorem lhs_proj_0 (i : S128x1408.Idx) (q : dot_S128x2048_S1408x2048_S128x1408_1_1_0_0_n_n.contr.Idx) :
    (dot_S128x2048_S1408x2048_S128x1408_1_1_0_0_n_n.lhsIdx i q 0).val = (i 0).val := by
  unfold DotDims.lhsIdx
  rw [dif_neg (show ¬(0 : Fin S128x2048.rank) ∈ dot_S128x2048_S1408x2048_S128x1408_1_1_0_0_n_n.lhsBatch by decide), dif_pos (show (0 : Fin S128x2048.rank) ∈ dot_S128x2048_S1408x2048_S128x1408_1_1_0_0_n_n.lhsNonContracting by decide)]
  rfl
theorem lhs_proj_1 (i : S128x1408.Idx) (q : dot_S128x2048_S1408x2048_S128x1408_1_1_0_0_n_n.contr.Idx) :
    (dot_S128x2048_S1408x2048_S128x1408_1_1_0_0_n_n.lhsIdx i q 1).val = (q ⟨0, by decide⟩).val :=
  dot_S128x2048_S1408x2048_S128x1408_1_1_0_0_n_n.lhsIdx_val_of_single rfl i q
theorem rhs_proj_0 (i : S128x1408.Idx) (q : dot_S128x2048_S1408x2048_S128x1408_1_1_0_0_n_n.contr.Idx) :
    (dot_S128x2048_S1408x2048_S128x1408_1_1_0_0_n_n.rhsIdx i q 0).val = (i 1).val := by
  unfold DotDims.rhsIdx
  rw [dif_neg (show ¬(0 : Fin S1408x2048.rank) ∈ dot_S128x2048_S1408x2048_S128x1408_1_1_0_0_n_n.rhsBatch by decide), dif_pos (show (0 : Fin S1408x2048.rank) ∈ dot_S128x2048_S1408x2048_S128x1408_1_1_0_0_n_n.rhsNonContracting by decide)]
  rfl
theorem rhs_proj_1 (i : S128x1408.Idx) (q : dot_S128x2048_S1408x2048_S128x1408_1_1_0_0_n_n.contr.Idx) :
    (dot_S128x2048_S1408x2048_S128x1408_1_1_0_0_n_n.rhsIdx i q 1).val = (q ⟨0, by decide⟩).val :=
  dot_S128x2048_S1408x2048_S128x1408_1_1_0_0_n_n.rhsIdx_val_of_single rfl i q

theorem lhs_down_0 (i : S128x2048.Idx) (q : dot_S128x1408_S2048x1408_S128x2048_1_1_0_0_n_n.contr.Idx) :
    (dot_S128x1408_S2048x1408_S128x2048_1_1_0_0_n_n.lhsIdx i q 0).val = (i 0).val := by
  unfold DotDims.lhsIdx
  rw [dif_neg (show ¬(0 : Fin S128x1408.rank) ∈ dot_S128x1408_S2048x1408_S128x2048_1_1_0_0_n_n.lhsBatch by decide), dif_pos (show (0 : Fin S128x1408.rank) ∈ dot_S128x1408_S2048x1408_S128x2048_1_1_0_0_n_n.lhsNonContracting by decide)]
  rfl
theorem lhs_down_1 (i : S128x2048.Idx) (q : dot_S128x1408_S2048x1408_S128x2048_1_1_0_0_n_n.contr.Idx) :
    (dot_S128x1408_S2048x1408_S128x2048_1_1_0_0_n_n.lhsIdx i q 1).val = (q ⟨0, by decide⟩).val :=
  dot_S128x1408_S2048x1408_S128x2048_1_1_0_0_n_n.lhsIdx_val_of_single rfl i q
theorem rhs_down_0 (i : S128x2048.Idx) (q : dot_S128x1408_S2048x1408_S128x2048_1_1_0_0_n_n.contr.Idx) :
    (dot_S128x1408_S2048x1408_S128x2048_1_1_0_0_n_n.rhsIdx i q 0).val = (i 1).val := by
  unfold DotDims.rhsIdx
  rw [dif_neg (show ¬(0 : Fin S2048x1408.rank) ∈ dot_S128x1408_S2048x1408_S128x2048_1_1_0_0_n_n.rhsBatch by decide), dif_pos (show (0 : Fin S2048x1408.rank) ∈ dot_S128x1408_S2048x1408_S128x2048_1_1_0_0_n_n.rhsNonContracting by decide)]
  rfl
theorem rhs_down_1 (i : S128x2048.Idx) (q : dot_S128x1408_S2048x1408_S128x2048_1_1_0_0_n_n.contr.Idx) :
    (dot_S128x1408_S2048x1408_S128x2048_1_1_0_0_n_n.rhsIdx i q 1).val = (q ⟨0, by decide⟩).val :=
  dot_S128x1408_S2048x1408_S128x2048_1_1_0_0_n_n.rhsIdx_val_of_single rfl i q

/-! ## A matrix product into the zero accumulator, read at an entry -/

/-- The product of a 128 × 2048 block with a 1408 × 2048 block, both contracted on their second axis, into zero: entry (r, i) is the sum over c of a (r, c) · b (i, c). -/
theorem matmul_proj_apply (a : FVec Ideal S128x2048 .bf16) (b : FVec Ideal S1408x2048 .bf16) (r : Fin 128) (i : Fin 1408) :
    matmul dot_S128x2048_S1408x2048_S128x1408_1_1_0_0_n_n none a b (constant (F := Ideal) S128x1408 .f32 0x00000000#32) (ix2 r i)
      = ∑ c : Fin 2048, a (ix2 r c) * b (ix2 i c) := by
  simp only [matmul]
  rw [Ideal.matmul_constant_zero_apply, ← Equiv.sum_comp (contrEquiv1 dot_S128x2048_S1408x2048_S128x1408_1_1_0_0_n_n 2048 rfl rfl).symm]
  refine Finset.sum_congr rfl fun k _ => ?_
  have hk := contrEquiv1_symm_val dot_S128x2048_S1408x2048_S128x1408_1_1_0_0_n_n 2048 rfl rfl k
  have el : dot_S128x2048_S1408x2048_S128x1408_1_1_0_0_n_n.lhsIdx (ix2 r i) ((contrEquiv1 dot_S128x2048_S1408x2048_S128x1408_1_1_0_0_n_n 2048 rfl rfl).symm k) = ix2 r k := funext fun a => Fin.ext (by
    match a with
    | ⟨0, _⟩ => exact lhs_proj_0 _ _
    | ⟨1, _⟩ => exact (lhs_proj_1 _ _).trans hk)
  have er : dot_S128x2048_S1408x2048_S128x1408_1_1_0_0_n_n.rhsIdx (ix2 r i) ((contrEquiv1 dot_S128x2048_S1408x2048_S128x1408_1_1_0_0_n_n 2048 rfl rfl).symm k) = ix2 i k := funext fun a => Fin.ext (by
    match a with
    | ⟨0, _⟩ => exact rhs_proj_0 _ _
    | ⟨1, _⟩ => exact (rhs_proj_1 _ _).trans hk)
  rw [el, er]

/-- The product of a 128 × 1408 block with a 2048 × 1408 block, both contracted on their second axis, into zero: entry (r, h) is the sum over i of a (r, i) · b (h, i). -/
theorem matmul_down_apply (a : FVec Ideal S128x1408 .bf16) (b : FVec Ideal S2048x1408 .bf16) (r : Fin 128) (i : Fin 2048) :
    matmul dot_S128x1408_S2048x1408_S128x2048_1_1_0_0_n_n none a b (constant (F := Ideal) S128x2048 .f32 0x00000000#32) (ix2 r i)
      = ∑ c : Fin 1408, a (ix2 r c) * b (ix2 i c) := by
  simp only [matmul]
  rw [Ideal.matmul_constant_zero_apply, ← Equiv.sum_comp (contrEquiv1 dot_S128x1408_S2048x1408_S128x2048_1_1_0_0_n_n 1408 rfl rfl).symm]
  refine Finset.sum_congr rfl fun k _ => ?_
  have hk := contrEquiv1_symm_val dot_S128x1408_S2048x1408_S128x2048_1_1_0_0_n_n 1408 rfl rfl k
  have el : dot_S128x1408_S2048x1408_S128x2048_1_1_0_0_n_n.lhsIdx (ix2 r i) ((contrEquiv1 dot_S128x1408_S2048x1408_S128x2048_1_1_0_0_n_n 1408 rfl rfl).symm k) = ix2 r k := funext fun a => Fin.ext (by
    match a with
    | ⟨0, _⟩ => exact lhs_down_0 _ _
    | ⟨1, _⟩ => exact (lhs_down_1 _ _).trans hk)
  have er : dot_S128x1408_S2048x1408_S128x2048_1_1_0_0_n_n.rhsIdx (ix2 r i) ((contrEquiv1 dot_S128x1408_S2048x1408_S128x2048_1_1_0_0_n_n 1408 rfl rfl).symm k) = ix2 i k := funext fun a => Fin.ext (by
    match a with
    | ⟨0, _⟩ => exact rhs_down_0 _ _
    | ⟨1, _⟩ => exact (rhs_down_1 _ _).trans hk)
  rw [el, er]

/-! ## The weight column spread over the 1408 channels -/

/-- A 128 × 1 column broadcast to 128 × 1408 reads, at (r, i), the column's entry r. -/
theorem broadcastTo_col_apply {α : Type} (v : S128x1.Idx → α) (h : S128x1.Broadcasts S128x1408) (r : Fin 128) (i : Fin 1408) :
    broadcastTo S128x1408 v h (ix2 r i) = v (ix2 r (0 : Fin 1)) := by
  refine broadcastTo_apply v h (ix2 r i) (ix2 r (0 : Fin 1)) fun ax => ?_
  match ax with
  | ⟨0, _⟩ => rfl
  | ⟨1, _⟩ => rfl

/-! ## The body's values, entry by entry, over blocks that hold real numbers -/

/-- A projection of row r onto channel i, when row r of the token block holds real numbers: the token block times a
    weight block with its unit axis dropped reads only row r of the token block. -/
theorem proj_apply_row (xrow : Fin 2048 → ℝ) (wr : Fin 1408 → Fin 2048 → ℝ) (r : Fin 128)
    (x0 : Vec Ideal S128x2048 .bf16) (h0 : ∀ c, x0 (ix2 r c) = ((xrow c : ℝ) : EReal))
    (x2 : Vec Ideal S1x1408x2048 .bf16) (h2 : ∀ i c, x2 (ix3 (0 : Fin 1) i c) = ((wr i c : ℝ) : EReal))
    (i : Fin 1408) :
    matmul dot_S128x2048_S1408x2048_S128x1408_1_1_0_0_n_n none (shapeCast S128x2048 x0 Facts₀.shapeCasts_S128x2048_S128x2048 : FVec Ideal S128x2048 .bf16)
        (shapeCast S1408x2048 x2 Facts₀.shapeCasts_S1x1408x2048_S1408x2048 : FVec Ideal S1408x2048 .bf16)
        (constant (F := Ideal) S128x1408 .f32 0x00000000#32) (ix2 r i)
      = ((Cert.Spec.proj xrow wr i : ℝ) : EReal) := by
  rw [matmul_proj_apply, Cert.Spec.proj, Cert.CosAttn.coe_sum]
  refine Finset.sum_congr rfl fun c _ => ?_
  rw [shapeCast_self, shapeCast_1ab_ab_apply, h0, h2, EReal.coe_mul]

/-- The same when every row of the token block holds real numbers. -/
theorem proj_apply (xr : Fin 128 → Fin 2048 → ℝ) (wr : Fin 1408 → Fin 2048 → ℝ)
    (x0 : Vec Ideal S128x2048 .bf16) (h0 : ∀ r c, x0 (ix2 r c) = ((xr r c : ℝ) : EReal))
    (x2 : Vec Ideal S1x1408x2048 .bf16) (h2 : ∀ i c, x2 (ix3 (0 : Fin 1) i c) = ((wr i c : ℝ) : EReal))
    (r : Fin 128) (i : Fin 1408) :
    matmul dot_S128x2048_S1408x2048_S128x1408_1_1_0_0_n_n none (shapeCast S128x2048 x0 Facts₀.shapeCasts_S128x2048_S128x2048 : FVec Ideal S128x2048 .bf16)
        (shapeCast S1408x2048 x2 Facts₀.shapeCasts_S1x1408x2048_S1408x2048 : FVec Ideal S1408x2048 .bf16)
        (constant (F := Ideal) S128x1408 .f32 0x00000000#32) (ix2 r i)
      = ((Cert.Spec.proj (xr r) wr i : ℝ) : EReal) :=
  proj_apply_row (xr r) wr r x0 (h0 r) x2 h2 i

/-- The logistic of a block reads, at an index, the logistic of the entry. -/
theorem logistic_apply {s : Shape} {φ : FTy} (a : FVec Ideal s φ) (i : s.Idx) : logistic a i = Ideal.logistic (a i) := rfl

/-- The body's stored value at (r, h), when row r of the token block and of the weight column, and the three weight
    blocks, hold real numbers: the products at row r read only row r of the token block, and the spread weight at
    (r, i) is the column's entry r. -/
theorem pay_apply_row (xrow : Fin 2048 → ℝ) (wt : ℝ) (gr ur : Fin 1408 → Fin 2048 → ℝ) (dr : Fin 2048 → Fin 1408 → ℝ)
    (r : Fin 128)
    (x0 : Vec Ideal S128x2048 .bf16) (h0 : ∀ c, x0 (ix2 r c) = ((xrow c : ℝ) : EReal))
    (x1 : Vec Ideal S128x1 .f32) (h1 : x1 (ix2 r (0 : Fin 1)) = ((wt : ℝ) : EReal))
    (x2 : Vec Ideal S1x1408x2048 .bf16) (h2 : ∀ i c, x2 (ix3 (0 : Fin 1) i c) = ((gr i c : ℝ) : EReal))
    (x3 : Vec Ideal S1x1408x2048 .bf16) (h3 : ∀ i c, x3 (ix3 (0 : Fin 1) i c) = ((ur i c : ℝ) : EReal))
    (x4 : Vec Ideal S1x2048x1408 .bf16) (h4 : ∀ h i, x4 (ix3 (0 : Fin 1) h i) = ((dr h i : ℝ) : EReal))
    (h : Fin 2048) :
    k0_pay1 (F := Ideal) x0 x2 x3 x4 x1 (ix2 r h) = ((Cert.Spec.rowOut xrow gr ur dr wt h : ℝ) : EReal) := by
  unfold k0_pay1
  rw [truncf_apply, matmul_down_apply, Cert.Spec.rowOut, Cert.CosAttn.coe_sum]
  refine Finset.sum_congr rfl fun i _ => ?_
  rw [truncf_apply, mulf_apply, mulf_apply, mulf_apply, logistic_apply, proj_apply_row xrow gr r x0 h0 x2 h2,
    proj_apply_row xrow ur r x0 h0 x3 h3, broadcastTo_col_apply, shapeCast_self, shapeCast_1ab_ab_apply, h1, h4,
    Ideal.logistic_coe, Cert.Spec.hid]
  simp only [EReal.coe_mul]

/-- The body's stored value at (r, h), over blocks that hold real numbers. -/
theorem pay_apply (xr : Fin 128 → Fin 2048 → ℝ) (wr : Fin 128 → ℝ) (gr ur : Fin 1408 → Fin 2048 → ℝ) (dr : Fin 2048 → Fin 1408 → ℝ)
    (x0 : Vec Ideal S128x2048 .bf16) (h0 : ∀ r c, x0 (ix2 r c) = ((xr r c : ℝ) : EReal))
    (x1 : Vec Ideal S128x1 .f32) (h1 : ∀ r, x1 (ix2 r (0 : Fin 1)) = ((wr r : ℝ) : EReal))
    (x2 : Vec Ideal S1x1408x2048 .bf16) (h2 : ∀ i c, x2 (ix3 (0 : Fin 1) i c) = ((gr i c : ℝ) : EReal))
    (x3 : Vec Ideal S1x1408x2048 .bf16) (h3 : ∀ i c, x3 (ix3 (0 : Fin 1) i c) = ((ur i c : ℝ) : EReal))
    (x4 : Vec Ideal S1x2048x1408 .bf16) (h4 : ∀ h i, x4 (ix3 (0 : Fin 1) h i) = ((dr h i : ℝ) : EReal))
    (r : Fin 128) (h : Fin 2048) :
    k0_pay1 (F := Ideal) x0 x2 x3 x4 x1 (ix2 r h) = ((Cert.Spec.rowOut (xr r) gr ur dr (wr r) h : ℝ) : EReal) := by
  exact pay_apply_row (xr r) (wr r) gr ur dr r x0 (h0 r) x1 (h1 r) x2 h2 x3 h3 x4 h4 h

end Cert.KernelIdeal.BodyValue

end
-- ==== Proof.LibSort2.lean ====
/-
  A two-operand sort along the one axis of rank-1 tables (an argsort: keys with an iota carried). Both
  results read the operands through ONE self-map of the positions, the stable sorting permutation of the
  comparator on the pairs; it is a bijection; and under a comparator that is "signed less-than on the
  first component" the keys come out in nondecreasing signed order.
-/
import Idealize.ShloMosaic.PureOps
import Idealize.ShloMosaic.Lib.SortFacts
import Idealize.ShloMosaic.Lib.StableHlo.Predicate

noncomputable section

namespace Idealize.ShloMosaic.RouteLib

open Idealize.ShloMosaic Idealize.ShloMosaic.StableHlo.Predicate

variable {n : Nat} {α β : Type}

/-- The sorting permutation: position j of the result reads position sortPerm j of the operands. -/
def sortPerm (cmp : α × β → α × β → BitVec 1) (x : (⟨1, ![n]⟩ : Shape).Idx → α) (y : (⟨1, ![n]⟩ : Shape).Idx → β) :
    Fin n → Fin n :=
  sortedFrom (fun k k' => cmp (x (Shape.Idx.ofFin k), y (Shape.Idx.ofFin k)) (x (Shape.Idx.ofFin k'), y (Shape.Idx.ofFin k')) == 1#1)

theorem sort2_fst (cmp : α × β → α × β → BitVec 1) (x : (⟨1, ![n]⟩ : Shape).Idx → α) (y : (⟨1, ![n]⟩ : Shape).Idx → β) (j : Fin n) :
    (Host.sort2 ⟨1, ![n]⟩ 0 cmp x y).1 (Shape.Idx.ofFin j) = x (Shape.Idx.ofFin (sortPerm cmp x y j)) := by
  unfold Host.sort2 sortPerm
  simp

theorem sort2_snd (cmp : α × β → α × β → BitVec 1) (x : (⟨1, ![n]⟩ : Shape).Idx → α) (y : (⟨1, ![n]⟩ : Shape).Idx → β) (j : Fin n) :
    (Host.sort2 ⟨1, ![n]⟩ 0 cmp x y).2 (Shape.Idx.ofFin j) = y (Shape.Idx.ofFin (sortPerm cmp x y j)) := by
  unfold Host.sort2 sortPerm
  simp

theorem sortPerm_bijective (cmp : α × β → α × β → BitVec 1) (x : (⟨1, ![n]⟩ : Shape).Idx → α) (y : (⟨1, ![n]⟩ : Shape).Idx → β) :
    Function.Bijective (sortPerm cmp x y) :=
  ⟨sortedFrom_injective _, sortedFrom_surjective _⟩

/-- The signed less-than comparison yields the bit 1 exactly when the first operand is the smaller signed
    integer. -/
private theorem cmpi_slt_eq_one_iff {w : Nat} (a b : BitVec w) : IntOp.cmpi .slt a b = 1#1 ↔ a.toInt < b.toInt := by
  unfold IntOp.cmpi
  cases h : a.slt b
  · have h' : ¬ a.toInt < b.toInt := by
      intro hlt
      rw [BitVec.slt_iff_toInt_lt.mpr hlt] at h
      exact Bool.noConfusion h
    simp [h']
  · have h' : a.toInt < b.toInt := BitVec.slt_iff_toInt_lt.mp h
    simp [h']

/-- Under "signed less-than on the keys" the sorted keys are nondecreasing as signed integers. -/
theorem sortPerm_sorted_slt (cmp : BitVec 32 × β → BitVec 32 × β → BitVec 1) (hcmp : ∀ l r, cmp l r = IntOp.cmpi .slt l.1 r.1)
    (x : IVec ⟨1, ![n]⟩ 32) (y : (⟨1, ![n]⟩ : Shape).Idx → β) (i j : Fin n) (hij : i < j) :
    (x (Shape.Idx.ofFin (sortPerm cmp x y i))).toInt ≤ (x (Shape.Idx.ofFin (sortPerm cmp x y j))).toInt := by
  -- "position k does not sort strictly before position k'" is "key k' ≤ key k"
  have hB : ∀ k k' : Fin n,
      (cmp (x (Shape.Idx.ofFin k), y (Shape.Idx.ofFin k)) (x (Shape.Idx.ofFin k'), y (Shape.Idx.ofFin k')) == 1#1) = false
        ↔ (x (Shape.Idx.ofFin k')).toInt ≤ (x (Shape.Idx.ofFin k)).toInt := by
    intro k k'
    rw [beq_eq_false_iff_ne, ne_eq, hcmp, cmpi_slt_eq_one_iff, not_lt]
  -- "position k sorts strictly before position k'" is "key k < key k'"
  have hBt : ∀ k k' : Fin n,
      (cmp (x (Shape.Idx.ofFin k), y (Shape.Idx.ofFin k)) (x (Shape.Idx.ofFin k'), y (Shape.Idx.ofFin k')) == 1#1) = true
        ↔ (x (Shape.Idx.ofFin k)).toInt < (x (Shape.Idx.ofFin k')).toInt := by
    intro k k'
    rw [beq_iff_eq, hcmp, cmpi_slt_eq_one_iff]
  -- the stable sort leaves no inversion: asymmetry and negative transitivity of < on the integers
  have h := sortedFrom_noInversion
    (fun k k' => cmp (x (Shape.Idx.ofFin k), y (Shape.Idx.ofFin k)) (x (Shape.Idx.ofFin k'), y (Shape.Idx.ofFin k')) == 1#1)
    (fun k k' => cmp (x (Shape.Idx.ofFin k), y (Shape.Idx.ofFin k)) (x (Shape.Idx.ofFin k'), y (Shape.Idx.ofFin k')) == 1#1)
    (fun a b hab => (hB b a).mpr (le_of_lt ((hBt a b).mp hab)))
    (fun _ _ hab => hab)
    (fun a b c hab hbc => (hB a c).mpr (le_trans ((hB b c).mp hbc) ((hB a b).mp hab)))
    i j hij
  exact (hB _ _).mp h

end Idealize.ShloMosaic.RouteLib

end
-- ==== Proof.SemSort.lean ====
/-
  The flattened routing table and its sort, read at an index.
  The 4096 × 2 table of expert ids, read row-major, is a list of 8192 (token, choice) pairs: pair q belongs to token
  q / 2 and is its choice q % 2. The argsort of the ids reads the list through a bijection sigma of the positions;
  the sorted ids, the sorted token numbers and the sorted routing weights are the flat ones read through sigma; and
  when every id is in {0,…,7} the sorted ids are nondecreasing.
-/
import proofs.«423491_j11716670783494_3_alg».proof.Proof.HostSteps
import proofs.«423491_j11716670783494_3_alg».proof.Proof.LibSort2
import Idealize.ShloMosaic.Lib.ValueIdx
import Idealize.ShloMosaic.Lib.Pipeline.Value
import Idealize.ShloMosaic.Lib.StableHlo.Predicate

set_option maxRecDepth 16384

noncomputable section

namespace Cert.KernelIdeal.SemSort

open Cert.KernelIdeal Cert.KernelIdeal.Gen Cert.KernelIdeal.HostSteps Idealize.ShloMosaic Idealize.ShloMosaic.ValueIdx Idealize.ShloMosaic.RouteLib

variable {F : FTy → Type} [FloatOps F]
variable (m : (ℓ : Loc nD τ sig) → Buf (Elt F) ℓ) (c : Dev nD)

/-- The expert id word of pair q of the flat list. -/
def idw (q : Fin 8192) : BitVec 32 := V m c main_v0 (ix1 q)

/-- Every expert id is one of the eight experts. -/
def InRange : Prop := ∀ q : Fin 8192, 0 ≤ (idw m c q).toInt ∧ (idw m c q).toInt < 8

/-- The expert of pair q (meaningful when the id is in range). -/
def ide (q : Fin 8192) : Fin 8 := ⟨(idw m c q).toInt.toNat % 8, Nat.mod_lt _ (by decide)⟩

/-- The sorting permutation of the argsort: sorted position j holds pair sigma j. -/
def sigma : Fin 8192 → Fin 8192 := sortPerm comparator_i32_i32_d0 (V m c main_v0) (iotaInDim S8192 32 0)

/-- The expert of the pair at sorted position j. -/
def key (j : Fin 8192) : Fin 8 := ide m c (sigma m c j)

/-! ### Words -/

/-- A 32-bit word whose signed value is in {0,…,7} has that value as its unsigned one. -/
theorem word_toNat_of_range (w : BitVec 32) (h0 : 0 ≤ w.toInt) (h8 : w.toInt < 8) : w.toNat = w.toInt.toNat % 8 := by
  have h := BitVec.toInt_eq_toNat_cond w
  have hlt := w.isLt
  split at h <;> omega

/-- The word of a natural below 2^31 is not negative: "signed less than 0" answers 0. -/
theorem cmpi_slt_ofNat_zero (k : Nat) (hk : k < 2 ^ 31) : IntOp.cmpi .slt (BitVec.ofNat 32 k) 0#32 = 0#1 := by
  have h : ¬ (BitVec.ofNat 32 k).toInt < (0#32).toInt := by
    rw [BitVec.toInt_eq_toNat_of_lt (by rw [BitVec.toNat_ofNat]; omega), BitVec.toNat_ofNat]
    show ¬ ((k % 2 ^ 32 : Nat) : Int) < 0
    omega
  have hb : (BitVec.ofNat 32 k).slt 0#32 = false := by
    cases hs : (BitVec.ofNat 32 k).slt 0#32
    · rfl
    · exact absurd (BitVec.slt_iff_toInt_lt.mp hs) h
  show BitVec.ofBool ((BitVec.ofNat 32 k).slt 0#32) = 0#1
  rw [hb]
  rfl

/-- The signed value of the word of a natural below 2^31 is that natural. -/
theorem toInt_ofNat_small (k : Nat) (hk : k < 2 ^ 31) : (BitVec.ofNat 32 k).toInt = (k : Int) := by
  rw [BitVec.toInt_eq_toNat_of_lt (by rw [BitVec.toNat_ofNat]; omega), BitVec.toNat_ofNat]
  have : k % 2 ^ 32 = k := Nat.mod_eq_of_lt (by omega)
  rw [this]

/-! ### Indices -/

/-- The two spellings of the rank-1 index at a coordinate agree. -/
theorem ix1_eq_ofFin {n : Nat} (q : Fin n) : (ix1 q : (⟨1, ![n]⟩ : Shape).Idx) = Shape.Idx.ofFin q := by
  funext d
  match d with
  | ⟨0, _⟩ => exact Fin.ext rfl

/-- The row-major reading of a 4096 × 2 table as a list of 8192: entry q is row q / 2, column q % 2. -/
theorem reshape2_apply {α : Type} (a : S4096x2.Idx → α) (q : Fin 8192) :
    shapeCast S8192 a shapeCasts_S4096x2_S8192 (ix1 q)
      = a (ix2 (⟨q.val / 2, by omega⟩ : Fin 4096) (⟨q.val % 2, by omega⟩ : Fin 2)) := by
  refine shapeCast_apply a _ (ix1 q) _ ?_
  rw [Shape.rowMajor_val_two, Shape.rowMajor_val_one]
  show q.val / 2 * 2 + q.val % 2 = q.val
  omega

/-- A take at wrapped positions: where the position word is the word of k < 8192, the wrap keeps it and the
    clamp keeps it, so the take reads the table at k. -/
theorem take_wrap {α : Type} (t : S8192.Idx → α) (x : IVec S8192 32) (j k : Fin 8192)
    (hk : x (ix1 j) = BitVec.ofNat 32 k.val) :
    Host.gather gather_S8192_S8192x1_S8192_n_0_n_n_0_1_1 t (col8192 (wrapIdx S8192 bcast_S_S8192 8192#32 x)) (ix1 j)
      = t (ix1 k) := by
  have hkl := k.isLt
  have hidx : col8192 (wrapIdx S8192 bcast_S_S8192 8192#32 x) (StableHlo.Predicate.ixP j) = BitVec.ofNat 32 k.val := by
    refine (StableHlo.Predicate.bcast_col1 bcast_S8192_S8192x1_0 _ j).trans ?_
    rw [← ix1_eq_ofFin]
    show Scalar.select (IntOp.cmpi .slt (x (ix1 j)) 0#32) (IntOp.addi (x (ix1 j)) 8192#32) (x (ix1 j)) = _
    rw [hk, cmpi_slt_ofNat_zero k.val (by omega), select_zero]
  rw [ix1_eq_ofFin, StableHlo.Predicate.gather_take _ rfl rfl rfl rfl t _ j (by decide), ix1_eq_ofFin k]
  congr 2
  apply Fin.ext
  show min _ (8192 - 1) = k.val
  rw [hidx, toInt_ofNat_small k.val (by omega)]
  omega

/-! ### The statements -/

theorem ide_val (hr : InRange m c) (q : Fin 8192) : (idw m c q).toInt = ((ide m c q).val : Int) := by
  obtain ⟨h0, h8⟩ := hr q
  show (idw m c q).toInt = (((idw m c q).toInt.toNat % 8 : Nat) : Int)
  omega

theorem idw_toNat (hr : InRange m c) (q : Fin 8192) : (idw m c q).toNat = (ide m c q).val := by
  obtain ⟨h0, h8⟩ := hr q
  exact word_toNat_of_range _ h0 h8

theorem v0_apply (q : Fin 8192) :
    V m c main_v0 (ix1 q) = V m c main_arg1 (ix2 (⟨q.val / 2, by omega⟩ : Fin 4096) (⟨q.val % 2, by omega⟩ : Fin 2)) := by
  rw [step_v0 m c]
  exact reshape2_apply _ q

theorem v1_apply (q : Fin 8192) :
    V m c main_v1 (ix1 q) = V m c main_arg2 (ix2 (⟨q.val / 2, by omega⟩ : Fin 4096) (⟨q.val % 2, by omega⟩ : Fin 2)) := by
  rw [step_v1 m c]
  exact reshape2_apply _ q

theorem v5_apply (q : Fin 8192) : V m c main_v5 (ix1 q) = BitVec.ofNat 32 (q.val / 2) := by
  rw [step_v5 m c, reshape2_apply]
  exact StableHlo.Predicate.bcast_rows _ _ _ _ _

theorem sigma_bijective : Function.Bijective (sigma m c) :=
  sortPerm_bijective _ _ _

theorem v6_apply (j : Fin 8192) : V m c main_v6 (ix1 j) = BitVec.ofNat 32 (sigma m c j).val := by
  rw [step_v6 m c, ix1_eq_ofFin, sort2_snd]
  exact StableHlo.Predicate.iota_apply _

theorem v13_apply (j : Fin 8192) : V m c main_v13 (ix1 j) = V m c main_v0 (ix1 (sigma m c j)) := by
  rw [step_v13 m c]
  exact take_wrap _ _ j (sigma m c j) (v6_apply m c j)

theorem v20_apply (j : Fin 8192) : V m c main_v20 (ix1 j) = V m c main_v5 (ix1 (sigma m c j)) := by
  rw [step_v20 m c]
  exact take_wrap _ _ j (sigma m c j) (v6_apply m c j)

theorem v27_apply (j : Fin 8192) : V m c main_v27 (ix1 j) = V m c main_v1 (ix1 (sigma m c j)) := by
  rw [step_v27 m c]
  exact take_wrap _ _ j (sigma m c j) (v6_apply m c j)

theorem key_mono (hr : InRange m c) : Monotone (key m c) := by
  intro i j hij
  rcases Nat.lt_or_ge i.val j.val with hlt | hge
  · have h := sortPerm_sorted_slt comparator_i32_i32_d0 (fun _ _ => rfl) (V m c main_v0) (iotaInDim S8192 32 0) i j
      (Fin.lt_def.mpr hlt)
    rw [← ix1_eq_ofFin, ← ix1_eq_ofFin] at h
    have h' : (idw m c (sigma m c i)).toInt ≤ (idw m c (sigma m c j)).toInt := h
    rw [ide_val m c hr, ide_val m c hr] at h'
    show ide m c (sigma m c i) ≤ ide m c (sigma m c j)
    exact Fin.le_def.mpr (by exact_mod_cast h')
  · have hji : j ≤ i := Fin.le_def.mpr hge
    have e : i = j := le_antisymm hij hji
    rw [e]

end Cert.KernelIdeal.SemSort

end
-- ==== Proof.LibScatter1.lean ====
/-
  A rank-1 scatter read at an index. The operand is a table of R entries, the scatter indices an
  [N × 1] column of start positions, the updates a vector of N entries, one window element per update
  (no window axes; the one operand axis inserted and named by the index map; the index vector on axis 1).
  Update n lands on entry (idx n) read signed, and is dropped when that is outside [0, R).
  Two readings: with the body "take the update" and pairwise distinct in-range targets, entry g n ends at
  update n; with the body "add" from a zero table of one-updates, entry e ends at the number of updates
  whose target is e.
-/
import Idealize.ShloMosaic.PureOps
import Idealize.ShloMosaic.Lib.StableHlo.Predicate

noncomputable section

namespace Idealize.ShloMosaic.RouteLib

open Idealize.ShloMosaic Idealize.ShloMosaic.StableHlo.Predicate

/-! ## Left folds of "replace one entry" steps -/

section Folds

variable {κ ι β : Type} {dι : DecidableEq ι}

/-- A fold of steps each replacing the entry at its own target leaves an entry no step targets as it was. -/
theorem foldl_untouched (T : κ → ι) (nv : (ι → β) → κ → β) (l : List κ) (r : ι → β) (i : ι)
    (h : ∀ k ∈ l, T k ≠ i) :
    l.foldl (fun r k => fun i' => if i' = T k then nv r k else r i') r i = r i := by
  induction l generalizing r with
  | nil => rfl
  | cons a l ih =>
    rw [List.foldl_cons, ih _ (fun k hk => h k (List.mem_cons_of_mem _ hk))]
    exact if_neg (fun e => h a List.mem_cons_self e.symm)

/-- Steps that write their own value at pairwise distinct targets: after the fold over a list without repeats,
    the target of a member holds that member's value. -/
theorem foldl_set_hit (T : κ → ι) (v : κ → β) (hT : Function.Injective T) (l : List κ) (hnd : l.Nodup)
    (r : ι → β) (k : κ) (hk : k ∈ l) :
    l.foldl (fun r k => fun i' => if i' = T k then v k else r i') r (T k) = v k := by
  induction l generalizing r with
  | nil => exact absurd hk List.not_mem_nil
  | cons a l ih =>
    rw [List.foldl_cons]
    rw [List.nodup_cons] at hnd
    rcases List.mem_cons.1 hk with hka | hk'
    · subst hka
      rw [foldl_untouched T (fun _ k => v k) l _ (T k) (fun b hb e => hnd.1 (hT e ▸ hb))]
      exact if_pos rfl
    · exact ih hnd.2 _ hk'

/-- Steps that add one at their target: after the fold, an entry has grown by the number of members whose target it is. -/
theorem foldl_add_count (T : κ → ι) (l : List κ) (r : ι → BitVec 32) (i : ι) :
    l.foldl (fun r k => fun i' => if i' = T k then r (T k) + 1#32 else r i') r i
      = r i + BitVec.ofNat 32 (l.countP fun k => decide (T k = i)) := by
  induction l generalizing r with
  | nil => simp
  | cons a l ih =>
    rw [List.foldl_cons, ih, List.countP_cons]
    by_cases h : T a = i
    · subst h
      rw [if_pos rfl, if_pos (by simp), BitVec.ofNat_add, BitVec.add_assoc, BitVec.add_comm (BitVec.ofNat 32 _) (BitVec.ofNat 32 1)]
    · rw [if_neg (fun e => h e.symm), if_neg (by simpa using h), Nat.add_zero]

/-- The members of `List.finRange M` with a property number the set of them. -/
theorem countP_finRange (M : Nat) (p : Fin M → Prop) [DecidablePred p] :
    (List.finRange M).countP (fun k => decide (p k)) = (Finset.univ.filter p).card := by
  simp [Finset.card, Fin.univ_def, List.countP_eq_length_filter]

end Folds

/-! ## The dimension record read at the literal axes -/

section Dims

variable {R N w : Nat} (d : ScatterDims ⟨1, ![R]⟩ ⟨2, ![N, 1]⟩ ⟨1, ![N]⟩)

/-- The start index of update j is read at row (j 0) of the index column. -/
theorem siIdx_eq (hsd : d.scatterDimsToOperandDims = [0]) (hivd : d.indexVectorDim = 1)
    (j : (⟨1, ![N]⟩ : Shape).Idx) (c : Fin d.scatterDimsToOperandDims.length) : d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show c.val = 0
    have hlen : d.scatterDimsToOperandDims.length = 1 := by rw [hsd]; rfl
    have := c.isLt
    omega

/-- The window start on the one operand axis is the start index, read signed. -/
theorem start_eq (hsd : d.scatterDimsToOperandDims = [0]) (hivd : d.indexVectorDim = 1)
    (j : (⟨1, ![N]⟩ : Shape).Idx) (idx : IVec ⟨2, ![N, 1]⟩ w) (a : Fin 1) :
    d.start j idx a = (idx (ixP (j 0))).toInt := by
  have ha : a = 0 := Subsingleton.elim _ _
  subst ha
  have hm : (0 : Fin 1) ∈ d.scatterDimsToOperandDims := by rw [hsd]; exact List.mem_singleton.mpr rfl
  unfold ScatterDims.start
  rw [dif_pos hm, siIdx_eq d hsd hivd]
  rfl

/-- The one operand axis is inserted: the window coordinate on it is 0. -/
theorem window_eq (hiw : d.insertedWindowDims = [0]) (j : (⟨1, ![N]⟩ : Shape).Idx) (a : Fin 1) :
    d.window j a = 0 := by
  have ha : a = 0 := Subsingleton.elim _ _
  subst ha
  have hk : (0 : Fin 1) ∉ d.sKept := by
    intro h
    have h2 := (List.mem_filter.1 h).2
    rw [hiw] at h2
    simp at h2
  unfold ScatterDims.window
  rw [dif_neg hk]

/-- An update whose start index, read signed, is the position t of the table lands on entry t. -/
theorem resultIdx_eq (hiw : d.insertedWindowDims = [0])
    (hsd : d.scatterDimsToOperandDims = [0]) (hivd : d.indexVectorDim = 1)
    (j : (⟨1, ![N]⟩ : Shape).Idx) (idx : IVec ⟨2, ![N, 1]⟩ w) (t : Fin R)
    (ht : (idx (ixP (j 0))).toInt = (t.val : Int)) :
    d.resultIdx? j idx = some (Shape.Idx.ofFin t) := by
  have hsz : ∀ a : Fin 1, (⟨1, ![R]⟩ : Shape).size a = R := fun a => by
    have ha : a = 0 := Subsingleton.elim _ _
    subst ha; rfl
  have hval : ∀ a : Fin 1, d.start j idx a + (d.window j a : Int) = (t.val : Int) := fun a => by
    rw [start_eq d hsd hivd, window_eq d hiw, ht]; simp
  have h : ∀ a, 0 ≤ d.start j idx a + d.window j a ∧ d.start j idx a + d.window j a < (⟨1, ![R]⟩ : Shape).size a := by
    intro a
    rw [hval a, hsz a]
    have := t.isLt
    omega
  unfold ScatterDims.resultIdx?
  rw [dif_pos h]
  congr 1
  funext a
  apply Fin.ext
  show (d.start j idx a + d.window j a).toNat = t.val
  rw [hval a]
  simp

end Dims

/-! ## Rank-1 indices and where the updates land -/

section Land

variable {R N w : Nat}

/-- A rank-1 index is its one coordinate. -/
def idxEquiv (N : Nat) : Fin N ≃ (⟨1, ![N]⟩ : Shape).Idx where
  toFun := Shape.Idx.ofFin
  invFun := fun j => j (0 : Fin 1)
  left_inv := fun k => Shape.Idx.ofFin_zero k
  right_inv := fun j => (Shape.Idx.eq_ofFin j).symm

theorem ofFin_injective {n : Nat} : Function.Injective (Shape.Idx.ofFin (n := n)) := fun a b h => by
  have h0 := congrFun h (0 : Fin 1)
  rwa [Shape.Idx.ofFin_zero, Shape.Idx.ofFin_zero] at h0

/-- Every update lands: the update at row-major position k goes to entry g of its coordinate. -/
theorem resultIdx_rowMajor (d : ScatterDims ⟨1, ![R]⟩ ⟨2, ![N, 1]⟩ ⟨1, ![N]⟩)
    (hiw : d.insertedWindowDims = [0])
    (hsd : d.scatterDimsToOperandDims = [0]) (hivd : d.indexVectorDim = 1) (idx : IVec ⟨2, ![N, 1]⟩ w)
    (g : Fin N → Fin R) (hg : ∀ n, (idx (ixP n)).toInt = ((g n).val : Int)) (k : Fin (⟨1, ![N]⟩ : Shape).numel) :
    d.resultIdx? ((⟨1, ![N]⟩ : Shape).rowMajor.symm k) idx
      = some (Shape.Idx.ofFin (g (((⟨1, ![N]⟩ : Shape).rowMajor.symm k) (0 : Fin 1)))) :=
  resultIdx_eq d hiw hsd hivd _ idx _ (hg _)

end Land

/-! ## The two readings -/

variable {α : Type} {R N w : Nat}

/-- With the body "take the update" and targets g, in range and pairwise distinct: entry g n holds update n. -/
theorem scatter_set_hit (d : ScatterDims ⟨1, ![R]⟩ ⟨2, ![N, 1]⟩ ⟨1, ![N]⟩)
    (huw : d.updateWindowDims = []) (hiw : d.insertedWindowDims = [0])
    (hsd : d.scatterDimsToOperandDims = [0]) (hivd : d.indexVectorDim = 1)
    (x : (⟨1, ![R]⟩ : Shape).Idx → α) (idx : IVec ⟨2, ![N, 1]⟩ w) (upd : (⟨1, ![N]⟩ : Shape).Idx → α)
    (g : Fin N → Fin R) (hg : ∀ n, (idx (ixP n)).toInt = ((g n).val : Int)) (hinj : Function.Injective g) (n : Fin N) :
    Host.scatter d (fun _ b => b) x idx upd (Shape.Idx.ofFin (g n)) = upd (Shape.Idx.ofFin n) := by
  unfold Host.scatter
  have hTinj : Function.Injective (fun k : Fin (⟨1, ![N]⟩ : Shape).numel =>
      (Shape.Idx.ofFin (g (((⟨1, ![N]⟩ : Shape).rowMajor.symm k) (0 : Fin 1))) : (⟨1, ![R]⟩ : Shape).Idx)) := fun a b h => by
    have h1 := hinj (ofFin_injective h)
    exact (Equiv.injective _) ((Shape.Idx.eq_ofFin _).trans ((congrArg Shape.Idx.ofFin h1).trans (Shape.Idx.eq_ofFin _).symm))
  refine (congrFun (List.foldl_ext _ (fun r k => fun i' =>
      if i' = Shape.Idx.ofFin (g (((⟨1, ![N]⟩ : Shape).rowMajor.symm k) (0 : Fin 1))) then upd ((⟨1, ![N]⟩ : Shape).rowMajor.symm k) else r i') x ?_) _).trans ?_
  · intro r k _
    dsimp only
    rw [resultIdx_rowMajor d hiw hsd hivd idx g hg k]
  · have hk0 : (⟨1, ![N]⟩ : Shape).rowMajor.symm ((⟨1, ![N]⟩ : Shape).rowMajor (Shape.Idx.ofFin n)) = Shape.Idx.ofFin n :=
      Equiv.symm_apply_apply _ _
    have e1 : (Shape.Idx.ofFin (g n) : (⟨1, ![R]⟩ : Shape).Idx)
        = Shape.Idx.ofFin (g (((⟨1, ![N]⟩ : Shape).rowMajor.symm ((⟨1, ![N]⟩ : Shape).rowMajor (Shape.Idx.ofFin n))) (0 : Fin 1))) := by
      rw [hk0, Shape.Idx.ofFin_zero]
    have e2 : upd (Shape.Idx.ofFin n)
        = upd ((⟨1, ![N]⟩ : Shape).rowMajor.symm ((⟨1, ![N]⟩ : Shape).rowMajor (Shape.Idx.ofFin n))) := by
      rw [hk0]
    rw [e1, e2]
    exact foldl_set_hit _ (fun k => upd ((⟨1, ![N]⟩ : Shape).rowMajor.symm k)) hTinj (List.finRange _) (List.nodup_finRange _) x
      ((⟨1, ![N]⟩ : Shape).rowMajor (Shape.Idx.ofFin n)) (List.mem_finRange _)

/-- With the body "add", a zero table and updates all one: entry e counts the updates whose target is e. -/
theorem scatter_addi_count (d : ScatterDims ⟨1, ![R]⟩ ⟨2, ![N, 1]⟩ ⟨1, ![N]⟩)
    (huw : d.updateWindowDims = []) (hiw : d.insertedWindowDims = [0])
    (hsd : d.scatterDimsToOperandDims = [0]) (hivd : d.indexVectorDim = 1)
    (x : IVec ⟨1, ![R]⟩ 32) (hx : ∀ i, x i = 0#32) (idx : IVec ⟨2, ![N, 1]⟩ w)
    (upd : IVec ⟨1, ![N]⟩ 32) (hu : ∀ n, upd n = 1#32)
    (g : Fin N → Fin R) (hg : ∀ n, (idx (ixP n)).toInt = ((g n).val : Int)) (hN : N < 2 ^ 32) (e : Fin R) :
    (Host.scatter d IntOp.addi x idx upd (Shape.Idx.ofFin e)).toNat = (Finset.univ.filter fun n : Fin N => g n = e).card := by
  unfold Host.scatter
  refine (congrArg BitVec.toNat (congrFun (List.foldl_ext _ (fun r k => fun i' =>
      if i' = Shape.Idx.ofFin (g (((⟨1, ![N]⟩ : Shape).rowMajor.symm k) (0 : Fin 1)))
      then r (Shape.Idx.ofFin (g (((⟨1, ![N]⟩ : Shape).rowMajor.symm k) (0 : Fin 1)))) + 1#32 else r i') x ?_) _)).trans ?_
  · intro r k _
    rw [resultIdx_rowMajor d hiw hsd hivd idx g hg k, hu]
    rfl
  · rw [foldl_add_count (fun k : Fin (⟨1, ![N]⟩ : Shape).numel =>
        (Shape.Idx.ofFin (g (((⟨1, ![N]⟩ : Shape).rowMajor.symm k) (0 : Fin 1))) : (⟨1, ![R]⟩ : Shape).Idx)),
      hx, BitVec.zero_add, BitVec.toNat_ofNat, countP_finRange]
    have hcard : (Finset.univ.filter fun k : Fin (⟨1, ![N]⟩ : Shape).numel =>
          (Shape.Idx.ofFin (g (((⟨1, ![N]⟩ : Shape).rowMajor.symm k) (0 : Fin 1))) : (⟨1, ![R]⟩ : Shape).Idx) = Shape.Idx.ofFin e).card
        = (Finset.univ.filter fun n : Fin N => g n = e).card :=
      Finset.card_equiv ((⟨1, ![N]⟩ : Shape).rowMajor.symm.trans (idxEquiv N).symm) (fun k => by
        simp only [Finset.mem_filter, Finset.mem_univ, true_and]
        constructor
        · intro h; exact ofFin_injective h
        · intro h; exact congrArg Shape.Idx.ofFin h)
    rw [hcard]
    exact Nat.mod_eq_of_lt (lt_of_le_of_lt (Finset.card_le_univ _) (by simpa using hN))

end Idealize.ShloMosaic.RouteLib

end
-- ==== Proof.LibCumsum8.lean ====
/-
  A running sum of eight words. A window of eight, stride one, padded seven low and none high, reduced by
  integer addition from zero, is the inclusive prefix sum: entry e is x 0 + … + x e. Stated on naturals
  under the bound that the whole sum fits a word.
-/
import Idealize.ShloMosaic.PureOps
import Idealize.ShloMosaic.Lib.StableHlo.Predicate
import Mathlib.Algebra.Order.BigOperators.Group.Finset

noncomputable section

namespace Idealize.ShloMosaic.RouteLib

open Idealize.ShloMosaic Idealize.ShloMosaic.StableHlo.Predicate

/-- A rank-one shape of eight has eight elements. -/
theorem cumsum8_numel : (⟨1, ![8]⟩ : Shape).numel = 8 := by decide

/-- On a rank-one shape the multi-index at a row-major position has that position as its coordinate. -/
theorem cumsum8_rowMajor_symm (n : Fin (⟨1, ![8]⟩ : Shape).numel) (a : Fin 1) :
    (((⟨1, ![8]⟩ : Shape).rowMajor.symm n) a).val = n.val := by
  have ha : a = 0 := Subsingleton.elim _ _
  subst ha
  simp only [Shape.rowMajor, Shape.rowMajorPi, Shape.unrankPi, Shape.prodPi, Equiv.symm, Nat.div_one]
  rfl

/-- A fold over the positions below m that reads only their values is the fold over the naturals below m. -/
theorem cumsum8_foldl_finRange {α : Type} (G : α → Nat → α) (v : α) (m : Nat) :
    (List.finRange m).foldl (fun r n => G r n.val) v = (List.range m).foldl G v := by
  induction m with
  | zero => simp
  | succ m ih =>
    rw [List.finRange_succ_last, List.range_succ, List.foldl_append, List.foldl_append, List.foldl_map]
    simp only [Fin.coe_castSucc, List.foldl_cons, List.foldl_nil, Fin.val_last]
    rw [ih]

/-- Two folds whose steps agree are equal. -/
theorem cumsum8_foldl_congr {α β : Type} (f g : α → β → α) (l : List β) (v : α) (hfg : ∀ r n, f r n = g r n) :
    l.foldl f v = l.foldl g v := by
  have : f = g := funext fun r => funext fun n => hfg r n
  rw [this]

/-- A fold of word additions, read as a natural: the sum of the terms modulo the word size. -/
theorem cumsum8_foldl_add_toNat (t : Nat → BitVec 32) (m : Nat) (v : BitVec 32) :
    ((List.range m).foldl (fun r k => r + t k) v).toNat
      = (v.toNat + ∑ k ∈ Finset.range m, (t k).toNat) % 2 ^ 32 := by
  induction m with
  | zero => simp [Nat.mod_eq_of_lt v.isLt]
  | succ m ih =>
    rw [List.range_succ, List.foldl_append, List.foldl_cons, List.foldl_nil, BitVec.toNat_add, ih,
      Finset.sum_range_succ]
    omega

/-- The word at position i of the operand, zero past its end. -/
def cumsum8_padded (x : IVec ⟨1, ![8]⟩ 32) (i : Nat) : BitVec 32 :=
  if hi : i < 8 then x (Shape.Idx.ofFin ⟨i, hi⟩) else 0#32

/-- What window position k adds to entry e: the operand's word at e + k - 7, zero in the low padding. -/
def cumsum8_term (x : IVec ⟨1, ![8]⟩ 32) (e k : Nat) : BitVec 32 :=
  if 7 ≤ e + k then cumsum8_padded x (e + k - 7) else 0#32

/-- The window's read at a padded position q, on a rank-one operand of eight padded seven low. -/
theorem cumsum8_read (x : IVec ⟨1, ![8]⟩ 32) (p : Fin 1 → Nat) (q : Nat) (hp : ∀ a, p a = q) :
    (if hin : ∀ a : Fin 1, (![7] : Fin 1 → Nat) a ≤ p a ∧ p a - (![7] : Fin 1 → Nat) a < (⟨1, ![8]⟩ : Shape).size a
      then x (fun a => ⟨p a - (![7] : Fin 1 → Nat) a, (hin a).2⟩) else 0#32)
      = if 7 ≤ q then cumsum8_padded x (q - 7) else 0#32 := by
  have hpq : p = fun _ => q := funext hp
  subst hpq
  by_cases h7 : 7 ≤ q
  · by_cases h8 : q - 7 < 8
    · have hin : ∀ a : Fin 1, (![7] : Fin 1 → Nat) a ≤ q ∧ q - (![7] : Fin 1 → Nat) a < (⟨1, ![8]⟩ : Shape).size a := by
        intro a
        have ha : a = 0 := Subsingleton.elim _ _
        subst ha
        exact ⟨h7, h8⟩
      rw [dif_pos hin, if_pos h7, cumsum8_padded, dif_pos h8]
      congr 1
      funext a
      have ha : a = 0 := Subsingleton.elim _ _
      subst ha
      exact Fin.ext rfl
    · have hin : ¬ ∀ a : Fin 1, (![7] : Fin 1 → Nat) a ≤ q ∧ q - (![7] : Fin 1 → Nat) a < (⟨1, ![8]⟩ : Shape).size a :=
        fun hh => h8 (hh 0).2
      rw [dif_neg hin, if_pos h7, cumsum8_padded, dif_neg h8]
  · have hin : ¬ ∀ a : Fin 1, (![7] : Fin 1 → Nat) a ≤ q ∧ q - (![7] : Fin 1 → Nat) a < (⟨1, ![8]⟩ : Shape).size a :=
      fun hh => h7 (hh 0).1
    rw [dif_neg hin, if_neg h7]

/-- The padded window sum at entry e as a fold over the eight window positions. -/
theorem cumsum8_eq_fold (x : IVec ⟨1, ![8]⟩ 32) (init : (⟨0, ![]⟩ : Shape).Idx → BitVec 32) (hinit : ∀ i, init i = 0#32)
    (h : (⟨1, ![8]⟩ : Shape).ReduceWindows ![8] ![1] ![7] ![0] ⟨1, ![8]⟩) (hu : 0 < (⟨0, ![]⟩ : Shape).numel) (e : Fin 8) :
    Host.reduceWindow IntOp.addi ![8] ![1] ![7] ![0] x init h hu (Shape.Idx.ofFin e)
      = (List.range 8).foldl (fun r k => r + cumsum8_term x e.val k) 0#32 := by
  unfold Host.reduceWindow
  simp only [hinit]
  rw [show List.range 8 = List.range (⟨1, ![8]⟩ : Shape).numel from by rw [cumsum8_numel],
    ← cumsum8_foldl_finRange (fun r k => r + cumsum8_term x e.val k) 0#32 (⟨1, ![8]⟩ : Shape).numel]
  apply cumsum8_foldl_congr
  intro r n
  show r + _ = r + _
  congr 1
  apply cumsum8_read x _ (e.val + n.val)
  intro a
  have ha : a = 0 := Subsingleton.elim _ _
  subst ha
  show e.val * 1 + _ = _
  rw [cumsum8_rowMajor_symm, Nat.mul_one]

/-- Over naturals: the eight window terms of entry e are the terms at positions up to e. -/
theorem cumsum8_window_sum_nat (Y : Nat → Nat) (e : Nat) (he : e < 8) :
    (∑ k ∈ Finset.range 8, if 7 ≤ e + k then Y (e + k - 7) else 0)
      = ∑ i ∈ Finset.range 8, if i ≤ e then Y i else 0 := by
  have hcases : e = 0 ∨ e = 1 ∨ e = 2 ∨ e = 3 ∨ e = 4 ∨ e = 5 ∨ e = 6 ∨ e = 7 := by omega
  rcases hcases with rfl | rfl | rfl | rfl | rfl | rfl | rfl | rfl <;> simp [Finset.sum_range_succ]

/-- A window term read as a natural. -/
theorem cumsum8_term_toNat (x : IVec ⟨1, ![8]⟩ 32) (e k : Nat) :
    (cumsum8_term x e k).toNat = if 7 ≤ e + k then (cumsum8_padded x (e + k - 7)).toNat else 0 := by
  unfold cumsum8_term
  split
  · rfl
  · rfl

/-- Inside the operand the padded read is the operand's word. -/
theorem cumsum8_padded_val (x : IVec ⟨1, ![8]⟩ 32) (i : Fin 8) : cumsum8_padded x i.val = x (Shape.Idx.ofFin i) := by
  unfold cumsum8_padded
  rw [dif_pos i.isLt]

/-- Entry e of the padded window sum is the sum of the entries up to and including e. -/
theorem cumsum8_toNat (x : IVec ⟨1, ![8]⟩ 32) (init : (⟨0, ![]⟩ : Shape).Idx → BitVec 32) (hinit : ∀ i, init i = 0#32)
    (h : (⟨1, ![8]⟩ : Shape).ReduceWindows ![8] ![1] ![7] ![0] ⟨1, ![8]⟩) (hu : 0 < (⟨0, ![]⟩ : Shape).numel)
    (hb : (∑ e : Fin 8, (x (Shape.Idx.ofFin e)).toNat) < 2 ^ 32) (e : Fin 8) :
    (Host.reduceWindow IntOp.addi ![8] ![1] ![7] ![0] x init h hu (Shape.Idx.ofFin e)).toNat
      = ∑ e' : Fin 8, if e'.val ≤ e.val then (x (Shape.Idx.ofFin e')).toNat else 0 := by
  have hR : (∑ e' : Fin 8, if e'.val ≤ e.val then (x (Shape.Idx.ofFin e')).toNat else 0)
      = ∑ i ∈ Finset.range 8, if i ≤ e.val then (cumsum8_padded x i).toNat else 0 := by
    rw [← Fin.sum_univ_eq_sum_range (fun i => if i ≤ e.val then (cumsum8_padded x i).toNat else 0) 8]
    apply Finset.sum_congr rfl
    intro e' _
    rw [cumsum8_padded_val]
  have hle : (∑ e' : Fin 8, if e'.val ≤ e.val then (x (Shape.Idx.ofFin e')).toNat else 0)
      ≤ ∑ e' : Fin 8, (x (Shape.Idx.ofFin e')).toNat := by
    apply Finset.sum_le_sum
    intro e' _
    split
    · exact Nat.le_refl _
    · exact Nat.zero_le _
  have h0 : (0#32).toNat = 0 := rfl
  rw [cumsum8_eq_fold x init hinit h hu e, cumsum8_foldl_add_toNat, h0, Nat.zero_add]
  simp only [cumsum8_term_toNat]
  rw [cumsum8_window_sum_nat (fun i => (cumsum8_padded x i).toNat) e.val e.isLt, ← hR]
  exact Nat.mod_eq_of_lt (Nat.lt_of_le_of_lt hle hb)

end Idealize.ShloMosaic.RouteLib

end
-- ==== Proof.RouteMath.lean ====
/-
  The counting behind a sort-and-pad routing table, on naturals.
  n items carry a key in {0,…,7}; listed in nondecreasing key order, item j has key (key j).
  cnt e is the number of items of key e; start e the number of items of smaller key, so the items of key e
  occupy the positions [start e, start e + cnt e) of the sorted list. Each group is padded up to a multiple
  of 128 rows (psz), the padded groups laid end to end from off e, and item j is sent to row
  pos j = off (key j) + (j - start (key j)).
  Facts: the rank j - start (key j) is below cnt (key j); pos is injective, stays inside its group's padded
  range and below n + 1017; every off e is a multiple of 128; and the 128-row tile holding pos j lies in the
  group of key j: exactly (key j) + 1 of the offsets are at or below the tile's first row.
-/
import Mathlib.Data.Fintype.Card
import Mathlib.Data.Fintype.BigOperators
import Mathlib.Data.Fintype.Fin
import Mathlib.Algebra.BigOperators.Fin
import Mathlib.Algebra.Order.BigOperators.Group.Finset
import Mathlib.Order.Monotone.Basic
import Mathlib.Tactic.Ring
import Mathlib.Tactic.Linarith

namespace Cert.Route

variable {n : Nat} (key : Fin n → Fin 8)

/-- How many items carry key e. -/
def cnt (e : Fin 8) : Nat := (Finset.univ.filter fun j : Fin n => key j = e).card
/-- How many items carry a key smaller than e. -/
def start (e : Fin 8) : Nat := ∑ e' : Fin 8, if e'.val < e.val then cnt key e' else 0
/-- Group e's size rounded up to a multiple of 128. -/
def psz (e : Fin 8) : Nat := (cnt key e + 127) / 128 * 128
/-- Where group e's padded range begins. -/
def off (e : Fin 8) : Nat := ∑ e' : Fin 8, if e'.val < e.val then psz key e' else 0
/-- The padded row of the j-th item of the sorted list. -/
def pos (j : Fin n) : Nat := off key (key j) + (j.val - start key (key j))

/-! ### Prefix sums of a function on the eight keys -/

/-- A prefix sum grows with the bound. -/
theorem pre_mono (f : Fin 8 → Nat) {e e' : Fin 8} (h : e.val ≤ e'.val) :
    (∑ x : Fin 8, if x.val < e.val then f x else 0) ≤ ∑ x : Fin 8, if x.val < e'.val then f x else 0 := by
  apply Finset.sum_le_sum
  intro x _
  by_cases h1 : x.val < e.val
  · have h2 : x.val < e'.val := by omega
    rw [if_pos h1, if_pos h2]
  · rw [if_neg h1]
    exact Nat.zero_le _

/-- Adding the term of index e to the prefix sum below e gives the prefix sum up to and including e. -/
theorem pre_add_eq (f : Fin 8 → Nat) (e : Fin 8) :
    (∑ x : Fin 8, if x.val < e.val then f x else 0) + f e
      = ∑ x : Fin 8, if x.val ≤ e.val then f x else 0 := by
  have h1 : (∑ x : Fin 8, if x = e then f x else 0) = f e := Fintype.sum_ite_eq' e f
  calc (∑ x : Fin 8, if x.val < e.val then f x else 0) + f e
      = (∑ x : Fin 8, if x.val < e.val then f x else 0) + ∑ x : Fin 8, if x = e then f x else 0 := by
        rw [h1]
    _ = ∑ x : Fin 8, ((if x.val < e.val then f x else 0) + if x = e then f x else 0) :=
        Finset.sum_add_distrib.symm
    _ = ∑ x : Fin 8, if x.val ≤ e.val then f x else 0 := by
        apply Finset.sum_congr rfl
        intro x _
        by_cases hx : x = e
        · have hv : x.val = e.val := congrArg Fin.val hx
          have h2 : ¬ x.val < e.val := by omega
          have h3 : x.val ≤ e.val := by omega
          rw [if_neg h2, if_pos hx, if_pos h3, Nat.zero_add]
        · have hne : x.val ≠ e.val := fun hv => hx (Fin.ext hv)
          rw [if_neg hx, Nat.add_zero]
          by_cases h2 : x.val < e.val
          · have h3 : x.val ≤ e.val := by omega
            rw [if_pos h2, if_pos h3]
          · have h3 : ¬ x.val ≤ e.val := by omega
            rw [if_neg h2, if_neg h3]

/-- The prefix sum below e plus the term of e stays below the prefix sum of any later bound. -/
theorem pre_add_le (f : Fin 8 → Nat) {e e' : Fin 8} (h : e.val < e'.val) :
    (∑ x : Fin 8, if x.val < e.val then f x else 0) + f e
      ≤ ∑ x : Fin 8, if x.val < e'.val then f x else 0 := by
  rw [pre_add_eq]
  apply Finset.sum_le_sum
  intro x _
  by_cases h1 : x.val ≤ e.val
  · have h2 : x.val < e'.val := by omega
    rw [if_pos h1, if_pos h2]
  · rw [if_neg h1]
    exact Nat.zero_le _

/-- … and below the whole sum. -/
theorem pre_add_le_sum (f : Fin 8 → Nat) (e : Fin 8) :
    (∑ x : Fin 8, if x.val < e.val then f x else 0) + f e ≤ ∑ x : Fin 8, f x := by
  rw [pre_add_eq]
  apply Finset.sum_le_sum
  intro x _
  by_cases h1 : x.val ≤ e.val
  · rw [if_pos h1]
  · rw [if_neg h1]
    exact Nat.zero_le _

/-! ### Counting -/

theorem sum_cnt : ∑ e : Fin 8, cnt key e = n := by
  have h := Finset.card_eq_sum_card_fiberwise (f := key) (s := (Finset.univ : Finset (Fin n)))
    (t := (Finset.univ : Finset (Fin 8))) (fun x _ => Finset.mem_coe.2 (Finset.mem_univ _))
  rw [Finset.card_univ, Fintype.card_fin] at h
  unfold cnt
  exact h.symm

/-- Summing the counts over the keys that satisfy P counts the items whose key satisfies P. -/
theorem sum_cnt_filter (P : Fin 8 → Prop) [DecidablePred P] :
    (∑ e : Fin 8, if P e then cnt key e else 0)
      = (Finset.univ.filter fun j : Fin n => P (key j)).card := by
  have h := Finset.card_eq_sum_card_fiberwise (f := key)
    (s := Finset.univ.filter fun j : Fin n => P (key j)) (t := Finset.univ.filter P)
    (fun x hx => Finset.mem_coe.2 (Finset.mem_filter.2
      ⟨Finset.mem_univ _, (Finset.mem_filter.1 (Finset.mem_coe.1 hx)).2⟩))
  rw [h, ← Finset.sum_filter]
  apply Finset.sum_congr rfl
  intro b hb
  have hPb : P b := (Finset.mem_filter.1 hb).2
  unfold cnt
  congr 1
  ext j
  simp only [Finset.mem_filter, Finset.mem_univ, true_and]
  constructor
  · intro hj
    exact ⟨by rw [hj]; exact hPb, hj⟩
  · intro hj
    exact hj.2

/-- start e counts the items of key smaller than e. -/
theorem start_eq_card (e : Fin 8) :
    start key e = (Finset.univ.filter fun j : Fin n => (key j).val < e.val).card := by
  unfold start
  exact sum_cnt_filter key (fun e' : Fin 8 => e'.val < e.val)

theorem cnt_le_psz (e : Fin 8) : cnt key e ≤ psz key e := by
  unfold psz
  omega

theorem psz_le (e : Fin 8) : psz key e ≤ cnt key e + 127 := by
  unfold psz
  omega

theorem sum_psz_le : ∑ e : Fin 8, psz key e ≤ n + 1016 := by
  calc ∑ e : Fin 8, psz key e ≤ ∑ e : Fin 8, (cnt key e + 127) :=
        Finset.sum_le_sum (fun e _ => psz_le key e)
    _ = (∑ e : Fin 8, cnt key e) + ∑ e : Fin 8, 127 := Finset.sum_add_distrib
    _ = n + 1016 := by
        rw [sum_cnt, Finset.sum_const, Finset.card_univ, Fintype.card_fin, smul_eq_mul]

theorem start_le_n (e : Fin 8) : start key e ≤ n := by
  calc start key e ≤ ∑ e' : Fin 8, cnt key e' := by
        unfold start
        apply Finset.sum_le_sum
        intro x _
        by_cases h1 : x.val < e.val
        · rw [if_pos h1]
        · rw [if_neg h1]
          exact Nat.zero_le _
    _ = n := sum_cnt key

theorem off_dvd (e : Fin 8) : 128 ∣ off key e := by
  unfold off
  apply Finset.dvd_sum
  intro x _
  by_cases h1 : x.val < e.val
  · rw [if_pos h1]
    unfold psz
    exact Nat.dvd_mul_left 128 _
  · rw [if_neg h1]
    exact dvd_zero _

/-- The offsets grow with the key. -/
theorem off_mono {e e' : Fin 8} (h : e.val ≤ e'.val) : off key e ≤ off key e' := by
  unfold off
  exact pre_mono (psz key) h

/-- The padded range of a key ends at or before the offset of every larger key. -/
theorem off_add_psz_le_off {e e' : Fin 8} (h : e.val < e'.val) :
    off key e + psz key e ≤ off key e' := by
  unfold off
  exact pre_add_le (psz key) h

theorem off_add_psz_le (e : Fin 8) : off key e + psz key e ≤ n + 1016 := by
  calc off key e + psz key e ≤ ∑ x : Fin 8, psz key x := by
        unfold off
        exact pre_add_le_sum (psz key) e
    _ ≤ n + 1016 := sum_psz_le key

/-- A relabelling of the items by a bijection does not change the counts. -/
theorem cnt_comp_bijective (ids : Fin n → Fin 8) (σ : Fin n → Fin n) (hσ : Function.Bijective σ) (e : Fin 8) :
    (Finset.univ.filter fun q : Fin n => ids q = e).card = cnt (fun j => ids (σ j)) e := by
  unfold cnt
  symm
  apply Finset.card_bij (fun j _ => σ j)
  · intro a ha
    simp only [Finset.mem_filter, Finset.mem_univ, true_and] at ha ⊢
    exact ha
  · intro a _ b _ hab
    exact hσ.1 hab
  · intro b hb
    obtain ⟨a, rfl⟩ := hσ.2 b
    refine ⟨a, ?_, rfl⟩
    simp only [Finset.mem_filter, Finset.mem_univ, true_and] at hb ⊢
    exact hb

variable (hmono : Monotone key)
include hmono

/-- In sorted order, the items before position j include all those of smaller key. -/
theorem start_le (j : Fin n) : start key (key j) ≤ j.val := by
  rw [start_eq_card]
  calc (Finset.univ.filter fun j' : Fin n => (key j').val < (key j).val).card
      ≤ (Finset.univ.filter fun j' : Fin n => j'.val < j.val).card := by
        apply Finset.card_le_card
        intro j' hj'
        simp only [Finset.mem_filter, Finset.mem_univ, true_and] at hj' ⊢
        by_contra hge
        have hle : j ≤ j' := by
          rw [Fin.le_def]
          omega
        have hk := hmono hle
        rw [Fin.le_def] at hk
        omega
    _ = min n j.val := Fin.card_filter_val_lt
    _ = j.val := by
        have hj := j.isLt
        omega

/-- … and position j comes before the end of its key's run. -/
theorem lt_start_add_cnt (j : Fin n) : j.val < start key (key j) + cnt key (key j) := by
  have h1 : (Finset.univ.filter fun j' : Fin n => j'.val < j.val + 1).card = j.val + 1 := by
    rw [Fin.card_filter_val_lt]
    have hj := j.isLt
    omega
  have h2 : (Finset.univ.filter fun j' : Fin n => j'.val < j.val + 1).card
      ≤ ((Finset.univ.filter fun j' : Fin n => (key j').val < (key j).val)
          ∪ (Finset.univ.filter fun j' : Fin n => key j' = key j)).card := by
    apply Finset.card_le_card
    intro j' hj'
    simp only [Finset.mem_union, Finset.mem_filter, Finset.mem_univ, true_and] at hj' ⊢
    have hle : j' ≤ j := by
      rw [Fin.le_def]
      omega
    have hk := hmono hle
    rw [Fin.le_def] at hk
    by_cases heq : (key j').val = (key j).val
    · right
      exact Fin.ext heq
    · left
      omega
  have h3 := Finset.card_union_le (Finset.univ.filter fun j' : Fin n => (key j').val < (key j).val)
    (Finset.univ.filter fun j' : Fin n => key j' = key j)
  have h4 : cnt key (key j) = (Finset.univ.filter fun j' : Fin n => key j' = key j).card := rfl
  have h5 := start_eq_card key (key j)
  omega

theorem off_le_pos (j : Fin n) : off key (key j) ≤ pos key j := by
  unfold pos
  omega

theorem pos_lt_off_add_psz (j : Fin n) : pos key j < off key (key j) + psz key (key j) := by
  have h1 := start_le key hmono j
  have h2 := lt_start_add_cnt key hmono j
  have h3 := cnt_le_psz key (key j)
  unfold pos
  omega

theorem pos_lt (j : Fin n) : pos key j < n + 1017 := by
  have h1 := pos_lt_off_add_psz key hmono j
  have h2 := off_add_psz_le key (key j)
  omega

theorem pos_injective : Function.Injective (pos key) := by
  intro j j' h
  have a1 := off_le_pos key hmono j
  have a2 := pos_lt_off_add_psz key hmono j
  have b1 := off_le_pos key hmono j'
  have b2 := pos_lt_off_add_psz key hmono j'
  have hk : (key j).val = (key j').val := by
    by_contra hne
    rcases Nat.lt_or_gt_of_ne hne with hlt | hgt
    · have c := off_add_psz_le_off key hlt
      omega
    · have c := off_add_psz_le_off key hgt
      omega
  have hk' : key j = key j' := Fin.ext hk
  have s1 := start_le key hmono j
  have s2 := start_le key hmono j'
  unfold pos at h
  rw [hk'] at h s1
  apply Fin.ext
  omega

/-- The tile of 128 rows that holds pos j begins inside group (key j)'s padded range: the offsets at or
    below its first row are exactly those of the keys up to key j. -/
theorem tile_count (j : Fin n) :
    (Finset.univ.filter fun e : Fin 8 => off key e ≤ 128 * (pos key j / 128)).card = (key j).val + 1 := by
  have a1 := off_le_pos key hmono j
  have a2 := pos_lt_off_add_psz key hmono j
  obtain ⟨k, hk⟩ := off_dvd key (key j)
  have hset : (Finset.univ.filter fun e : Fin 8 => off key e ≤ 128 * (pos key j / 128))
      = Finset.univ.filter fun e : Fin 8 => e.val < (key j).val + 1 := by
    ext e
    simp only [Finset.mem_filter, Finset.mem_univ, true_and]
    constructor
    · intro h
      by_contra hgt
      have hlt : (key j).val < e.val := by omega
      have c := off_add_psz_le_off key hlt
      omega
    · intro h
      have hle : e.val ≤ (key j).val := by omega
      have c := off_mono key hle
      omega
  rw [hset, Fin.card_filter_val_lt]
  have hlt := (key j).isLt
  omega

end Cert.Route
-- ==== Proof.SemCounts.lean ====
/-
  The group sizes and offsets, read at an index, when every expert id is in {0,…,7}.
  The bincount of the ids is the count of pairs per expert; its exclusive running sum is where each expert's run
  begins in the sorted list; the sizes rounded up to multiples of 128 and their exclusive running sum are the padded
  sizes and offsets. All are small naturals (at most 8192 + 1016), so the 32-bit arithmetic does not wrap.
-/
import proofs.«423491_j11716670783494_3_alg».proof.Proof.SemSort
import proofs.«423491_j11716670783494_3_alg».proof.Proof.LibScatter1
import proofs.«423491_j11716670783494_3_alg».proof.Proof.LibCumsum8
import proofs.«423491_j11716670783494_3_alg».proof.Proof.RouteMath
import Idealize.ShloMosaic.Lib.Affine

set_option maxRecDepth 16384

noncomputable section

namespace Cert.KernelIdeal.SemCounts

open Cert.KernelIdeal Cert.KernelIdeal.Gen Cert.KernelIdeal.HostSteps Idealize.ShloMosaic Idealize.ShloMosaic.ValueIdx Idealize.ShloMosaic.RouteLib

/-! ### Words -/

/-- A rank-one index written as a match on its one axis is the index at that coordinate. -/
theorem ix1_eq_ofFin {n : Nat} (q : Fin n) : (ix1 q : (⟨1, ![n]⟩ : Shape).Idx) = Shape.Idx.ofFin q :=
  Shape.Idx.eq_ofFin (ix1 q)

/-- For a nonnegative word x: max(0, x) is x, it is not negative, and so the wrap of a negative index leaves it. -/
theorem wrap_max_word (x n : BitVec 32) (h0 : 0 ≤ x.toInt) :
    Scalar.select (IntOp.cmpi .slt (IntOp.maxsi 0#32 x) 0#32) (IntOp.addi (IntOp.maxsi 0#32 x) n) (IntOp.maxsi 0#32 x) = x := by
  have hz : (0#32 : BitVec 32).toInt = 0 := by decide
  have hm : IntOp.maxsi 0#32 x = x := by
    unfold IntOp.maxsi
    rw [if_neg]
    rw [BitVec.slt_iff_toInt_lt, hz]
    omega
  rw [hm]
  have hc : ¬ IntOp.cmpi .slt x 0#32 = 1#1 := by
    rw [IntOp.cmpi_slt, hz]
    omega
  exact if_neg hc

/-- x + 128 - 1 on a small word is x + 127. -/
theorem add127_word (x : BitVec 32) (hx : x.toNat ≤ 8192) :
    (IntOp.subi (IntOp.addi x 128#32) 1#32).toNat = x.toNat + 127 := by
  have h1 : (1#32 : BitVec 32).toNat = 1 := rfl
  have h128 : (128#32 : BitVec 32).toNat = 128 := rfl
  unfold IntOp.subi IntOp.addi
  rw [BitVec.toNat_sub, BitVec.toNat_add, h1, h128]
  omega

/-- The floor division by 128 as the host program spells it (a truncated quotient, lowered by one when the signs
    differ and the remainder is not zero), on a positive word below 2^31: the signs agree, so it is the quotient. -/
theorem floordiv_word (x : BitVec 32) (hx : 0 < x.toNat) (hx2 : 2 * x.toNat < 2 ^ 32) :
    (Scalar.select
      (IntOp.andi
        (IntOp.cmpi .ne (if x = 0 then 0 else if x.msb then -1 else 1)
          (if (128#32 : BitVec 32) = 0 then (0 : BitVec 32) else if (128#32 : BitVec 32).msb then -1 else 1))
        (IntOp.cmpi .ne (IntOp.remsi .host x 128#32) 0#32))
      (IntOp.subi (IntOp.divsi .host x 128#32) 1#32) (IntOp.divsi .host x 128#32)).toNat = x.toNat / 128 := by
  have hne : ¬ x = 0 := by
    intro h
    rw [h] at hx
    exact absurd hx (by decide)
  have hm : x.msb = false := by
    rw [BitVec.msb_eq_false_iff_two_mul_lt]
    exact hx2
  have hs : (if x = 0 then (0 : BitVec 32) else if x.msb then -1 else 1) = 1#32 := by
    rw [if_neg hne, hm]
    rfl
  have hs128 : (if (128#32 : BitVec 32) = 0 then (0 : BitVec 32) else if (128#32 : BitVec 32).msb then -1 else 1) = 1#32 := by
    decide
  have hc : IntOp.cmpi .ne (1#32 : BitVec 32) 1#32 = 0#1 := by decide
  have ha : ∀ y : BitVec 1, IntOp.andi 0#1 y = 0#1 := by decide
  have hsel : ∀ p q : BitVec 32, Scalar.select 0#1 p q = q := fun p q => if_neg (by decide)
  have hd : IntOp.divsi .host x 128#32 = x.sdiv 128#32 :=
    if_neg (IntOp.not_corner_of_pos (by decide))
  rw [hs, hs128, hc, ha, hsel, hd, BitVec.sdiv_eq, hm, show (128#32 : BitVec 32).msb = false from by decide]
  show (x / 128#32).toNat = _
  rw [BitVec.toNat_udiv]
  rfl

/-- Times 128 without wrap. -/
theorem mul128_word (y : BitVec 32) (hy : y.toNat * 128 < 2 ^ 32) : (IntOp.muli y 128#32).toNat = y.toNat * 128 := by
  have h128 : (128#32 : BitVec 32).toNat = 128 := rfl
  unfold IntOp.muli
  rw [BitVec.toNat_mul, h128]
  exact Nat.mod_eq_of_lt hy

/-! ### The same at an index of a vector -/

/-- The [n × 1] column of a wrapped, clamped-below index vector, read at row q: the word at q when that is nonnegative. -/
theorem idxcol_apply {N : Nat} (hbN : (⟨0, ![]⟩ : Shape).BroadcastsInDim ⟨1, ![N]⟩ (![] : Fin 0 → Fin 1))
    (hcol : (⟨1, ![N]⟩ : Shape).BroadcastsInDim ⟨2, ![N, 1]⟩ (![0] : Fin 1 → Fin 2))
    (a : IVec ⟨1, ![N]⟩ 32) (n : BitVec 32) (q : Fin N) (h0 : 0 ≤ (a (Shape.Idx.ofFin q)).toInt) :
    broadcastInDim ⟨2, ![N, 1]⟩ ![0] hcol
      (select (cmpi .slt (maxsi (broadcastInDim ⟨1, ![N]⟩ ![] hbN (id (constantI ⟨0, ![]⟩ 32 0#32))) a)
          (broadcastInDim ⟨1, ![N]⟩ ![] hbN (constantI ⟨0, ![]⟩ 32 0#32)))
        (addi (maxsi (broadcastInDim ⟨1, ![N]⟩ ![] hbN (id (constantI ⟨0, ![]⟩ 32 0#32))) a)
          (broadcastInDim ⟨1, ![N]⟩ ![] hbN (constantI ⟨0, ![]⟩ 32 n)))
        (maxsi (broadcastInDim ⟨1, ![N]⟩ ![] hbN (id (constantI ⟨0, ![]⟩ 32 0#32))) a))
      (StableHlo.Predicate.ixP q) = a (Shape.Idx.ofFin q) :=
  (StableHlo.Predicate.bcast_col1 hcol _ q).trans (wrap_max_word (a (Shape.Idx.ofFin q)) n h0)

section Eight

variable (hb8 : (⟨0, ![]⟩ : Shape).BroadcastsInDim ⟨1, ![8]⟩ (![] : Fin 0 → Fin 1))
  (hb0 : (⟨0, ![]⟩ : Shape).BroadcastsInDim ⟨0, ![]⟩ (![] : Fin 0 → Fin 0))
  (hrw : (⟨1, ![8]⟩ : Shape).ReduceWindows ![8] ![1] ![7] ![0] ⟨1, ![8]⟩) (hu : 0 < (⟨0, ![]⟩ : Shape).numel)

/-- The running sum of eight small words less the words themselves: entry e is the sum of the entries before e. -/
theorem excl_prefix (a : IVec ⟨1, ![8]⟩ 32) (f : Fin 8 → Nat) (hf : ∀ e, (a (Shape.Idx.ofFin e)).toNat = f e)
    (hb : (∑ e : Fin 8, f e) < 2 ^ 32) (e : Fin 8) :
    (subi (Host.reduceWindow IntOp.addi ![8] ![1] ![7] ![0] a
        (broadcastInDim ⟨0, ![]⟩ ![] hb0 (constantI ⟨0, ![]⟩ 32 0#32)) hrw hu) a (Shape.Idx.ofFin e)).toNat
      = ∑ e' : Fin 8, if e'.val < e.val then f e' else 0 := by
  have hb' : (∑ e : Fin 8, (a (Shape.Idx.ofFin e)).toNat) < 2 ^ 32 := by
    simp only [hf]
    exact hb
  have hc := cumsum8_toNat a (broadcastInDim ⟨0, ![]⟩ ![] hb0 (constantI ⟨0, ![]⟩ 32 0#32)) (fun _ => rfl) hrw hu hb' e
  simp only [hf] at hc
  rw [← Cert.Route.pre_add_eq f e] at hc
  have hle : a (Shape.Idx.ofFin e) ≤ Host.reduceWindow IntOp.addi ![8] ![1] ![7] ![0] a
      (broadcastInDim ⟨0, ![]⟩ ![] hb0 (constantI ⟨0, ![]⟩ 32 0#32)) hrw hu (Shape.Idx.ofFin e) := by
    rw [BitVec.le_def, hc, hf]
    omega
  have hs : ∀ (u v : IVec ⟨1, ![8]⟩ 32) (i : (⟨1, ![8]⟩ : Shape).Idx), subi u v i = u i - v i := fun _ _ _ => rfl
  rw [hs, BitVec.toNat_sub_of_le hle, hc, hf]
  omega

/-- A small count plus 128 less 1, at an index. -/
theorem add127_apply (a : IVec ⟨1, ![8]⟩ 32) (e : Fin 8) (ha : (a (Shape.Idx.ofFin e)).toNat ≤ 8192) :
    (subi (addi a (broadcastInDim ⟨1, ![8]⟩ ![] hb8 (constantI ⟨0, ![]⟩ 32 128#32)))
        (broadcastInDim ⟨1, ![8]⟩ ![] hb8 (constantI ⟨0, ![]⟩ 32 1#32)) (Shape.Idx.ofFin e)).toNat
      = (a (Shape.Idx.ofFin e)).toNat + 127 :=
  add127_word (a (Shape.Idx.ofFin e)) ha

/-- The floor division by 128 of a positive word below 2^31, at an index. -/
theorem floordiv_apply (x : IVec ⟨1, ![8]⟩ 32) (e : Fin 8) (hx : 0 < (x (Shape.Idx.ofFin e)).toNat)
    (hx2 : 2 * (x (Shape.Idx.ofFin e)).toNat < 2 ^ 32) :
    (select
      (andi (cmpi .ne (signi x) (broadcastInDim ⟨1, ![8]⟩ ![] hb8 (signi (id (constantI ⟨0, ![]⟩ 32 128#32)))))
        (cmpi .ne (Host.remsi x (broadcastInDim ⟨1, ![8]⟩ ![] hb8 (id (constantI ⟨0, ![]⟩ 32 128#32))))
          (broadcastInDim ⟨1, ![8]⟩ ![] hb8 (constantI ⟨0, ![]⟩ 32 0#32))))
      (subi (Host.divsi x (broadcastInDim ⟨1, ![8]⟩ ![] hb8 (id (constantI ⟨0, ![]⟩ 32 128#32))))
        (broadcastInDim ⟨1, ![8]⟩ ![] hb8 (constantI ⟨0, ![]⟩ 32 1#32)))
      (Host.divsi x (broadcastInDim ⟨1, ![8]⟩ ![] hb8 (id (constantI ⟨0, ![]⟩ 32 128#32)))) (Shape.Idx.ofFin e)).toNat
      = (x (Shape.Idx.ofFin e)).toNat / 128 :=
  floordiv_word (x (Shape.Idx.ofFin e)) hx hx2

/-- Times 128 without wrap, at an index. -/
theorem mul128_apply (y : IVec ⟨1, ![8]⟩ 32) (e : Fin 8) (hy : (y (Shape.Idx.ofFin e)).toNat * 128 < 2 ^ 32) :
    (muli y (broadcastInDim ⟨1, ![8]⟩ ![] hb8 (constantI ⟨0, ![]⟩ 32 128#32)) (Shape.Idx.ofFin e)).toNat
      = (y (Shape.Idx.ofFin e)).toNat * 128 :=
  mul128_word (y (Shape.Idx.ofFin e)) hy

end Eight

/-- A count of items among n is at most n. -/
theorem cnt_le {n : Nat} (key : Fin n → Fin 8) (e : Fin 8) : Cert.Route.cnt key e ≤ n := by
  unfold Cert.Route.cnt
  exact (Finset.card_le_univ _).trans (le_of_eq (Fintype.card_fin n))

/-! ### The four tables -/

variable {F : FTy → Type} [FloatOps F]
variable (m : (ℓ : Loc nD τ sig) → Buf (Elt F) ℓ) (c : Dev nD)

open Cert.KernelIdeal.SemSort

theorem v37_toNat (hr : InRange m c) (e : Fin 8) : (V m c main_v37 (ix1 e)).toNat = Cert.Route.cnt (key m c) e := by
  -- row q of the index column is the id of pair q: it is nonnegative, so neither the clamp nor the wrap moves it
  have hg : ∀ q : Fin 8192,
      (col8192 (wrapIdx S8192 bcast_S_S8192 8#32
        (maxsi (broadcastInDim S8192 ![] bcast_S_S8192 (id (constantI S_ 32 0#32))) (V m c main_v0)))
        (StableHlo.Predicate.ixP q)).toInt = ((ide m c q).val : Int) := by
    intro q
    have h0 : 0 ≤ (V m c main_v0 (Shape.Idx.ofFin q)).toInt := by
      rw [← ix1_eq_ofFin]
      exact (hr q).1
    have h1 : col8192 (wrapIdx S8192 bcast_S_S8192 8#32
        (maxsi (broadcastInDim S8192 ![] bcast_S_S8192 (id (constantI S_ 32 0#32))) (V m c main_v0)))
        (StableHlo.Predicate.ixP q) = V m c main_v0 (Shape.Idx.ofFin q) :=
      idxcol_apply (N := 8192) bcast_S_S8192 bcast_S8192_S8192x1_0 (V m c main_v0) 8#32 q h0
    rw [h1, ← ix1_eq_ofFin]
    exact ide_val m c hr q
  -- so the scatter-add of ones into a zero table counts, at e, the pairs of id e
  have hcount := scatter_addi_count scatter_S8_S8192x1_S8192_n_0_0_1 rfl rfl rfl rfl
    (broadcastInDim S8 ![] bcast_S_S8 (constantI S_ 32 0#32)) (fun _ => rfl)
    (col8192 (wrapIdx S8192 bcast_S_S8192 8#32
      (maxsi (broadcastInDim S8192 ![] bcast_S_S8192 (id (constantI S_ 32 0#32))) (V m c main_v0))))
    (broadcastInDim S8192 ![] bcast_S_S8192 (constantI S_ 32 1#32)) (fun _ => rfl)
    (ide m c) hg (by norm_num) e
  rw [step_v37 m c, ix1_eq_ofFin]
  -- and the sorted list is the flat one read through a bijection
  exact hcount.trans (Cert.Route.cnt_comp_bijective (ide m c) (sigma m c) (sigma_bijective m c) e)

theorem v39_toNat (hr : InRange m c) (e : Fin 8) : (V m c main_v39 (ix1 e)).toNat = Cert.Route.start (key m c) e := by
  have hf : ∀ e' : Fin 8, (V m c main_v37 (Shape.Idx.ofFin e')).toNat = Cert.Route.cnt (key m c) e' := fun e' => by
    rw [← ix1_eq_ofFin]
    exact v37_toNat m c hr e'
  have hb : (∑ e' : Fin 8, Cert.Route.cnt (key m c) e') < 2 ^ 32 := by
    rw [Cert.Route.sum_cnt]
    norm_num
  rw [step_v39 m c, step_v38 m c, ix1_eq_ofFin]
  exact excl_prefix bcast_S_S_ reduceWindows_S8_S8_w8s1p7_0 h_S_ (V m c main_v37) (Cert.Route.cnt (key m c)) hf hb e

theorem v46_toNat (hr : InRange m c) (e : Fin 8) : (V m c main_v46 (ix1 e)).toNat = Cert.Route.psz (key m c) e := by
  have h37 : (V m c main_v37 (Shape.Idx.ofFin e)).toNat = Cert.Route.cnt (key m c) e := by
    rw [← ix1_eq_ofFin]
    exact v37_toNat m c hr e
  have hle : Cert.Route.cnt (key m c) e ≤ 8192 := cnt_le (key m c) e
  -- the count plus 127
  have h43 : (V m c main_v43 (Shape.Idx.ofFin e)).toNat = Cert.Route.cnt (key m c) e + 127 := by
    rw [step_v43 m c, ← h37]
    exact add127_apply bcast_S_S8 (V m c main_v37) e (by rw [h37]; exact hle)
  -- its floor quotient by 128: the dividend is positive, so this is the plain quotient
  have h44 : (V m c main_v44 (Shape.Idx.ofFin e)).toNat = (Cert.Route.cnt (key m c) e + 127) / 128 := by
    rw [step_v44 m c, ← h43]
    exact floordiv_apply bcast_S_S8 (V m c main_v43) e (by rw [h43]; omega) (by rw [h43]; omega)
  -- times 128
  rw [step_v46 m c, ix1_eq_ofFin]
  unfold Cert.Route.psz
  rw [← h44]
  exact mul128_apply bcast_S_S8 (V m c main_v44) e (by rw [h44]; omega)

theorem v48_toNat (hr : InRange m c) (e : Fin 8) : (V m c main_v48 (ix1 e)).toNat = Cert.Route.off (key m c) e := by
  have hf : ∀ e' : Fin 8, (V m c main_v46 (Shape.Idx.ofFin e')).toNat = Cert.Route.psz (key m c) e' := fun e' => by
    rw [← ix1_eq_ofFin]
    exact v46_toNat m c hr e'
  have hb : (∑ e' : Fin 8, Cert.Route.psz (key m c) e') < 2 ^ 32 :=
    lt_of_le_of_lt (Cert.Route.sum_psz_le (key m c)) (by norm_num)
  rw [step_v48 m c, step_v47 m c, ix1_eq_ofFin]
  exact excl_prefix bcast_S_S_ reduceWindows_S8_S8_w8s1p7_0 h_S_ (V m c main_v46) (Cert.Route.psz (key m c)) hf hb e

end Cert.KernelIdeal.SemCounts

end
-- ==== Proof.SemPos.lean ====
/-
  The padded row of each sorted pair, read at an index, when every expert id is in {0,…,7}: the offset of the
  pair's expert plus the pair's rank inside its expert's run (its sorted position minus where the run begins).
-/
import proofs.«423491_j11716670783494_3_alg».proof.Proof.SemCounts

set_option maxRecDepth 16384

noncomputable section

namespace Cert.KernelIdeal.SemPos

open Cert.KernelIdeal Cert.KernelIdeal.Gen Cert.KernelIdeal.HostSteps Idealize.ShloMosaic Idealize.ShloMosaic.ValueIdx Idealize.ShloMosaic.RouteLib

variable {F : FTy → Type} [FloatOps F]
variable (m : (ℓ : Loc nD τ sig) → Buf (Elt F) ℓ) (c : Dev nD)

open Cert.KernelIdeal.SemSort Cert.KernelIdeal.SemCounts

/-! ### Reading a table of eight entries at a column of in-range indices -/

/-- The two ways of writing a rank-1 index from its coordinate agree. -/
theorem pos_ix1_eq_ofFin {n : Nat} (q : Fin n) : (ix1 q : (⟨1, ![n]⟩ : Shape).Idx) = Shape.Idx.ofFin q := by
  funext d
  match d with
  | ⟨0, _⟩ => rfl

/-- The wrap of a possibly negative index leaves a non-negative word alone. -/
theorem pos_wrapIdx_nonneg (n : BitVec 32) (x : IVec S8192 32) (i : S8192.Idx) (h : 0 ≤ (x i).toInt) :
    wrapIdx S8192 bcast_S_S8192 n x i = x i := by
  show Scalar.select (IntOp.cmpi .slt (x i) 0#32) (IntOp.addi (x i) n) (x i) = x i
  have hc : ¬ IntOp.cmpi .slt (x i) 0#32 = 1#1 := by
    rw [IntOp.cmpi_slt]
    rw [BitVec.toInt_zero]
    omega
  exact if_neg hc

/-- A table of eight words gathered at the wrapped column of a vector of indices reads, at position j, the table at
    the index held there, when that index is one of 0,…,7. -/
theorem pos_gather8_read (tbl : IVec S8 32) (x : IVec S8192 32) (j : Fin 8192) (k : Fin 8)
    (hx : (x (ix1 j)).toInt = (k.val : Int)) :
    Host.gather gather_S8_S8192x1_S8192_n_0_n_n_0_1_1 tbl (col8192 (wrapIdx S8192 bcast_S_S8192 8#32 x)) (ix1 j)
      = tbl (ix1 k) := by
  rw [pos_ix1_eq_ofFin j] at hx ⊢
  rw [pos_ix1_eq_ofFin k]
  rw [StableHlo.Predicate.gather_take gather_S8_S8192x1_S8192_n_0_n_n_0_1_1 rfl rfl rfl rfl tbl _ j (by decide)]
  have hcol : col8192 (wrapIdx S8192 bcast_S_S8192 8#32 x) (StableHlo.Predicate.ixP j)
      = wrapIdx S8192 bcast_S_S8192 8#32 x (Shape.Idx.ofFin j) :=
    StableHlo.Predicate.bcast_col1 bcast_S8192_S8192x1_0 _ j
  have hw : wrapIdx S8192 bcast_S_S8192 8#32 x (Shape.Idx.ofFin j) = x (Shape.Idx.ofFin j) :=
    pos_wrapIdx_nonneg 8#32 x _ (by rw [hx]; omega)
  refine congrArg (fun q : Fin 8 => tbl (Shape.Idx.ofFin q)) (Fin.ext ?_)
  show min (col8192 (wrapIdx S8192 bcast_S_S8192 8#32 x) (StableHlo.Predicate.ixP j)).toInt.toNat (8 - 1) = k.val
  rw [hcol, hw, hx]
  have hk := k.isLt
  omega

/-! ### Pointwise readings of the last two operations -/

theorem pos_subi_iota_apply (b : IVec S8192 32) (j : Fin 8192) :
    subi (iotaInDim S8192 32 0) b (ix1 j) = IntOp.subi (BitVec.ofNat 32 j.val) (b (ix1 j)) := rfl

theorem pos_addi_apply (a b : IVec S8192 32) (i : S8192.Idx) : addi a b i = IntOp.addi (a i) (b i) := rfl

/-- The 32-bit difference and sum do not wrap on these small naturals. -/
theorem pos_word (a s : BitVec 32) (j : Nat) (hj : j < 8192) (hs : s.toNat ≤ j) (hlt : a.toNat + (j - s.toNat) < 9216) :
    (IntOp.addi a (IntOp.subi (BitVec.ofNat 32 j) s)).toNat = a.toNat + (j - s.toNat) := by
  show (a + (BitVec.ofNat 32 j - s)).toNat = a.toNat + (j - s.toNat)
  rw [BitVec.toNat_add, BitVec.toNat_sub, BitVec.toNat_ofNat]
  omega

theorem pos_lt_9216 (hr : InRange m c) (j : Fin 8192) : Cert.Route.pos (key m c) j < 9216 := by
  have h := Cert.Route.pos_lt (key m c) (key_mono m c hr) j
  omega

theorem v65_toNat (hr : InRange m c) (j : Fin 8192) : (V m c main_v65 (ix1 j)).toNat = Cert.Route.pos (key m c) j := by
  have h13 : (V m c main_v13 (ix1 j)).toInt = ((key m c j).val : Int) := by
    rw [v13_apply m c j]
    exact ide_val m c hr (sigma m c j)
  have h64 : V m c main_v64 (ix1 j) = V m c main_v48 (ix1 (key m c j)) := by
    rw [step_v64 m c]
    exact pos_gather8_read _ _ j _ h13
  have h56 : V m c main_v56 (ix1 j) = V m c main_v39 (ix1 (key m c j)) := by
    rw [step_v56 m c]
    exact pos_gather8_read _ _ j _ h13
  have h57 : V m c main_v57 (ix1 j) = IntOp.subi (BitVec.ofNat 32 j.val) (V m c main_v56 (ix1 j)) := by
    rw [step_v57 m c]
    exact pos_subi_iota_apply _ j
  have h65 : V m c main_v65 (ix1 j) = IntOp.addi (V m c main_v64 (ix1 j)) (V m c main_v57 (ix1 j)) := by
    rw [step_v65 m c]
    exact pos_addi_apply _ _ _
  have e48 := v48_toNat m c hr (key m c j)
  have e39 := v39_toNat m c hr (key m c j)
  have hs := Cert.Route.start_le (key m c) (key_mono m c hr) j
  have hp := pos_lt_9216 m c hr j
  have hs' : (V m c main_v39 (ix1 (key m c j))).toNat ≤ j.val := by
    rw [e39]
    exact hs
  have hlt' : (V m c main_v48 (ix1 (key m c j))).toNat + (j.val - (V m c main_v39 (ix1 (key m c j))).toNat) < 9216 := by
    rw [e48, e39]
    exact hp
  rw [h65, h57, h64, h56, pos_word _ _ j.val j.isLt hs' hlt', e48, e39]
  rfl

end Cert.KernelIdeal.SemPos

end
-- ==== Proof.SemScatter.lean ====
/-
  The three tables written by unique-index scatters, read at an index, when every expert id is in {0,…,7}: padded
  row pos j holds the token number and the routing weight of the pair at sorted position j, and the inverse table
  sends pair sigma j to its padded row. The rows pos j are pairwise distinct and in range, and sigma is injective,
  so each scatter's targets are distinct.
-/
import proofs.«423491_j11716670783494_3_alg».proof.Proof.SemPos

set_option maxRecDepth 16384

noncomputable section

namespace Cert.KernelIdeal.SemScatter

open Cert.KernelIdeal Cert.KernelIdeal.Gen Cert.KernelIdeal.HostSteps Idealize.ShloMosaic Idealize.ShloMosaic.ValueIdx Idealize.ShloMosaic.RouteLib

variable {F : FTy → Type} [FloatOps F]
variable (m : (ℓ : Loc nD τ sig) → Buf (Elt F) ℓ) (c : Dev nD)

open Cert.KernelIdeal.SemSort Cert.KernelIdeal.SemCounts Cert.KernelIdeal.SemPos

/-! ### Reading the index column of a scatter -/

/-- The two spellings of a rank-1 index agree. -/
theorem ix1_eq_ofFin {n : Nat} (q : Fin n) : (ix1 q : (⟨1, ![n]⟩ : Shape).Idx) = Shape.Idx.ofFin q := by
  funext d
  match d with
  | ⟨0, _⟩ => exact Fin.ext rfl

/-- A 32-bit word whose unsigned value is below 2^31 has the same value read signed. -/
theorem toInt_of_toNat_lt (x : BitVec 32) (t : Nat) (hx : x.toNat = t) (ht : t < 2 ^ 31) : x.toInt = (t : Int) := by
  rw [BitVec.toInt_eq_toNat_of_lt (by omega), hx]

/-- Wrapping leaves a nonnegative index as it is: the entry of the wrapped index column at row j, read signed,
    is the index j holds. -/
theorem wrap_col_toInt (nw : BitVec 32) (x : IVec S8192 32) (j : Fin 8192) (t : Nat)
    (hx : (x (Shape.Idx.ofFin j)).toNat = t) (ht : t < 2 ^ 31) :
    (col8192 (wrapIdx S8192 bcast_S_S8192 nw x) (StableHlo.Predicate.ixP j)).toInt = (t : Int) := by
  have hI : (x (Shape.Idx.ofFin j)).toInt = (t : Int) := toInt_of_toNat_lt _ t hx ht
  show (broadcastInDim S8192x1 ![0] bcast_S8192_S8192x1_0 (wrapIdx S8192 bcast_S_S8192 nw x)
      (StableHlo.Predicate.ixP j)).toInt = (t : Int)
  rw [StableHlo.Predicate.bcast_col1]
  show (Scalar.select (IntOp.cmpi .slt (x (Shape.Idx.ofFin j)) 0#32) (IntOp.addi (x (Shape.Idx.ofFin j)) nw)
      (x (Shape.Idx.ofFin j))).toInt = (t : Int)
  have hc : ¬ (IntOp.cmpi .slt (x (Shape.Idx.ofFin j)) 0#32 = (1 : BitVec 1)) := by
    intro h
    have h2 : (x (Shape.Idx.ofFin j)).toInt < (0#32 : BitVec 32).toInt := IntOp.cmpi_slt.1 h
    have h0 : (0#32 : BitVec 32).toInt = 0 := by decide
    rw [hI, h0] at h2
    omega
  unfold Scalar.select
  rw [if_neg hc]
  exact hI

/-- A "take the update" scatter into a table of R entries whose index column is the wrapped vector x, when x holds
    the pairwise distinct in-range targets g: entry g j ends at update j. -/
theorem scatter_wrap_hit {α : Type} {R : Nat} (d : ScatterDims ⟨1, ![R]⟩ S8192x1 S8192)
    (huw : d.updateWindowDims = []) (hiw : d.insertedWindowDims = [0])
    (hsd : d.scatterDimsToOperandDims = [0]) (hivd : d.indexVectorDim = 1) (nw : BitVec 32)
    (z : (⟨1, ![R]⟩ : Shape).Idx → α) (x : IVec S8192 32) (u : S8192.Idx → α) (g : Fin 8192 → Fin R)
    (hg : ∀ n, (x (Shape.Idx.ofFin n)).toNat = (g n).val) (hR : R ≤ 2 ^ 31) (hinj : Function.Injective g)
    (j : Fin 8192) :
    Host.scatter d (fun _ b => b) z (col8192 (wrapIdx S8192 bcast_S_S8192 nw x)) u (ix1 (g j)) = u (ix1 j) := by
  rw [ix1_eq_ofFin, ix1_eq_ofFin]
  exact scatter_set_hit d huw hiw hsd hivd z (col8192 (wrapIdx S8192 bcast_S_S8192 nw x)) u g
    (fun n => wrap_col_toInt nw x n (g n).val (hg n) (lt_of_lt_of_le (g n).isLt hR)) hinj j

/-! ### The three scatters -/

/-- The padded rows, as positions of the 9216-row tables. -/
def row (hr : InRange m c) (n : Fin 8192) : Fin 9216 := ⟨Cert.Route.pos (key m c) n, pos_lt_9216 m c hr n⟩

theorem row_injective (hr : InRange m c) : Function.Injective (row m c hr) := by
  intro a b h
  unfold row at h
  have h' : Cert.Route.pos (key m c) a = Cert.Route.pos (key m c) b := Fin.mk.inj h
  exact Cert.Route.pos_injective (key m c) (key_mono m c hr) h'

/-- The row vector holds the padded rows. -/
theorem v65_row (hr : InRange m c) (n : Fin 8192) :
    (V m c main_v65 (Shape.Idx.ofFin n)).toNat = (row m c hr n).val := by
  have h := v65_toNat m c hr n
  rw [ix1_eq_ofFin] at h
  exact h

/-- The argsort vector holds the sorting permutation. -/
theorem v6_sigma (n : Fin 8192) : (V m c main_v6 (Shape.Idx.ofFin n)).toNat = (sigma m c n).val := by
  have h := v6_apply m c n
  rw [ix1_eq_ofFin] at h
  rw [h, BitVec.toNat_ofNat]
  exact Nat.mod_eq_of_lt (lt_trans (sigma m c n).isLt (by norm_num))

theorem v73_apply (hr : InRange m c) (j : Fin 8192) :
    V m c main_v73 (ix1 (⟨Cert.Route.pos (key m c) j, pos_lt_9216 m c hr j⟩ : Fin 9216)) = V m c main_v20 (ix1 j) := by
  rw [step_v73 m c]
  exact scatter_wrap_hit scatter_S9216_S8192x1_S8192_n_0_0_1 rfl rfl rfl rfl 9216#32 _ (V m c main_v65) (V m c main_v20)
    (row m c hr) (v65_row m c hr) (by norm_num) (row_injective m c hr) j

theorem v81_apply (hr : InRange m c) (j : Fin 8192) :
    V m c main_v81 (ix1 (⟨Cert.Route.pos (key m c) j, pos_lt_9216 m c hr j⟩ : Fin 9216)) = V m c main_v27 (ix1 j) := by
  rw [step_v81 m c]
  exact scatter_wrap_hit scatter_S9216_S8192x1_S8192_n_0_0_1 rfl rfl rfl rfl 9216#32 _ (V m c main_v65) (V m c main_v27)
    (row m c hr) (v65_row m c hr) (by norm_num) (row_injective m c hr) j

theorem v89_apply (hr : InRange m c) (j : Fin 8192) :
    V m c main_v89 (ix1 (sigma m c j)) = V m c main_v65 (ix1 j) := by
  rw [step_v89 m c]
  exact scatter_wrap_hit scatter_S8192_S8192x1_S8192_n_0_0_1 rfl rfl rfl rfl 8192#32 _ (V m c main_v6) (V m c main_v65)
    (sigma m c) (v6_sigma m c) (by norm_num) (sigma_bijective m c).1 j

end Cert.KernelIdeal.SemScatter

end
-- ==== Proof.SemTile.lean ====
/-
  The per-tile expert table. Tile t (rows 128 t … 128 t + 127 of the padded buffer) is given the number of group
  offsets at or below its first row, less one, clamped to {0,…,7}. The clamp alone puts every entry in {0,…,7},
  whatever the ids; and when every id is in {0,…,7}, the tile that holds the padded row of a pair is given that
  pair's expert.
-/
import proofs.«423491_j11716670783494_3_alg».proof.Proof.SemPos

set_option maxRecDepth 16384

noncomputable section

namespace Cert.KernelIdeal.SemTile

open Cert.KernelIdeal Cert.KernelIdeal.Gen Cert.KernelIdeal.HostSteps Idealize.ShloMosaic Idealize.ShloMosaic.ValueIdx Idealize.ShloMosaic.RouteLib

variable {F : FTy → Type} [FloatOps F]
variable (m : (ℓ : Loc nD τ sig) → Buf (Elt F) ℓ) (c : Dev nD)

open Cert.KernelIdeal.SemSort Cert.KernelIdeal.SemCounts Cert.KernelIdeal.SemPos

/-! ### Words -/

/-- The signed clamp of any word to [0, 7] is one of 0,…,7. -/
theorem clamp_range (x : BitVec 32) : (IntOp.minsi 7#32 (IntOp.maxsi 0#32 x)).toNat < 8 := by
  have hx := BitVec.toInt_eq_toNat_cond x
  have h7 : (7#32 : BitVec 32).toInt = 7 := by decide
  have h0 : (0#32 : BitVec 32).toInt = 0 := by decide
  unfold IntOp.minsi IntOp.maxsi
  by_cases h1 : x.slt 0#32 = true
  · rw [if_pos h1]; decide
  · rw [if_neg h1]
    by_cases h2 : (7#32 : BitVec 32).slt x = true
    · rw [if_pos h2]; decide
    · rw [if_neg h2]
      rw [BitVec.slt_iff_toInt_lt] at h1 h2
      rw [h0] at h1
      rw [h7] at h2
      have := x.isLt
      omega

/-- The clamp leaves a word already in [0, 7] alone. -/
theorem clamp_id (x : BitVec 32) (hx8 : x.toNat < 8) : IntOp.minsi 7#32 (IntOp.maxsi 0#32 x) = x := by
  have hx := BitVec.toInt_eq_toNat_cond x
  have h7 : (7#32 : BitVec 32).toInt = 7 := by decide
  have h0 : (0#32 : BitVec 32).toInt = 0 := by decide
  unfold IntOp.minsi IntOp.maxsi
  have h1 : ¬ (x.slt 0#32 = true) := by
    rw [BitVec.slt_iff_toInt_lt, h0]; omega
  rw [if_neg h1]
  have h2 : ¬ ((7#32 : BitVec 32).slt x = true) := by
    rw [BitVec.slt_iff_toInt_lt, h7]; omega
  rw [if_neg h2]

/-- The first row of tile t, as a word: 128 t, no wrap. -/
theorem tile_start_toNat (t : Fin 72) : (IntOp.muli (BitVec.ofNat 32 t.val) 128#32).toNat = 128 * t.val := by
  have ht := t.isLt
  unfold IntOp.muli
  rw [BitVec.toNat_mul, BitVec.toNat_ofNat, BitVec.toNat_ofNat]
  omega

/-- A rank-1 index written either way. -/
theorem ix1_eq_ofFin {n : Nat} (q : Fin n) : (ix1 q : (⟨1, ![n]⟩ : Shape).Idx) = Shape.Idx.ofFin q := by
  funext d
  match d with
  | ⟨0, _⟩ => exact Fin.ext rfl

theorem v102_range (t : Fin 72) : (V m c main_v102 (ix1 t)).toNat < 8 := by
  rw [step_v102 m c]
  generalize V m c main_v101 = a
  exact clamp_range (a (ix1 t))

/-! ### The count of offsets at or below a tile's first row -/

/-- Entry t of the row sums of the widened mask "128 t ≥ a e" is the number of e with a e ≤ 128 t, when every a e is a
    small nonnegative word. -/
theorem count_apply (a : IVec S8 32) (f : Fin 8 → Nat) (ha : ∀ e : Fin 8, (a (ix1 e)).toNat = f e)
    (hf : ∀ e : Fin 8, f e < 2 ^ 31) (t : Fin 72) :
    (Host.reduce IntOp.addi (extui 32 (cmpi .sge (broadcastInDim S72x8 ![0, 1] bcast_S72x1_S72x8_0_1 (broadcastInDim S72x1 ![0] bcast_S72_S72x1_0 (muli (iotaInDim S72 32 0) (broadcastInDim S72 ![] bcast_S_S72 (constantI S_ 32 128#32))))) (broadcastInDim S72x8 ![0, 1] bcast_S1x8_S72x8_0_1 (broadcastInDim S1x8 ![1] bcast_S8_S1x8_1 a))) natLt_1_32) (constantI S_ 32 0#32) reducesTo_S72x8_S72_d1 h_S_ (ix1 t)).toNat
      = (Finset.univ.filter fun e : Fin 8 => f e ≤ 128 * t.val).card := by
  rw [StableHlo.Predicate.toNat_reduce_count_cols (n := 72) (m := 8) (by decide) _ natLt_1_32 reducesTo_S72x8_S72_d1 h_S_ (ix1 t)]
  congr 1
  apply Finset.filter_congr
  intro e _
  show IntOp.cmpi .sge
      (broadcastInDim S72x8 ![0, 1] bcast_S72x1_S72x8_0_1 (broadcastInDim S72x1 ![0] bcast_S72_S72x1_0 (muli (iotaInDim S72 32 0) (broadcastInDim S72 ![] bcast_S_S72 (constantI S_ 32 128#32)))) (StableHlo.Predicate.ij t e))
      (broadcastInDim S72x8 ![0, 1] bcast_S1x8_S72x8_0_1 (broadcastInDim S1x8 ![1] bcast_S8_S1x8_1 a) (StableHlo.Predicate.ij t e)) = 1#1 ↔ f e ≤ 128 * t.val
  rw [StableHlo.Predicate.bcast_rows, StableHlo.Predicate.bcast_cols]
  have hrow : (muli (iotaInDim S72 32 0) (broadcastInDim S72 ![] bcast_S_S72 (constantI S_ 32 128#32)) (Shape.Idx.ofFin t)).toNat = 128 * t.val :=
    tile_start_toNat t
  have hcol : (a (Shape.Idx.ofFin e)).toNat = f e := by
    rw [← ix1_eq_ofFin]; exact ha e
  have hfe := hf e
  have ht := t.isLt
  rw [StableHlo.Predicate.sge_iff_toNat (by rw [hrow]; omega) (by rw [hcol]; exact hfe), hrow, hcol]

/-- Entry t of the count vector: the number of group offsets at or below row 128 t. -/
theorem v99_toNat (hr : InRange m c) (t : Fin 72) :
    (V m c main_v99 (ix1 t)).toNat
      = (Finset.univ.filter fun e : Fin 8 => Cert.Route.off (key m c) e ≤ 128 * t.val).card := by
  rw [step_v99 m c]
  exact count_apply (V m c main_v48) (Cert.Route.off (key m c)) (v48_toNat m c hr)
    (fun e => by
      have h1 := Cert.Route.off_add_psz_le (key m c) e
      omega) t

/-- Where the count at tile t is k + 1 with k ≤ 7, the table holds k: the subtraction does not wrap and the clamp
    keeps the value. -/
theorem v102_of_count (t : Fin 72) (k : Nat) (hk : k < 8) (hcount : (V m c main_v99 (ix1 t)).toNat = k + 1) :
    (V m c main_v102 (ix1 t)).toNat = k := by
  rw [step_v102 m c, step_v101 m c]
  generalize V m c main_v99 = b at hcount ⊢
  show (IntOp.minsi 7#32 (IntOp.maxsi 0#32 (IntOp.subi (b (ix1 t)) 1#32))).toNat = k
  have hsub : (IntOp.subi (b (ix1 t)) 1#32).toNat = k := by
    unfold IntOp.subi
    rw [BitVec.toNat_sub, hcount]
    show (2 ^ 32 - 1 + (k + 1)) % 2 ^ 32 = k
    omega
  rw [clamp_id _ (by rw [hsub]; exact hk), hsub]

theorem v102_apply (hr : InRange m c) (j : Fin 8192) :
    (V m c main_v102 (ix1 (⟨Cert.Route.pos (key m c) j / 128, by have := pos_lt_9216 m c hr j; omega⟩ : Fin 72))).toNat = (key m c j).val := by
  exact v102_of_count m c _ (key m c j).val (key m c j).isLt
    ((v99_toNat m c hr _).trans (Cert.Route.tile_count (key m c) (key_mono m c hr) j))

end Cert.KernelIdeal.SemTile

end
-- ==== Proof.KernelValue.lean ====
/-
  The kernel program's result at an index, at the ideal instance, when the float inputs hold real numbers and every
  expert id is in {0,…,7}: entry (n, h) is the sum over the token's two choices k of rowOut of the specification —
  the expert's SwiGLU output for the token's row with the routing weight applied to the hidden vector — at channel h.
  For the pair q = 2 n + k let j be its position in the sorted list and p its padded row. The inverse table sends q to
  p; row p of the padded token table is n and of the padded weight table is the pair's routing weight; the tile that
  holds p is given the pair's expert. So row p of the kernel's output is the body's value on the token's row, that
  expert's weights and that routing weight, and the tail adds the two rows the inverse table names.
-/
import proofs.«423491_j11716670783494_3_alg».proof.Proof.Tail
import proofs.«423491_j11716670783494_3_alg».proof.Proof.TailRead
import proofs.«423491_j11716670783494_3_alg».proof.Proof.OutArr
import proofs.«423491_j11716670783494_3_alg».proof.Proof.BlockReads
import proofs.«423491_j11716670783494_3_alg».proof.Proof.BodyValue
import proofs.«423491_j11716670783494_3_alg».proof.Proof.SemScatter
import proofs.«423491_j11716670783494_3_alg».proof.Proof.SemTile
import proofs.«423491_j11716670783494_3_alg».proof.Proof.TableOk
import proofs.«423491_j11716670783494_3_alg».proof.Proof.Spec
import proofs.«423491_j11716670783494_3_alg».proof.Proof.LibERealSums

set_option maxRecDepth 16384

noncomputable section

open scoped BigOperators
namespace Cert.KernelIdeal.KernelValue

open Cert.KernelIdeal Cert.KernelIdeal.Gen Cert.KernelIdeal.HostSteps Idealize.ShloMosaic Idealize.ShloMosaic.ValueIdx
open Cert.KernelIdeal.SemSort Cert.KernelIdeal.SemCounts Cert.KernelIdeal.SemPos Cert.KernelIdeal.SemScatter Cert.KernelIdeal.SemTile

variable (m : (ℓ : Loc nD τ sig) → Buf (Elt Ideal) ℓ) (c : Dev nD)

/-- The float inputs hold the real numbers xr, wr, gr, ur, dr. -/
structure Reals (xr : Fin 4096 → Fin 2048 → ℝ) (wr : Fin 4096 → Fin 2 → ℝ)
    (gr ur : Fin 8 → Fin 1408 → Fin 2048 → ℝ) (dr : Fin 8 → Fin 2048 → Fin 1408 → ℝ) : Prop where
  hx : ∀ n cc, V m c main_arg0 (ix2 n cc) = ((xr n cc : ℝ) : EReal)
  hw : ∀ n k, V m c main_arg2 (ix2 n k) = ((wr n k : ℝ) : EReal)
  hg : ∀ e i cc, V m c main_arg3 (ix3 e i cc) = ((gr e i cc : ℝ) : EReal)
  hu : ∀ e i cc, V m c main_arg4 (ix3 e i cc) = ((ur e i cc : ℝ) : EReal)
  hd : ∀ e h i, V m c main_arg5 (ix3 e h i) = ((dr e h i : ℝ) : EReal)

/-- The padded row of pair q: what the inverse table holds for it. -/
def rowOf (q : Fin 8192) : Fin 9216 := ⟨(V m c main_v89 (ix1 q)).toNat % 9216, Nat.mod_lt _ (by decide)⟩

/-- A word below 2^31 is, as a signed integer, its natural value. -/
theorem toInt_of_small (x : BitVec 32) (n : Nat) (h : x.toNat = n) (hn : n < 2 ^ 31) : x.toInt = (n : Int) := by
  rw [BitVec.toInt_eq_toNat_of_lt (by omega), h]

/-- The pair at sorted position j: the inverse table sends it to its padded row. -/
theorem inv_at (hr : InRange m c) (j : Fin 8192) :
    (V m c main_v89 (ix1 (sigma m c j))).toNat = Cert.Route.pos (key m c) j := by
  rw [v89_apply m c hr j, v65_toNat m c hr j]

theorem rowOf_sigma (hr : InRange m c) (j : Fin 8192) :
    rowOf m c (sigma m c j) = ⟨Cert.Route.pos (key m c) j, pos_lt_9216 m c hr j⟩ := by
  apply Fin.ext
  show (V m c main_v89 (ix1 (sigma m c j))).toNat % 9216 = _
  rw [inv_at m c hr j]
  exact Nat.mod_eq_of_lt (pos_lt_9216 m c hr j)

theorem inv_toInt (hr : InRange m c) (q : Fin 8192) :
    (V m c main_v89 (ix1 q)).toInt = ((rowOf m c q).val : Int) := by
  obtain ⟨j, rfl⟩ := (sigma_bijective m c).2 q
  rw [rowOf_sigma m c hr j]
  exact toInt_of_small _ _ (inv_at m c hr j) (by have := pos_lt_9216 m c hr j; omega)

/-! ## The five input blocks of the tile that holds padded row pos j, at the row's place in the tile -/

/-- The token number stored at padded row pos j: the token of the pair at sorted position j. -/
theorem token_at (hr : InRange m c) (j : Fin 8192) :
    (V m c main_v73 (ix1 (⟨Cert.Route.pos (key m c) j, pos_lt_9216 m c hr j⟩ : Fin 9216))).toInt
      = (((⟨(sigma m c j).val / 2, by omega⟩ : Fin 4096).val : Nat) : Int) := by
  rw [v73_apply m c hr j, v20_apply m c j, v5_apply m c (sigma m c j)]
  exact toInt_of_small _ _ (by rw [BitVec.toNat_ofNat]; exact Nat.mod_eq_of_lt (by omega)) (by omega)

/-- Row r of tile t of the token block, when 128 t + r is padded row pos j: the token's row. -/
theorem blk_token (hO : Ok m) (hr : InRange m c) (xr : Fin 4096 → Fin 2048 → ℝ)
    (hx : ∀ n cc, V m c main_arg0 (ix2 n cc) = ((xr n cc : ℝ) : EReal))
    (j : Fin 8192) (t : Fin (cfgM m hO).N) (r : Fin 128)
    (hrow : 128 * t.val + r.val = Cert.Route.pos (key m c) j) (cc : Fin 2048) :
    (iblk m hO c 0 t : Vec Ideal S128x2048 .bf16) (ix2 r cc)
      = ((xr ⟨(sigma m c j).val / 2, by omega⟩ cc : ℝ) : EReal) := by
  have hfin : (⟨128 * t.val + r.val, BlockReads.row_lt t.isLt r.isLt⟩ : Fin 9216)
      = ⟨Cert.Route.pos (key m c) j, pos_lt_9216 m c hr j⟩ := Fin.ext hrow
  rw [BlockReads.read0 m hO c t r cc, hfin, step_v110 m c,
    TailRead.gather_token (V m c main_arg0) (V m c main_v73) _ cc _ (token_at m c hr j)]
  exact hx _ cc

/-- Row r of tile t of the routing-weight column, when 128 t + r is padded row pos j: the pair's routing weight. -/
theorem blk_weight (hO : Ok m) (hr : InRange m c) (wr : Fin 4096 → Fin 2 → ℝ)
    (hw : ∀ n k, V m c main_arg2 (ix2 n k) = ((wr n k : ℝ) : EReal))
    (j : Fin 8192) (t : Fin (cfgM m hO).N) (r : Fin 128)
    (hrow : 128 * t.val + r.val = Cert.Route.pos (key m c) j) :
    (iblk m hO c 1 t : Vec Ideal S128x1 .f32) (ix2 r (0 : Fin 1))
      = ((wr ⟨(sigma m c j).val / 2, by omega⟩ ⟨(sigma m c j).val % 2, by omega⟩ : ℝ) : EReal) := by
  have hfin : (⟨128 * t.val + r.val, BlockReads.row_lt t.isLt r.isLt⟩ : Fin 9216)
      = ⟨Cert.Route.pos (key m c) j, pos_lt_9216 m c hr j⟩ := Fin.ext hrow
  rw [BlockReads.read1 m hO c t r, hfin, step_v111 m c, TailRead.column_read (F := Ideal) (V m c main_v81) _,
    v81_apply m c hr j, v27_apply m c j, v1_apply m c (sigma m c j)]
  exact hw _ _

/-- The gate weight block of a tile whose table entry is expert e. -/
theorem blk_gate (hO : Ok m) (gr : Fin 8 → Fin 1408 → Fin 2048 → ℝ)
    (hg : ∀ e i cc, V m c main_arg3 (ix3 e i cc) = ((gr e i cc : ℝ) : EReal))
    (t : Fin (cfgM m hO).N) (e : Fin 8) (he : (tbl m 0 (ix1 (⟨t.val, t.isLt⟩ : Fin 72))).toNat = e.val)
    (i : Fin 1408) (cc : Fin 2048) :
    (iblk m hO c 2 t : Vec Ideal S1x1408x2048 .bf16) (ix3 (0 : Fin 1) i cc) = ((gr e i cc : ℝ) : EReal) := by
  have hfin : (⟨(tbl m 0 (ix1 (⟨t.val, t.isLt⟩ : Fin 72))).toNat, TableOk.tbl_range m _⟩ : Fin 8) = e := Fin.ext he
  rw [BlockReads.read2 m hO c t (TableOk.tbl_range m _) i cc, step_v112 m c, truncf_apply, hfin]
  exact hg e i cc

/-- The up weight block of a tile whose table entry is expert e. -/
theorem blk_up (hO : Ok m) (ur : Fin 8 → Fin 1408 → Fin 2048 → ℝ)
    (hu : ∀ e i cc, V m c main_arg4 (ix3 e i cc) = ((ur e i cc : ℝ) : EReal))
    (t : Fin (cfgM m hO).N) (e : Fin 8) (he : (tbl m 0 (ix1 (⟨t.val, t.isLt⟩ : Fin 72))).toNat = e.val)
    (i : Fin 1408) (cc : Fin 2048) :
    (iblk m hO c 3 t : Vec Ideal S1x1408x2048 .bf16) (ix3 (0 : Fin 1) i cc) = ((ur e i cc : ℝ) : EReal) := by
  have hfin : (⟨(tbl m 0 (ix1 (⟨t.val, t.isLt⟩ : Fin 72))).toNat, TableOk.tbl_range m _⟩ : Fin 8) = e := Fin.ext he
  rw [BlockReads.read3 m hO c t (TableOk.tbl_range m _) i cc, step_v113 m c, truncf_apply, hfin]
  exact hu e i cc

/-- The down weight block of a tile whose table entry is expert e. -/
theorem blk_down (hO : Ok m) (dr : Fin 8 → Fin 2048 → Fin 1408 → ℝ)
    (hd : ∀ e h i, V m c main_arg5 (ix3 e h i) = ((dr e h i : ℝ) : EReal))
    (t : Fin (cfgM m hO).N) (e : Fin 8) (he : (tbl m 0 (ix1 (⟨t.val, t.isLt⟩ : Fin 72))).toNat = e.val)
    (hh : Fin 2048) (i : Fin 1408) :
    (iblk m hO c 4 t : Vec Ideal S1x2048x1408 .bf16) (ix3 (0 : Fin 1) hh i) = ((dr e hh i : ℝ) : EReal) := by
  have hfin : (⟨(tbl m 0 (ix1 (⟨t.val, t.isLt⟩ : Fin 72))).toNat, TableOk.tbl_range m _⟩ : Fin 8) = e := Fin.ext he
  rw [BlockReads.read4 m hO c t (TableOk.tbl_range m _) hh i, step_v114 m c, truncf_apply, hfin]
  exact hd e hh i

/-- The tile that holds padded row pos j is given the expert of the pair at sorted position j. -/
theorem tile_expert (hO : Ok m) (hr : InRange m c) (j : Fin 8192) (t : Fin (cfgM m hO).N)
    (ht : t.val = Cert.Route.pos (key m c) j / 128) :
    (tbl m 0 (ix1 (⟨t.val, t.isLt⟩ : Fin 72))).toNat = (key m c j).val := by
  have hdev : c = 0 := Subsingleton.elim _ _
  subst hdev
  have hfin : (⟨t.val, t.isLt⟩ : Fin 72)
      = ⟨Cert.Route.pos (key m 0) j / 128, by have := pos_lt_9216 m 0 hr j; omega⟩ := Fin.ext ht
  rw [hfin]
  exact v102_apply m 0 hr j

/-- Row p = pos j of the kernel's output array, at channel h. -/
theorem out_row (hO : Ok m) (hr : InRange m c)
    (xr : Fin 4096 → Fin 2048 → ℝ) (wr : Fin 4096 → Fin 2 → ℝ)
    (gr ur : Fin 8 → Fin 1408 → Fin 2048 → ℝ) (dr : Fin 8 → Fin 2048 → Fin 1408 → ℝ) (R : Reals m c xr wr gr ur dr)
    (j : Fin 8192) (h : Fin 2048) :
    (dats m hO 0 c).arrAt 5 (cfgM m hO).N (ix2 (⟨Cert.Route.pos (key m c) j, pos_lt_9216 m c hr j⟩ : Fin 9216) h)
      = ((Cert.Spec.rowOut (xr ⟨(sigma m c j).val / 2, by omega⟩) (gr (key m c j)) (ur (key m c j)) (dr (key m c j))
          (wr ⟨(sigma m c j).val / 2, by omega⟩ ⟨(sigma m c j).val % 2, by omega⟩) h : ℝ) : EReal) := by
  have hp := pos_lt_9216 m c hr j
  -- the tile p / 128 and the row p % 128 inside it
  have hrow : 128 * (OutArr.tileOf (adm m hO) (⟨Cert.Route.pos (key m c) j, hp⟩ : Fin 9216)).val
      + (⟨Cert.Route.pos (key m c) j % 128, Nat.mod_lt _ (by decide)⟩ : Fin 128).val = Cert.Route.pos (key m c) j := by
    show 128 * (Cert.Route.pos (key m c) j / 128) + Cert.Route.pos (key m c) j % 128 = Cert.Route.pos (key m c) j
    omega
  have hexp := tile_expert m c hO hr j (OutArr.tileOf (adm m hO) (⟨Cert.Route.pos (key m c) j, hp⟩ : Fin 9216)) rfl
  rw [OutArr.arr_final_at m hO c ⟨Cert.Route.pos (key m c) j, hp⟩ h]
  unfold OutArr.tileVal
  exact BodyValue.pay_apply_row (xr ⟨(sigma m c j).val / 2, by omega⟩)
    (wr ⟨(sigma m c j).val / 2, by omega⟩ ⟨(sigma m c j).val % 2, by omega⟩)
    (gr (key m c j)) (ur (key m c j)) (dr (key m c j)) ⟨Cert.Route.pos (key m c) j % 128, Nat.mod_lt _ (by decide)⟩
    _ (blk_token m c hO hr xr R.hx j _ _ hrow)
    _ (blk_weight m c hO hr wr R.hw j _ _ hrow)
    _ (blk_gate m c hO gr R.hg _ (key m c j) hexp)
    _ (blk_up m c hO ur R.hu _ (key m c j) hexp)
    _ (blk_down m c hO dr R.hd _ (key m c j) hexp) h

/-- The output row that the inverse table names for the pair at sorted position j, when that pair is choice k of
    token n. -/
theorem pair_term (hO : Ok m) (hr : InRange m c)
    (xr : Fin 4096 → Fin 2048 → ℝ) (wr : Fin 4096 → Fin 2 → ℝ)
    (gr ur : Fin 8 → Fin 1408 → Fin 2048 → ℝ) (dr : Fin 8 → Fin 2048 → Fin 1408 → ℝ) (R : Reals m c xr wr gr ur dr)
    (j : Fin 8192) (n : Fin 4096) (k : Fin 2) (hq : (sigma m c j).val = 2 * n.val + k.val) (h : Fin 2048) :
    (dats m hO 0 c).arrAt 5 (cfgM m hO).N (ix2 (rowOf m c (sigma m c j)) h)
      = ((Cert.Spec.rowOut (xr n) (gr (key m c j)) (ur (key m c j)) (dr (key m c j)) (wr n k) h : ℝ) : EReal) := by
  have hn : (⟨(sigma m c j).val / 2, by omega⟩ : Fin 4096) = n := Fin.ext (by show (sigma m c j).val / 2 = n.val; omega)
  have hk : (⟨(sigma m c j).val % 2, by omega⟩ : Fin 2) = k := Fin.ext (by show (sigma m c j).val % 2 = k.val; omega)
  rw [rowOf_sigma m c hr j, out_row m c hO hr xr wr gr ur dr R j h, hn, hk]

/-- The kernel program's result at (n, h). -/
theorem result_apply (hO : Ok m) (hr : InRange m c)
    (xr : Fin 4096 → Fin 2048 → ℝ) (wr : Fin 4096 → Fin 2 → ℝ)
    (gr ur : Fin 8 → Fin 1408 → Fin 2048 → ℝ) (dr : Fin 8 → Fin 2048 → Fin 1408 → ℝ) (R : Reals m c xr wr gr ur dr)
    (n : Fin 4096) (h : Fin 2048) :
    Tail.resultOf ((dats m hO 0 c).arrAt 5 (cfgM m hO).N) (V m c main_v89) (ix2 n h)
      = ((∑ k : Fin 2, Cert.Spec.rowOut (xr n) (gr (ide m c ⟨2 * n.val + k.val, by omega⟩)) (ur (ide m c ⟨2 * n.val + k.val, by omega⟩))
          (dr (ide m c ⟨2 * n.val + k.val, by omega⟩)) (wr n k) h : ℝ) : EReal) := by
  rw [TailRead.result_read ((dats m hO 0 c).arrAt 5 (cfgM m hO).N) (V m c main_v89) (rowOf m c) (inv_toInt m c hr) n h,
    Cert.CosAttn.coe_sum]
  refine Finset.sum_congr rfl fun k _ => ?_
  obtain ⟨j, hj⟩ := (sigma_bijective m c).2 (⟨2 * n.val + k.val, by omega⟩ : Fin 8192)
  have hterm := pair_term m c hO hr xr wr gr ur dr R j n k (by rw [hj]) h
  have hkey : key m c j = ide m c ⟨2 * n.val + k.val, by omega⟩ := congrArg (ide m c) hj
  rw [hj, hkey] at hterm
  exact hterm

end Cert.KernelIdeal.KernelValue

end
-- ==== Proof.lean ====
/-
  The certificate of a sort-and-pad mixture-of-experts kernel against its dense reference.

  The kernel flattens the 4096 × 2 routing table into 8192 (token, expert) pairs, sorts them by expert, lays each
  expert's pairs out in a buffer padded per expert to a multiple of 128 rows, runs one grid point per 128-row tile
  — the SwiGLU MLP of the tile's rows against the tile's expert, with each row's routing weight applied to the hidden
  vector before the down projection — and gathers the rows back through the inverse of the layout, adding a token's
  two rows. The reference applies every expert to every token, takes the two chosen experts' outputs and adds them
  with the routing weights.

  Over the extended reals, for finite float inputs and expert ids in {0,…,7}, the two agree entry by entry: the
  routing arithmetic places pair q of token n in a padded row whose tile is given the pair's expert and which holds
  token n's row and the pair's weight (the counting is in RouteMath, its reading off the host program in the Sem
  modules); the body's value on such a row is the specification's rowOut (BodyValue); the reference's entry is the
  sum of refOut over the two choices (RefValue); and rowOut = refOut because the down projection is linear in the
  routing weight (Spec). The three frames: the two kernel programs run under the pipeline's side condition on the
  per-tile expert table, which holds of every input because the table is a clamp to {0,…,7} (TableOk); the
  reference's frame is its run with the result dropped. The idealization rewrote nothing, so it is preserved
  trivially.
-/
import proofs.«423491_j11716670783494_3_alg».proof.Defs
import proofs.«423491_j11716670783494_3_alg».proof.Proof.Gen.Kernel
import proofs.«423491_j11716670783494_3_alg».proof.Proof.Gen.Kernel.Frame
import proofs.«423491_j11716670783494_3_alg».proof.Proof.Gen.KernelIdeal
import proofs.«423491_j11716670783494_3_alg».proof.Proof.Gen.KernelIdeal.Frame
import proofs.«423491_j11716670783494_3_alg».proof.Proof.Gen.ReferenceIdeal
import proofs.«423491_j11716670783494_3_alg».proof.Proof.Gen.Pre_finite_inputs
import proofs.«423491_j11716670783494_3_alg».proof.Proof.TableOk
import proofs.«423491_j11716670783494_3_alg».proof.Proof.TableOkKernel
import proofs.«423491_j11716670783494_3_alg».proof.Proof.PreFacts
import proofs.«423491_j11716670783494_3_alg».proof.Proof.RefValue
import proofs.«423491_j11716670783494_3_alg».proof.Proof.KernelValue
import proofs.«423491_j11716670783494_3_alg».proof.Proof.Spec
import Idealize.ShloMosaic.Adequacy
import Idealize.ShloMosaic.Init

set_option maxRecDepth 16384

noncomputable section

namespace Cert.Proof

open Idealize.ShloMosaic Idealize.SL.Sem Idealize.ShloMosaic.ValueIdx

/-- The word-level kernel runs: its table of tile experts is a clamp, so the pipeline's side condition holds. -/
theorem frame_p : Cert.frame_Kernel := fun m ρ _ => Cert.Kernel.Gen.frame m ρ (Cert.Kernel.TableOk.ok m)

/-- The idealized kernel runs, for the same reason. -/
theorem frame_pi : Cert.frame_KernelIdeal := fun m ρ _ => Cert.KernelIdeal.Gen.frame m ρ (Cert.KernelIdeal.TableOk.ok m)

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Entry by entry the two results are the same real number: the kernel's sum of rowOut over the two choices, the
    reference's sum of refOut, equal term by term. -/
theorem algebraic : Cert.algebraic_KernelIdeal_ReferenceIdeal := by
  intro m ρ m' ρ' hpre hagree
  have hO : Cert.KernelIdeal.Gen.Ok m := Cert.KernelIdeal.TableOk.ok m
  refine ⟨fun c => Cert.KernelIdeal.Tail.resultOf ((Cert.KernelIdeal.Gen.dats m hO 0 c).arrAt 5 (Cert.KernelIdeal.Gen.cfgM m hO).N)
      (Cert.KernelIdeal.Gen.V m c Cert.KernelIdeal.main_v89), Cert.KernelIdeal.Tail.run m ρ hO, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2.1,
    (hagree c).2.2.2.2.1, (hagree c).2.2.2.2.2]
  -- what the precondition says of the inputs
  obtain ⟨⟨xr, hx⟩, hids, ⟨wr, hw⟩, ⟨gr, hg⟩, ⟨ur, hu⟩, ⟨dr, hd⟩⟩ := Cert.PreFacts.decode _ _ _ _ _ _ (hpre c)
  have R : Cert.KernelIdeal.KernelValue.Reals m c xr wr gr ur dr :=
    ⟨fun n cc => by rw [Cert.KernelIdeal.Gen.V_main_arg0 m c]; exact hx n cc,
     fun n k => by rw [Cert.KernelIdeal.Gen.V_main_arg2 m c]; exact hw n k,
     fun e i cc => by rw [Cert.KernelIdeal.Gen.V_main_arg3 m c]; exact hg e i cc,
     fun e i cc => by rw [Cert.KernelIdeal.Gen.V_main_arg4 m c]; exact hu e i cc,
     fun e h i => by rw [Cert.KernelIdeal.Gen.V_main_arg5 m c]; exact hd e h i⟩
  have hidw : ∀ q : Fin 8192, Cert.KernelIdeal.SemSort.idw m c q
      = m ((c.tc : Thread Cert.KernelIdeal.nD Cert.KernelIdeal.τ).loc Cert.KernelIdeal.main_arg1) (ix2 (⟨q.val / 2, by omega⟩ : Fin 4096) (⟨q.val % 2, by omega⟩ : Fin 2)) := by
    intro q
    unfold Cert.KernelIdeal.SemSort.idw
    rw [Cert.KernelIdeal.SemSort.v0_apply m c q, Cert.KernelIdeal.Gen.V_main_arg1 m c]
  have hr : Cert.KernelIdeal.SemSort.InRange m c := fun q => by rw [hidw q]; exact hids _ _
  -- the expert of choice k of token n
  have hex : ∀ (n : Fin 4096) (k : Fin 2),
      (m ((c.tc : Thread Cert.KernelIdeal.nD Cert.KernelIdeal.τ).loc Cert.KernelIdeal.main_arg1) (ix2 n k)).toInt
        = ((Cert.KernelIdeal.SemSort.ide m c ⟨2 * n.val + k.val, by omega⟩).val : Int) := by
    intro n k
    rw [← Cert.KernelIdeal.SemSort.ide_val m c hr ⟨2 * n.val + k.val, by omega⟩, hidw]
    have e1 : (⟨(⟨2 * n.val + k.val, by omega⟩ : Fin 8192).val / 2, by omega⟩ : Fin 4096) = n := Fin.ext (by show (2 * n.val + k.val) / 2 = n.val; omega)
    have e2 : (⟨(⟨2 * n.val + k.val, by omega⟩ : Fin 8192).val % 2, by omega⟩ : Fin 2) = k := Fin.ext (by show (2 * n.val + k.val) % 2 = k.val; omega)
    rw [e1, e2]
  funext i
  obtain ⟨n, h, rfl⟩ : ∃ (n : Fin 4096) (h : Fin 2048), i = ix2 n h := ⟨i 0, i 1, eq_ix2 i⟩
  rw [Cert.ReferenceIdeal.RefValue.ref_apply xr wr gr ur dr (fun n k => Cert.KernelIdeal.SemSort.ide m c ⟨2 * n.val + k.val, by omega⟩)
      _ hx _ hex _ hw _ hg _ hu _ hd n h]
  refine Eq.trans ?_ (Cert.KernelIdeal.KernelValue.result_apply m c hO hr xr wr gr ur dr R n h).symm
  exact congrArg _ (Finset.sum_congr rfl fun k _ => (Cert.Spec.rowOut_eq_refOut _ _ _ _ _ _).symm)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
